-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S2x3200000 : Shape := ⟨2, ![2, 3200000]⟩
abbrev S200000 : Shape := ⟨1, ![200000]⟩
abbrev S2x64 : Shape := ⟨2, ![2, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S3 .f32) (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  let main_v19 : FVec F S3 .f32 := Host.absf main_arg6
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S200000x2 .f32) (main_arg1 : IVec S2x3200000 32) (main_arg2 : IVec S200000 32) (main_arg3 : FVec F S2x64 .f32) (main_arg4 : FVec F S64 .f32) (main_arg5 : FVec F S64x3 .f32) (main_arg6 : FVec F S3 .f32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S2x64 .f32 := Host.absf main_arg3
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x3 .f32 := Host.absf main_arg5
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_arg6 main_v13 main_v16
-- ==== Kernel.lean ====
abbrev S200000x2 : Shape := ⟨2, ![200000, 2]⟩
abbrev S2x3200000 : Shape := ⟨2, ![2, 3200000]⟩
abbrev S200000 : Shape := ⟨1, ![200000]⟩
abbrev S2x64 : Shape := ⟨2, ![2, 64]⟩
abbrev S64 : Shape := ⟨1, ![64]⟩
abbrev S64x3 : Shape := ⟨2, ![64, 3]⟩
abbrev S3 : Shape := ⟨1, ![3]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S200000x64 : Shape := ⟨2, ![200000, 64]⟩
abbrev S8000x2 : Shape := ⟨2, ![8000, 2]⟩
abbrev S8000x64 : Shape := ⟨2, ![8000, 64]⟩
abbrev S3400000x64 : Shape := ⟨2, ![3400000, 64]⟩
abbrev S1x64 : Shape := ⟨2, ![1, 64]⟩
abbrev S200000x3 : Shape := ⟨2, ![200000, 3]⟩
abbrev S8000x3 : Shape := ⟨2, ![8000, 3]⟩
abbrev S3400000x3 : Shape := ⟨2, ![3400000, 3]⟩
abbrev S200000x1 : Shape := ⟨2, ![200000, 1]⟩
abbrev S1x3 : Shape := ⟨2, ![1, 3]⟩
abbrev S512x3 : Shape := ⟨2, ![512, 3]⟩
abbrev S4000x3 : Shape := ⟨2, ![4000, 3]⟩
abbrev S4000x1 : Shape := ⟨2, ![4000, 1]⟩
abbrev S512x1 : Shape := ⟨2, ![512, 1]⟩
abbrev S1x512 : Shape := ⟨2, ![1, 512]⟩
abbrev S4000x512 : Shape := ⟨2, ![4000, 512]⟩
abbrev S512 : Shape := ⟨1, ![512]⟩

abbrev nBuf : Space → Nat
  | .hbm => 80
  | .vmem => 18
  | .smem => 0
  | _ => 0

abbrev bufTy : (tb : Table) → Fin (tcTables nBuf tb) → BufTy
  | .hbm, ⟨0, _⟩ => ⟨S200000x2, .f32⟩
  | .hbm, ⟨1, _⟩ => ⟨S2x3200000, .i32⟩
  | .hbm, ⟨2, _⟩ => ⟨S200000, .i32⟩
  | .hbm, ⟨3, _⟩ => ⟨S2x64, .f32⟩
  | .hbm, ⟨4, _⟩ => ⟨S64, .f32⟩
  | .hbm, ⟨5, _⟩ => ⟨S64x3, .f32⟩
  | .hbm, ⟨6, _⟩ => ⟨S3, .f32⟩
  | .hbm, ⟨7, _⟩ => ⟨S200000, .i32⟩
  | .hbm, ⟨8, _⟩ => ⟨S1x3200000, .i32⟩
  | .hbm, ⟨9, _⟩ => ⟨S3200000, .i32⟩
  | .hbm, ⟨10, _⟩ => ⟨S3400000, .i32⟩
  | .hbm, ⟨11, _⟩ => ⟨S1x3200000, .i32⟩
  | .hbm, ⟨12, _⟩ => ⟨S3200000, .i32⟩
  | .hbm, ⟨13, _⟩ => ⟨S3400000, .i32⟩
  | .hbm, ⟨14, _⟩ => ⟨S_, .f32⟩
  | .hbm, ⟨15, _⟩ => ⟨S3400000, .f32⟩
  | .hbm, ⟨16, _⟩ => ⟨S_, .f32⟩
  | .hbm, ⟨17, _⟩ => ⟨S200000, .f32⟩
  | .hbm, ⟨18, _⟩ => ⟨S3400000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .f32⟩
  | .hbm, ⟨23, _⟩ => ⟨S200000, .f32⟩
  | .hbm, ⟨24, _⟩ => ⟨S_, .i32⟩
  | .hbm, ⟨25, _⟩ => ⟨S3400000, .i32⟩
  | .hbm, ⟨26, _⟩ => ⟨S3400000, .i1⟩
  | .hbm, ⟨27, _⟩ => ⟨S_, .i32⟩
  | .hbm, ⟨28, _⟩ => ⟨S3400000, .i32⟩
  | .hbm, ⟨29, _⟩ => ⟨S3400000, .i32⟩
  | .hbm, ⟨30, _⟩ => ⟨S3400000, .i32⟩
  | .hbm, ⟨31, _⟩ => ⟨S3400000x1, .i32⟩
  | .hbm, ⟨32, _⟩ => ⟨S3400000, .f32⟩
  | .hbm, ⟨33, _⟩ => ⟨S_, .i32⟩
  | .hbm, ⟨34, _⟩ => ⟨S3400000, .i32⟩
  | .hbm, ⟨35, _⟩ => ⟨S3400000, .i1⟩
  | .hbm, ⟨36, _⟩ => ⟨S_, .i32⟩
  | .hbm, ⟨37, _⟩ => ⟨S3400000, .i32⟩
  | .hbm, ⟨38, _⟩ => ⟨S3400000, .i32⟩
  | .hbm, ⟨39, _⟩ => ⟨S3400000, .i32⟩
  | .hbm, ⟨40, _⟩ => ⟨S3400000x1, .i32⟩
  | .hbm, ⟨41, _⟩ => ⟨S3400000, .f32⟩
  | .hbm, ⟨42, _⟩ => ⟨S3400000, .f32⟩
  | .hbm, ⟨43, _⟩ => ⟨S3400000x1, .f32⟩
  | .hbm, ⟨44, _⟩ => ⟨S200000x64, .f32⟩
  | .hbm, ⟨45, _⟩ => ⟨S_, .i32⟩
  | .hbm, ⟨46, _⟩ => ⟨S3400000, .i32⟩
  | .hbm, ⟨47, _⟩ => ⟨S3400000, .i1⟩
  | .hbm, ⟨48, _⟩ => ⟨S_, .i32⟩
  | .hbm, ⟨49, _⟩ => ⟨S3400000, .i32⟩
  | .hbm, ⟨50, _⟩ => ⟨S3400000, .i32⟩
  | .hbm, ⟨51, _⟩ => ⟨S3400000, .i32⟩
  | .hbm, ⟨52, _⟩ => ⟨S3400000x1, .i32⟩
  | .hbm, ⟨53, _⟩ => ⟨S3400000x64, .f32⟩
  | .hbm, ⟨54, _⟩ => ⟨S3400000x64, .f32⟩
  | .hbm, ⟨55, _⟩ => ⟨S3400000x64, .f32⟩
  | .hbm, ⟨56, _⟩ => ⟨S_, .f32⟩
  | .hbm, ⟨57, _⟩ => ⟨S200000x64, .f32⟩
  | .hbm, ⟨58, _⟩ => ⟨S3400000x1, .i32⟩
  | .hbm, ⟨59, _⟩ => ⟨S200000x64, .f32⟩
  | .hbm, ⟨60, _⟩ => ⟨S1x64, .f32⟩
  | .hbm, ⟨61, _⟩ => ⟨S200000x3, .f32⟩
  | .hbm, ⟨62, _⟩ => ⟨S_, .i32⟩
  | .hbm, ⟨63, _⟩ => ⟨S3400000, .i32⟩
  | .hbm, ⟨64, _⟩ => ⟨S3400000, .i1⟩
  | .hbm, ⟨65, _⟩ => ⟨S_, .i32⟩
  | .hbm, ⟨66, _⟩ => ⟨S3400000, .i32⟩
  | .hbm, ⟨67, _⟩ => ⟨S3400000, .i32⟩
  | .hbm, ⟨68, _⟩ => ⟨S3400000, .i32⟩
  | .hbm, ⟨69, _⟩ => ⟨S3400000x1, .i32⟩
  | .hbm, ⟨70, _⟩ => ⟨S3400000x3, .f32⟩
  | .hbm, ⟨71, _⟩ => ⟨S3400000x3, .f32⟩
  | .hbm, ⟨72, _⟩ => ⟨S3400000x3, .f32⟩
  | .hbm, ⟨73, _⟩ => ⟨S_, .f32⟩
  | .hbm, ⟨74, _⟩ => ⟨S200000x3, .f32⟩
  | .hbm, ⟨75, _⟩ => ⟨S3400000x1, .i32⟩
  | .hbm, ⟨76, _⟩ => ⟨S200000x3, .f32⟩
  | .hbm, ⟨77, _⟩ => ⟨S200000x1, .i32⟩
  | .hbm, ⟨78, _⟩ => ⟨S1x3, .f32⟩
  | .hbm, ⟨79, _⟩ => ⟨S512x3, .f32⟩
  | .local _ .vmem, ⟨0, _⟩ => ⟨S8000x2, .f32⟩
  | .local _ .vmem, ⟨1, _⟩ => ⟨S8000x2, .f32⟩
  | .local _ .vmem, ⟨2, _⟩ => ⟨S2x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x64, .f32⟩
  | .local _ .vmem, ⟨7, _⟩ => ⟨S1x64, .f32⟩
  | .local _ .vmem, ⟨8, _⟩ => ⟨S64x3, .f32⟩
  | .local _ .vmem, ⟨9, _⟩ => ⟨S8000x3, .f32⟩
  | .local _ .vmem, ⟨10, _⟩ => ⟨S8000x3, .f32⟩
  | .local _ .vmem, ⟨11, _⟩ => ⟨S4000x3, .f32⟩
  | .local _ .vmem, ⟨12, _⟩ => ⟨S4000x3, .f32⟩
  | .local _ .vmem, ⟨13, _⟩ => ⟨S1x3, .f32⟩
  | .local _ .vmem, ⟨14, _⟩ => ⟨S4000x1, .i32⟩
  | .local _ .vmem, ⟨15, _⟩ => ⟨S4000x1, .i32⟩
  | .local _ .vmem, ⟨16, _⟩ => ⟨S512x3, .f32⟩
  | .local _ .vmem, ⟨17, _⟩ => ⟨S512x1, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  inb_S8000x2_S8000x2_0_0 : ∀ a, (![0, 0] : Fin 2 → Nat) a + S8000x2.size a ≤ S8000x2.size a
  h_S8000x2 : 0 < S8000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S8000x64_S8000x64_0_0 : ∀ a, (![0, 0] : Fin 2 → Nat) a + S8000x64.size a ≤ S8000x64.size a
  h_S8000x64 : 0 < S8000x64.numel
  bcast_S3400000x1_S3400000x64_0_1 : S3400000x1.BroadcastsInDim S3400000x64 (![0, 1] : Fin 2 → Fin S3400000x64.rank)
  bcast_S_S200000x64 : S_.BroadcastsInDim S200000x64 (![] : Fin 0 → Fin S200000x64.rank)
  shapeCasts_S64_S1x64 : S64.ShapeCasts S1x64
  shapeCasts_S8000x64_S8000x64 : S8000x64.ShapeCasts S8000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x3_S64x3_0_0 : ∀ a, (![0, 0] : Fin 2 → Nat) a + S64x3.size a ≤ S64x3.size a
  h_S64x3 : 0 < S64x3.numel
  inb_S8000x3_S8000x3_0_0 : ∀ a, (![0, 0] : Fin 2 → Nat) a + S8000x3.size a ≤ S8000x3.size a
  h_S8000x3 : 0 < S8000x3.numel
  bcast_S3400000x1_S3400000x3_0_1 : S3400000x1.BroadcastsInDim S3400000x3 (![0, 1] : Fin 2 → Fin S3400000x3.rank)
  bcast_S_S200000x3 : S_.BroadcastsInDim S200000x3 (![] : Fin 0 → Fin S200000x3.rank)
  shapeCasts_S200000_S200000x1 : S200000.ShapeCasts S200000x1
  shapeCasts_S3_S1x3 : S3.ShapeCasts S1x3
  inb_S512x3_S512x3_0_0 : ∀ a, (![0, 0] : Fin 2 → Nat) a + S512x3.size a ≤ S512x3.size a
  h_S512x3 : 0 < S512x3.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S1x512_d1_w32 : S1x512.Iotas .tc 32 [1]
  broadcasts_S4000x1_S4000x512 : S4000x1.Broadcasts S4000x512
  broadcasts_S1x512_S4000x512 : S1x512.Broadcasts S4000x512
  natLt_1_32 : 1 < 32
  shapeCasts_S512x3_S512x3 : S512x3.ShapeCasts S512x3
  broadcasts_S512x1_S512x3 : S512x1.Broadcasts S512x3
  reduces_S512x3_S512 : S512x3.Reduces [1] S512
  shapeCasts_S512_S512x1 : S512.ShapeCasts S512x1
  scatter_S200000_S3400000x1_S3400000_n_0_0_1_wf : ScatterDims.WF S200000 S3400000x1 S3400000 [] [0] [0] 1
  gather_S200000_S3400000x1_S3400000_n_0_n_n_0_1_1_wf : GatherDims.WF S200000 S3400000x1 S3400000 [] [0] [] [0] [] 1 ![1]
  dot_S8000x2_S2x64_S8000x64_1_0_0_1_n_n_wf : DotDims.WF S8000x2 S2x64 S8000x64 [1] [0] [0] [1] [] []
  gather_S200000x64_S3400000x1_S3400000x64_1_0_n_n_0_1_164_wf : GatherDims.WF S200000x64 S3400000x1 S3400000x64 [1] [0] [] [0] [] 1 ![1, 64]
  scatter_S200000x64_S3400000x1_S3400000x64_1_0_0_1_wf : ScatterDims.WF S200000x64 S3400000x1 S3400000x64 [1] [0] [0] 1
  dot_S8000x64_S64x3_S8000x3_1_0_0_1_n_n_wf : DotDims.WF S8000x64 S64x3 S8000x3 [1] [0] [0] [1] [] []
  gather_S200000x3_S3400000x1_S3400000x3_1_0_n_n_0_1_13_wf : GatherDims.WF S200000x3 S3400000x1 S3400000x3 [1] [0] [] [0] [] 1 ![1, 3]
  scatter_S200000x3_S3400000x1_S3400000x3_1_0_0_1_wf : ScatterDims.WF S200000x3 S3400000x1 S3400000x3 [1] [0] [0] 1
  dot_S4000x512_S4000x3_S512x3_0_0_1_1_n_n_wf : DotDims.WF S4000x512 S4000x3 S512x3 [0] [0] [1] [1] [] []
  dot_S4000x512_S4000x1_S512x1_0_0_1_1_n_n_wf : DotDims.WF S4000x512 S4000x1 S512x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S200000x2.size a
  hwx0_0 : ∀ i : grid0.Coords, EltTy.bits .f32 = 32 ∨ (Rect.block (s := S200000x2) S8000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S200000x64.size a
  hwx0_2 : ∀ i : grid0.Coords, EltTy.bits .f32 = 32 ∨ (Rect.block (s := S200000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S200000x64.size a
  hwx1_0 : ∀ i : grid1.Coords, EltTy.bits .f32 = 32 ∨ (Rect.block (s := S200000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x3.size a ≤ S64x3.size a
  hwx1_2 : ∀ i : grid1.Coords, EltTy.bits .f32 = 32 ∨ (Rect.block (s := S64x3) S64x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x3.size a ≤ S200000x3.size a
  hwx1_3 : ∀ i : grid1.Coords, EltTy.bits .f32 = 32 ∨ (Rect.block (s := S200000x3) S8000x3.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x3.size a ≤ S200000x3.size a
  hwx2_0 : ∀ i : grid2.Coords, EltTy.bits .f32 = 32 ∨ (Rect.block (s := S200000x3) S4000x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x3.size a ≤ S1x3.size a
  hwx2_1 : ∀ i : grid2.Coords, EltTy.bits .f32 = 32 ∨ (Rect.block (s := S1x3) S1x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S200000x1.size a
  hwx2_2 : ∀ i : grid2.Coords, EltTy.bits .i32 = 32 ∨ (Rect.block (s := S200000x1) S4000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x3.size a ≤ S512x3.size a
  hwx2_3 : ∀ i : grid2.Coords, EltTy.bits .f32 = 32 ∨ (Rect.block (s := S512x3) S512x3.size (cc2_transform_3 i) (hinb2_3 i)).WholeWords (EltTy.packing .f32)

variable [Facts₀]

def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def dot_S8000x2_S2x64_S8000x64_1_0_0_1_n_n : DotDims S8000x2 S2x64 S8000x64 where
  lhsContracting := [1]
  rhsContracting := [0]
  lhsNonContracting := [0]
  rhsNonContracting := [1]
  lhsBatch := []
  rhsBatch := []
  wf := dot_S8000x2_S2x64_S8000x64_1_0_0_1_n_n_wf
def gather_S200000x64_S3400000x1_S3400000x64_1_0_n_n_0_1_164 : GatherDims S200000x64 S3400000x1 S3400000x64 where
  offsetDims := [1]
  collapsedSliceDims := [0]
  operandBatchingDims := []
  startIndicesBatchingDims := []
  startIndexMap := [0]
  indexVectorDim := 1
  sliceSizes := ![1, 64]
  wf := gather_S200000x64_S3400000x1_S3400000x64_1_0_n_n_0_1_164_wf
def scatter_S200000x64_S3400000x1_S3400000x64_1_0_0_1 : ScatterDims S200000x64 S3400000x1 S3400000x64 where
  updateWindowDims := [1]
  insertedWindowDims := [0]
  scatterDimsToOperandDims := [0]
  indexVectorDim := 1
  wf := scatter_S200000x64_S3400000x1_S3400000x64_1_0_0_1_wf
def dot_S8000x64_S64x3_S8000x3_1_0_0_1_n_n : DotDims S8000x64 S64x3 S8000x3 where
  lhsContracting := [1]
  rhsContracting := [0]
  lhsNonContracting := [0]
  rhsNonContracting := [1]
  lhsBatch := []
  rhsBatch := []
  wf := dot_S8000x64_S64x3_S8000x3_1_0_0_1_n_n_wf
def gather_S200000x3_S3400000x1_S3400000x3_1_0_n_n_0_1_13 : GatherDims S200000x3 S3400000x1 S3400000x3 where
  offsetDims := [1]
  collapsedSliceDims := [0]
  operandBatchingDims := []
  startIndicesBatchingDims := []
  startIndexMap := [0]
  indexVectorDim := 1
  sliceSizes := ![1, 3]
  wf := gather_S200000x3_S3400000x1_S3400000x3_1_0_n_n_0_1_13_wf
def scatter_S200000x3_S3400000x1_S3400000x3_1_0_0_1 : ScatterDims S200000x3 S3400000x1 S3400000x3 where
  updateWindowDims := [1]
  insertedWindowDims := [0]
  scatterDimsToOperandDims := [0]
  indexVectorDim := 1
  wf := scatter_S200000x3_S3400000x1_S3400000x3_1_0_0_1_wf
def dot_S4000x512_S4000x3_S512x3_0_0_1_1_n_n : DotDims S4000x512 S4000x3 S512x3 where
  lhsContracting := [0]
  rhsContracting := [0]
  lhsNonContracting := [1]
  rhsNonContracting := [1]
  lhsBatch := []
  rhsBatch := []
  wf := dot_S4000x512_S4000x3_S512x3_0_0_1_1_n_n_wf
def dot_S4000x512_S4000x1_S512x1_0_0_1_1_n_n : DotDims S4000x512 S4000x1 S512x1 where
  lhsContracting := [0]
  rhsContracting := [0]
  lhsNonContracting := [1]
  rhsNonContracting := [1]
  lhsBatch := []
  rhsBatch := []
  wf := dot_S4000x512_S4000x1_S512x1_0_0_1_1_n_n_wf

abbrev win0_0 : Pipeline.Window sig grid0 :=
  Pipeline.Window.ofSpec (Memref.whole main_arg0) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S8000x3.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S4000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S512x3.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x2 : Shape := ⟨2, ![200000, 2]⟩
abbrev S2x3200000 : Shape := ⟨2, ![2, 3200000]⟩
abbrev S200000 : Shape := ⟨1, ![200000]⟩
abbrev S2x64 : Shape := ⟨2, ![2, 64]⟩
abbrev S64 : Shape := ⟨1, ![64]⟩
abbrev S64x3 : Shape := ⟨2, ![64, 3]⟩
abbrev S3 : Shape := ⟨1, ![3]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S200000x64 : Shape := ⟨2, ![200000, 64]⟩
abbrev S3400000x64 : Shape := ⟨2, ![3400000, 64]⟩
abbrev S1x64 : Shape := ⟨2, ![1, 64]⟩
abbrev S200000x3 : Shape := ⟨2, ![200000, 3]⟩
abbrev S3400000x3 : Shape := ⟨2, ![3400000, 3]⟩
abbrev S1x3 : Shape := ⟨2, ![1, 3]⟩
abbrev S512 : Shape := ⟨1, ![512]⟩
abbrev S200000x1 : Shape := ⟨2, ![200000, 1]⟩
abbrev S512x3 : Shape := ⟨2, ![512, 3]⟩
abbrev S512x1 : Shape := ⟨2, ![512, 1]⟩

abbrev nBuf : Space → Nat
  | .hbm => 116
  | .vmem => 0
  | .smem => 0
  | _ => 0

abbrev bufTy : (tb : Table) → Fin (tcTables nBuf tb) → BufTy
  | .hbm, ⟨0, _⟩ => ⟨S200000x2, .f32⟩
  | .hbm, ⟨1, _⟩ => ⟨S2x3200000, .i32⟩
  | .hbm, ⟨2, _⟩ => ⟨S200000, .i32⟩
  | .hbm, ⟨3, _⟩ => ⟨S2x64, .f32⟩
  | .hbm, ⟨4, _⟩ => ⟨S64, .f32⟩
  | .hbm, ⟨5, _⟩ => ⟨S64x3, .f32⟩
  | .hbm, ⟨6, _⟩ => ⟨S3, .f32⟩
  | .hbm, ⟨7, _⟩ => ⟨S200000, .i32⟩
  | .hbm, ⟨8, _⟩ => ⟨S1x3200000, .i32⟩
  | .hbm, ⟨9, _⟩ => ⟨S3200000, .i32⟩
  | .hbm, ⟨10, _⟩ => ⟨S3400000, .i32⟩
  | .hbm, ⟨11, _⟩ => ⟨S1x3200000, .i32⟩
  | .hbm, ⟨12, _⟩ => ⟨S3200000, .i32⟩
  | .hbm, ⟨13, _⟩ => ⟨S3400000, .i32⟩
  | .hbm, ⟨14, _⟩ => ⟨S_, .f32⟩
  | .hbm, ⟨15, _⟩ => ⟨S3400000, .f32⟩
  | .hbm, ⟨16, _⟩ => ⟨S_, .f32⟩
  | .hbm, ⟨17, _⟩ => ⟨S200000, .f32⟩
  | .hbm, ⟨18, _⟩ => ⟨S3400000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .f32⟩
  | .hbm, ⟨23, _⟩ => ⟨S200000, .f32⟩
  | .hbm, ⟨24, _⟩ => ⟨S_, .i32⟩
  | .hbm, ⟨25, _⟩ => ⟨S3400000, .i32⟩
  | .hbm, ⟨26, _⟩ => ⟨S3400000, .i1⟩
  | .hbm, ⟨27, _⟩ => ⟨S_, .i32⟩
  | .hbm, ⟨28, _⟩ => ⟨S3400000, .i32⟩
  | .hbm, ⟨29, _⟩ => ⟨S3400000, .i32⟩
  | .hbm, ⟨30, _⟩ => ⟨S3400000, .i32⟩
  | .hbm, ⟨31, _⟩ => ⟨S3400000x1, .i32⟩
  | .hbm, ⟨32, _⟩ => ⟨S3400000, .f32⟩
  | .hbm, ⟨33, _⟩ => ⟨S_, .i32⟩
  | .hbm, ⟨34, _⟩ => ⟨S3400000, .i32⟩
  | .hbm, ⟨35, _⟩ => ⟨S3400000, .i1⟩
  | .hbm, ⟨36, _⟩ => ⟨S_, .i32⟩
  | .hbm, ⟨37, _⟩ => ⟨S3400000, .i32⟩
  | .hbm, ⟨38, _⟩ => ⟨S3400000, .i32⟩
  | .hbm, ⟨39, _⟩ => ⟨S3400000, .i32⟩
  | .hbm, ⟨40, _⟩ => ⟨S3400000x1, .i32⟩
  | .hbm, ⟨41, _⟩ => ⟨S3400000, .f32⟩
  | .hbm, ⟨42, _⟩ => ⟨S3400000, .f32⟩
  | .hbm, ⟨43, _⟩ => ⟨S3400000x1, .f32⟩
  | .hbm, ⟨44, _⟩ => ⟨S200000x64, .f32⟩
  | .hbm, ⟨45, _⟩ => ⟨S_, .i32⟩
  | .hbm, ⟨46, _⟩ => ⟨S3400000, .i32⟩
  | .hbm, ⟨47, _⟩ => ⟨S3400000, .i1⟩
  | .hbm, ⟨48, _⟩ => ⟨S_, .i32⟩
  | .hbm, ⟨49, _⟩ => ⟨S3400000, .i32⟩
  | .hbm, ⟨50, _⟩ => ⟨S3400000, .i32⟩
  | .hbm, ⟨51, _⟩ => ⟨S3400000, .i32⟩
  | .hbm, ⟨52, _⟩ => ⟨S3400000x1, .i32⟩
  | .hbm, ⟨53, _⟩ => ⟨S3400000x64, .f32⟩
  | .hbm, ⟨54, _⟩ => ⟨S3400000x64, .f32⟩
  | .hbm, ⟨55, _⟩ => ⟨S3400000x64, .f32⟩
  | .hbm, ⟨56, _⟩ => ⟨S_, .f32⟩
  | .hbm, ⟨57, _⟩ => ⟨S200000x64, .f32⟩
  | .hbm, ⟨58, _⟩ => ⟨S3400000x1, .i32⟩
  | .hbm, ⟨59, _⟩ => ⟨S200000x64, .f32⟩
  | .hbm, ⟨60, _⟩ => ⟨S1x64, .f32⟩
  | .hbm, ⟨61, _⟩ => ⟨S200000x64, .f32⟩
  | .hbm, ⟨62, _⟩ => ⟨S200000x64, .f32⟩
  | .hbm, ⟨63, _⟩ => ⟨S_, .f32⟩
  | .hbm, ⟨64, _⟩ => ⟨S200000x64, .f32⟩
  | .hbm, ⟨65, _⟩ => ⟨S200000x64, .f32⟩
  | .hbm, ⟨66, _⟩ => ⟨S200000x3, .f32⟩
  | .hbm, ⟨67, _⟩ => ⟨S_, .i32⟩
  | .hbm, ⟨68, _⟩ => ⟨S3400000, .i32⟩
  | .hbm, ⟨69, _⟩ => ⟨S3400000, .i1⟩
  | .hbm, ⟨70, _⟩ => ⟨S_, .i32⟩
  | .hbm, ⟨71, _⟩ => ⟨S3400000, .i32⟩
  | .hbm, ⟨72, _⟩ => ⟨S3400000, .i32⟩
  | .hbm, ⟨73, _⟩ => ⟨S3400000, .i32⟩
  | .hbm, ⟨74, _⟩ => ⟨S3400000x1, .i32⟩
  | .hbm, ⟨75, _⟩ => ⟨S3400000x3, .f32⟩
  | .hbm, ⟨76, _⟩ => ⟨S3400000x3, .f32⟩
  | .hbm, ⟨77, _⟩ => ⟨S3400000x3, .f32⟩
  | .hbm, ⟨78, _⟩ => ⟨S_, .f32⟩
  | .hbm, ⟨79, _⟩ => ⟨S200000x3, .f32⟩
  | .hbm, ⟨80, _⟩ => ⟨S3400000x1, .i32⟩
  | .hbm, ⟨81, _⟩ => ⟨S200000x3, .f32⟩
  | .hbm, ⟨82, _⟩ => ⟨S1x3, .f32⟩
  | .hbm, ⟨83, _⟩ => ⟨S200000x3, .f32⟩
  | .hbm, ⟨84, _⟩ => ⟨S200000x3, .f32⟩
  | .hbm, ⟨85, _⟩ => ⟨S_, .f32⟩
  | .hbm, ⟨86, _⟩ => ⟨S200000, .f32⟩
  | .hbm, ⟨87, _⟩ => ⟨S_, .f32⟩
  | .hbm, ⟨88, _⟩ => ⟨S512, .f32⟩
  | .hbm, ⟨89, _⟩ => ⟨S200000x1, .i32⟩
  | .hbm, ⟨90, _⟩ => ⟨S512, .f32⟩
  | .hbm, ⟨91, _⟩ => ⟨S_, .f32⟩
  | .hbm, ⟨92, _⟩ => ⟨S512x3, .f32⟩
  | .hbm, ⟨93, _⟩ => ⟨S200000x1, .i32⟩
  | .hbm, ⟨94, _⟩ => ⟨S512x3, .f32⟩
  | .hbm, ⟨95, _⟩ => ⟨S_, .f32⟩
  | .hbm, ⟨96, _⟩ => ⟨S512, .f32⟩
  | .hbm, ⟨97, _⟩ => ⟨S512, .f32⟩
  | .hbm, ⟨98, _⟩ => ⟨S512x1, .f32⟩
  | .hbm, ⟨99, _⟩ => ⟨S512x3, .f32⟩
  | .hbm, ⟨100, _⟩ => ⟨S512x3, .f32⟩
  | .hbm, ⟨101, _⟩ => ⟨S_, .f32⟩
  | .hbm, ⟨102, _⟩ => ⟨S512, .f32⟩
  | .hbm, ⟨103, _⟩ => ⟨S_, .f32⟩
  | .hbm, ⟨104, _⟩ => ⟨S512, .f32⟩
  | .hbm, ⟨105, _⟩ => ⟨S512, .f32⟩
  | .hbm, ⟨106, _⟩ => ⟨S512x1, .f32⟩
  | .hbm, ⟨107, _⟩ => ⟨S512x3, .f32⟩
  | .hbm, ⟨108, _⟩ => ⟨S512x3, .f32⟩
  | .hbm, ⟨109, _⟩ => ⟨S512x3, .f32⟩
  | .hbm, ⟨110, _⟩ => ⟨S_, .f32⟩
  | .hbm, ⟨111, _⟩ => ⟨S512, .f32⟩
  | .hbm, ⟨112, _⟩ => ⟨S512x1, .f32⟩
  | .hbm, ⟨113, _⟩ => ⟨S512x1, .f32⟩
  | .hbm, ⟨114, _⟩ => ⟨S512x3, .f32⟩
  | .hbm, ⟨115, _⟩ => ⟨S512x3, .f32⟩
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call1_cst : Ref sig .tc := ⟨.hbm, 101, rfl⟩
abbrev main_call1_v0 : Ref sig .tc := ⟨.hbm, 102, rfl⟩
abbrev main_call1_cst_0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_cst_1 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_v75 : Ref sig .tc := ⟨.hbm, 115, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  bcast_S3400000x1_S3400000x64_0_1 : S3400000x1.BroadcastsInDim S3400000x64 (![0, 1] : Fin 2 → Fin S3400000x64.rank)
  bcast_S_S200000x64 : S_.BroadcastsInDim S200000x64 (![] : Fin 0 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S3400000x1_S3400000x3_0_1 : S3400000x1.BroadcastsInDim S3400000x3 (![0, 1] : Fin 2 → Fin S3400000x3.rank)
  bcast_S_S200000x3 : S_.BroadcastsInDim S200000x3 (![] : Fin 0 → Fin S200000x3.rank)
  bcast_S3_S1x3_1 : S3.BroadcastsInDim S1x3 (![1] : Fin 1 → Fin S1x3.rank)
  bcast_S1x3_S200000x3_0_1 : S1x3.BroadcastsInDim S200000x3 (![0, 1] : Fin 2 → Fin S200000x3.rank)
  bcast_S_S512 : S_.BroadcastsInDim S512 (![] : Fin 0 → Fin S512.rank)
  bcast_S200000_S200000x1_0 : S200000.BroadcastsInDim S200000x1 (![0] : Fin 1 → Fin S200000x1.rank)
  bcast_S_S512x3 : S_.BroadcastsInDim S512x3 (![] : Fin 0 → Fin S512x3.rank)
  bcast_S512_S512x1_0 : S512.BroadcastsInDim S512x1 (![0] : Fin 1 → Fin S512x1.rank)
  bcast_S512x1_S512x3_0_1 : S512x1.BroadcastsInDim S512x3 (![0, 1] : Fin 2 → Fin S512x3.rank)
  reducesTo_S512x3_S512_d1 : S512x3.ReducesTo [1] S512
  h_S_ : 0 < S_.numel
  scatter_S200000_S3400000x1_S3400000_n_0_0_1_wf : ScatterDims.WF S200000 S3400000x1 S3400000 [] [0] [0] 1
  gather_S200000_S3400000x1_S3400000_n_0_n_n_0_1_1_wf : GatherDims.WF S200000 S3400000x1 S3400000 [] [0] [] [0] [] 1 ![1]
  dot_S200000x2_S2x64_S200000x64_1_0_0_1_n_n_wf : DotDims.WF S200000x2 S2x64 S200000x64 [1] [0] [0] [1] [] []
  gather_S200000x64_S3400000x1_S3400000x64_1_0_n_n_0_1_164_wf : GatherDims.WF S200000x64 S3400000x1 S3400000x64 [1] [0] [] [0] [] 1 ![1, 64]
  scatter_S200000x64_S3400000x1_S3400000x64_1_0_0_1_wf : ScatterDims.WF S200000x64 S3400000x1 S3400000x64 [1] [0] [0] 1
  dot_S200000x64_S64x3_S200000x3_1_0_0_1_n_n_wf : DotDims.WF S200000x64 S64x3 S200000x3 [1] [0] [0] [1] [] []
  gather_S200000x3_S3400000x1_S3400000x3_1_0_n_n_0_1_13_wf : GatherDims.WF S200000x3 S3400000x1 S3400000x3 [1] [0] [] [0] [] 1 ![1, 3]
  scatter_S200000x3_S3400000x1_S3400000x3_1_0_0_1_wf : ScatterDims.WF S200000x3 S3400000x1 S3400000x3 [1] [0] [0] 1
  scatter_S512_S200000x1_S200000_n_0_0_1_wf : ScatterDims.WF S512 S200000x1 S200000 [] [0] [0] 1
  scatter_S512x3_S200000x1_S200000x3_1_0_0_1_wf : ScatterDims.WF S512x3 S200000x1 S200000x3 [1] [0] [0] 1

variable [Facts₀]

def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def dot_S200000x2_S2x64_S200000x64_1_0_0_1_n_n : DotDims S200000x2 S2x64 S200000x64 where
  lhsContracting := [1]
  rhsContracting := [0]
  lhsNonContracting := [0]
  rhsNonContracting := [1]
  lhsBatch := []
  rhsBatch := []
  wf := dot_S200000x2_S2x64_S200000x64_1_0_0_1_n_n_wf
def gather_S200000x64_S3400000x1_S3400000x64_1_0_n_n_0_1_164 : GatherDims S200000x64 S3400000x1 S3400000x64 where
  offsetDims := [1]
  collapsedSliceDims := [0]
  operandBatchingDims := []
  startIndicesBatchingDims := []
  startIndexMap := [0]
  indexVectorDim := 1
  sliceSizes := ![1, 64]
  wf := gather_S200000x64_S3400000x1_S3400000x64_1_0_n_n_0_1_164_wf
def scatter_S200000x64_S3400000x1_S3400000x64_1_0_0_1 : ScatterDims S200000x64 S3400000x1 S3400000x64 where
  updateWindowDims := [1]
  insertedWindowDims := [0]
  scatterDimsToOperandDims := [0]
  indexVectorDim := 1
  wf := scatter_S200000x64_S3400000x1_S3400000x64_1_0_0_1_wf
def dot_S200000x64_S64x3_S200000x3_1_0_0_1_n_n : DotDims S200000x64 S64x3 S200000x3 where
  lhsContracting := [1]
  rhsContracting := [0]
  lhsNonContracting := [0]
  rhsNonContracting := [1]
  lhsBatch := []
  rhsBatch := []
  wf := dot_S200000x64_S64x3_S200000x3_1_0_0_1_n_n_wf
def gather_S200000x3_S3400000x1_S3400000x3_1_0_n_n_0_1_13 : GatherDims S200000x3 S3400000x1 S3400000x3 where
  offsetDims := [1]
  collapsedSliceDims := [0]
  operandBatchingDims := []
  startIndicesBatchingDims := []
  startIndexMap := [0]
  indexVectorDim := 1
  sliceSizes := ![1, 3]
  wf := gather_S200000x3_S3400000x1_S3400000x3_1_0_n_n_0_1_13_wf
def scatter_S200000x3_S3400000x1_S3400000x3_1_0_0_1 : ScatterDims S200000x3 S3400000x1 S3400000x3 where
  updateWindowDims := [1]
  insertedWindowDims := [0]
  scatterDimsToOperandDims := [0]
  indexVectorDim := 1
  wf := scatter_S200000x3_S3400000x1_S3400000x3_1_0_0_1_wf
def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def scatter_S512x3_S200000x1_S200000x3_1_0_0_1 : ScatterDims S512x3 S200000x1 S200000x3 where
  updateWindowDims := [1]
  insertedWindowDims := [0]
  scatterDimsToOperandDims := [0]
  indexVectorDim := 1
  wf := scatter_S512x3_S200000x1_S200000x3_1_0_0_1_wf

class Facts : Prop extends Facts₀ where

variable [Facts]
-- ==== Proof.K.R0.lean ====
/-
  Region 0 of @main: the node-wise product x · W1, one block of 8000 rows per grid point.
  Everything here is stated at a parameter V, the contents of the TensorCore's buffers when the region is entered.
  At a point the kernel loads its block of x and the whole of W1, and stores one value, their matrix product, over
  the whole output block; so after the body the output's staging buffer holds that product of the two input blocks.
-/
import proofs.«404303_j14577119003090_1_alg».proof.Proof.Gen.Kernel.Launch
import proofs.«404303_j14577119003090_1_alg».proof.Proof.Gen.Kernel.Skeleton
import proofs.«404303_j14577119003090_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: the staging buffer holds the point's block, whether it was fetched at this point or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights W1: fetched once, the block index never moves, so every point finds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S8000x2 := Rect.unit (s := S8000x2) ![0, 0] S8000x2.size inb_S8000x2_S8000x2_0_0
abbrev rw0 : Rect S2x64 := Rect.unit (s := S2x64) ![0, 0] S2x64.size inb_S2x64_S2x64_0_0
abbrev ro0 : Rect S8000x64 := Rect.unit (s := S8000x64) ![0, 0] S8000x64.size inb_S8000x64_S8000x64_0_0

/-- The output block after the body: the one store of the product of the two loaded blocks. -/
def out0_2 (x0 : Vec F S8000x2 .f32) (x1 : Vec F S2x64 .f32) : Vec F S8000x64 .f32 :=
  View.canon [⟨ro0, k0_pay1 (View.ld x0 rx0) (View.ld x1 rw0)⟩]

/-- The one store is over the whole block. -/
theorem cover0_2 (p0 : Vec F S8000x64 .f32) (y : S8000x64.Idx) :
    ∃ pc ∈ ([⟨ro0, p0⟩] : List (View.Piece (Elt F) S8000x64 .f32)), y ∈ pc.1.set :=
  View.cover_of_tiled [⟨ro0, p0⟩] S8000x64.size (by rfl) y

set_option maxHeartbeats 1000000 in
/-- The body on whole staging buffers: the inputs come back as they were, the output holds out0_2 of them. -/
theorem sound_kernel0 (c : Dev nD) (E : Set ℕ) (i : grid0.Coords) (arg1 : Memref sig .tc .vmem S8000x2 .f32) (harg1 : arg1.IsWhole)
    (arg2 : Memref sig .tc .vmem S2x64 .f32) (harg2 : arg2.IsWhole) (arg3 : Memref sig .tc .vmem S8000x64 .f32) (harg3 : arg3.IsWhole)
    (x0 : Vec F S8000x2 .f32) (x1 : Vec F S2x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body each input's buffer at
    its block and the output's at the product of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of @main: relu(agg + b1) · W2, one block of 8000 rows per grid point.
  Everything here is stated at a parameter V, the contents of the TensorCore's buffers when the region is entered.
  At a point the kernel loads its block of the aggregated features, the bias row and the whole of W2, and stores one
  value over the whole output block: the matrix product of the rectified, biased block with W2.
-/
import proofs.«404303_j14577119003090_1_alg».proof.Proof.Gen.Kernel.Launch
import proofs.«404303_j14577119003090_1_alg».proof.Proof.Gen.Kernel.Skeleton
import proofs.«404303_j14577119003090_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated rows: the staging buffer holds the point's block, whether it was fetched at this point or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weights W2: fetched once, its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev ra1 : Rect S8000x64 := Rect.unit (s := S8000x64) ![0, 0] S8000x64.size inb_S8000x64_S8000x64_0_0
abbrev rb1 : Rect S1x64 := Rect.unit (s := S1x64) ![0, 0] S1x64.size inb_S1x64_S1x64_0_0
abbrev rw1 : Rect S64x3 := Rect.unit (s := S64x3) ![0, 0] S64x3.size inb_S64x3_S64x3_0_0
abbrev ro1 : Rect S8000x3 := Rect.unit (s := S8000x3) ![0, 0] S8000x3.size inb_S8000x3_S8000x3_0_0

/-- The output block after the body: the one store of relu(block + bias) · W2. -/
def out1_3 (x0 : Vec F S8000x64 .f32) (x1 : Vec F S1x64 .f32) (x2 : Vec F S64x3 .f32) : Vec F S8000x3 .f32 :=
  View.canon [⟨ro1, k1_pay1 (View.ld x0 ra1) (View.ld x1 rb1) (View.ld x2 rw1)⟩]

/-- The one store is over the whole block. -/
theorem cover1_3 (p0 : Vec F S8000x3 .f32) (y : S8000x3.Idx) :
    ∃ pc ∈ ([⟨ro1, p0⟩] : List (View.Piece (Elt F) S8000x3 .f32)), y ∈ pc.1.set :=
  View.cover_of_tiled [⟨ro1, p0⟩] S8000x3.size (by rfl) y

set_option maxHeartbeats 1000000 in
/-- The body on whole staging buffers: the inputs come back as they were, the output holds out1_3 of them. -/
theorem sound_kernel1 (c : Dev nD) (E : Set ℕ) (i : grid1.Coords) (arg1 : Memref sig .tc .vmem S8000x64 .f32) (harg1 : arg1.IsWhole)
    (arg2 : Memref sig .tc .vmem S1x64 .f32) (harg2 : arg2.IsWhole) (arg3 : Memref sig .tc .vmem S64x3 .f32) (harg3 : arg3.IsWhole)
    (arg4 : Memref sig .tc .vmem S8000x3 .f32) (harg4 : arg4.IsWhole)
    (x0 : Vec F S8000x64 .f32) (x1 : Vec F S1x64 .f32) (x2 : Vec F S64x3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__fused_bias_relu_matmul_kernel i arg1 harg1 arg2 harg2 arg3 harg3 arg4 harg4) K := by
  simp only [cc1__fused_bias_relu_matmul_kernel_eq_skeleton]; unfold cc1__fused_bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core c: the arrays as the region finds them; after the body each input's buffer at
    its block and the output's at out1_3 of the input blocks; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2 of @main: the mean pool over graphs and the log-softmax, 4000 nodes per grid point, fifty points.
  Everything here is stated at a parameter V, the contents of the TensorCore's buffers when the region is entered.
  The output block (512 x 3, one per graph and class) and the scratch column (512 x 1, the node counts) are carried
  from point to point: the first point clears both, every point adds its block's one-hot sums, and the last point
  divides by max(count, 1) and takes the log-softmax along the classes.
-/
import proofs.«404303_j14577119003090_1_alg».proof.Proof.Gen.Kernel.Launch
import proofs.«404303_j14577119003090_1_alg».proof.Proof.Gen.Kernel.Skeleton
import proofs.«404303_j14577119003090_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One point's work on the carried pair (sums, counts): add the block's one-hot sums to both; at the last point (number 49)
    the sums are then divided by max(count, 1) and log-softmaxed. x0 the block of node features, x1 the bias row, x2 the
    block of graph ids. -/
def step2 (n : ℕ) (x0 : Vec F S4000x3 .f32) (x1 : Vec F S1x3 .f32) (x2 : Vec F S4000x1 .i32)
    (o : Vec F S512x3 .f32) (s : Vec F S512x1 .f32) : Vec F S512x3 .f32 × Vec F S512x1 .f32 :=
  (if n = 49 then k2_pay6 (k2_pay5 x2 s) (k2_pay4 x0 x1 x2 o) else k2_pay4 x0 x1 x2 o, k2_pay5 x2 s)

/-- What the output's staging buffer and the scratch hold after the body at position n: the first point starts from
    the cleared pair, every later one from what the point before left. -/
def outsAt2 (c : Dev nD) : (n : ℕ) → n < cfg2.N → Vec F S512x3 .f32 × Vec F S512x1 .f32
  | 0, hn => step2 0 (iblk2 V c 0 ⟨0, hn⟩) (iblk2 V c 1 ⟨0, hn⟩) (iblk2 V c 2 ⟨0, hn⟩) k2_pay1 k2_pay2
  | n + 1, hn => step2 (n + 1) (iblk2 V c 0 ⟨n + 1, hn⟩) (iblk2 V c 1 ⟨n + 1, hn⟩) (iblk2 V c 2 ⟨n + 1, hn⟩)
      (outsAt2 c n (Nat.lt_of_succ_lt hn)).1 (outsAt2 c n (Nat.lt_of_succ_lt hn)).2

/-! ## The pair, point by point -/

/-- The sums away from the last point: the block's contribution added, nothing more. -/
theorem step2_fst_of_ne (n : ℕ) (h : ¬n = 49) (x0 : Vec F S4000x3 .f32) (x1 : Vec F S1x3 .f32) (x2 : Vec F S4000x1 .i32)
    (o : Vec F S512x3 .f32) (s : Vec F S512x1 .f32) : (step2 n x0 x1 x2 o s).1 = k2_pay4 x0 x1 x2 o := by
  unfold step2; dsimp only; rw [if_neg h]

/-- The sums at the last point: the finished sums divided by the finished counts, then the log-softmax. -/
theorem step2_fst_of_eq (n : ℕ) (h : n = 49) (x0 : Vec F S4000x3 .f32) (x1 : Vec F S1x3 .f32) (x2 : Vec F S4000x1 .i32)
    (o : Vec F S512x3 .f32) (s : Vec F S512x1 .f32) :
    (step2 n x0 x1 x2 o s).1 = k2_pay6 (k2_pay5 x2 s) (k2_pay4 x0 x1 x2 o) := by
  unfold step2; dsimp only; rw [if_pos h]

/-- The counts: the block's one-hot column sums added, at every point. -/
theorem step2_snd (n : ℕ) (x0 : Vec F S4000x3 .f32) (x1 : Vec F S1x3 .f32) (x2 : Vec F S4000x1 .i32)
    (o : Vec F S512x3 .f32) (s : Vec F S512x1 .f32) : (step2 n x0 x1 x2 o s).2 = k2_pay5 x2 s := rfl

/-- At the first point the pair starts from the cleared one. -/
theorem outsAt2_first (c : Dev nD) (t : Fin cfg2.N) (hz : t.val = 0) :
    outsAt2 V c t.val t.isLt = step2 0 (iblk2 V c 0 t) (iblk2 V c 1 t) (iblk2 V c 2 t) k2_pay1 k2_pay2 := by
  obtain ⟨n, hn⟩ := t
  cases n with
  | zero => rfl
  | succ n => exact absurd hz (Nat.succ_ne_zero n)

/-- At a later point it starts from what the point before left. -/
theorem outsAt2_later (c : Dev nD) (t : Fin cfg2.N) (hz : ¬t.val = 0) :
    outsAt2 V c t.val t.isLt = step2 t.val (iblk2 V c 0 t) (iblk2 V c 1 t) (iblk2 V c 2 t)
      (outsAt2 V c (t.val - 1) (Nat.lt_of_le_of_lt (Nat.sub_le _ _) t.isLt)).1
      (outsAt2 V c (t.val - 1) (Nat.lt_of_le_of_lt (Nat.sub_le _ _) t.isLt)).2 := by
  obtain ⟨n, hn⟩ := t
  cases n with
  | zero => exact absurd rfl hz
  | succ n => rfl

/-! ## The two conditions of the body -/

/-- The first conditional's test, from the grid coordinate: is this the first point? -/
abbrev cond2_0 (i : grid2.Coords) : Prop := (Scalar.cmpi .ne (Scalar.extui (Scalar.cmpi .eq (BitVec.ofNat 32 (i 0).val) 0#32)) 0#32) = 1#1
/-- The second's: is this point number 49, the last? -/
abbrev cond2_1 (i : grid2.Coords) : Prop := (Scalar.cmpi .ne (Scalar.extui (Scalar.cmpi .eq (BitVec.ofNat 32 (i 0).val) 49#32)) 0#32) = 1#1

/-- Both in closed form, decided over the fifty points. -/
theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 49 :=
  (by decide +kernel : ∀ t : Fin grid2.N, cond2_1 (grid2.coords t) ↔ t.val = 49)

/-! ## Whole-buffer loads and stores -/

/-- The offsets of every load and store of the body: zero on both axes. -/
theorem hz2 : (![0, 0] : Fin 2 → Nat) = fun _ => 0 := by funext a; fin_cases a <;> rfl

/-- A buffer whose LAST store went over the whole of it reads that store's value, whatever was stored before. -/
theorem read_store_last {S : Shape} {e : EltTy} (v : View sig .tc .vmem S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-! ## The body, case by case, on whole buffers with their contents named -/

set_option maxHeartbeats 1000000 in
/-- The first point: both carried buffers are cleared whatever they held, then the block's sums are added to the cleared pair. -/
theorem sound_kernel2_A (c : Dev nD) (E : Set ℕ) (i : grid2.Coords) (hc0 : cond2_0 i) (hc1 : ¬cond2_1 i)
    (arg1 : Memref sig .tc .vmem S4000x3 .f32) (harg1 : arg1.IsWhole)
    (arg2 : Memref sig .tc .vmem S1x3 .f32) (harg2 : arg2.IsWhole) (arg3 : Memref sig .tc .vmem S4000x1 .i32) (harg3 : arg3.IsWhole)
    (arg4 : Memref sig .tc .vmem S512x3 .f32) (harg4 : arg4.IsWhole) (arg5 : Memref sig .tc .vmem S512x1 .f32) (harg5 : arg5.IsWhole)
    (x0 : Vec F S4000x3 .f32) (x1 : Vec F S1x3 .f32) (x2 : Vec F S4000x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay4 x0 x1 x2 k2_pay1) ∗ owns (c : Thread nD τ) arg5 fullShare (k2_pay5 x2 k2_pay2)) -∗ K ⟨⟩))
      ⊢ wp frame (wpE (defs₀ (F := F)) Variants.none c none) E (cc2__pool_logsoftmax_kernel i arg1 harg1 arg2 harg2 arg3 harg3 arg4 harg4 arg5 harg5) K := by
  simp only [cc2__pool_logsoftmax_kernel_eq_skeleton]; unfold cc2__pool_logsoftmax_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (read_store_last _ _ hz2 _ _ _).trans ?_
    simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]
  iexists _; isplitr
  swap; · iexact H4
  ipureintro
  sl_unfold_words
  refine (read_store_last _ _ hz2 _ _ _).trans ?_
  simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]

set_option maxHeartbeats 1000000 in
/-- A point that is neither first nor last: the block's sums are added to the pair the point before left. -/
theorem sound_kernel2_B (c : Dev nD) (E : Set ℕ) (i : grid2.Coords) (hc0 : ¬cond2_0 i) (hc1 : ¬cond2_1 i)
    (arg1 : Memref sig .tc .vmem S4000x3 .f32) (harg1 : arg1.IsWhole)
    (arg2 : Memref sig .tc .vmem S1x3 .f32) (harg2 : arg2.IsWhole) (arg3 : Memref sig .tc .vmem S4000x1 .i32) (harg3 : arg3.IsWhole)
    (arg4 : Memref sig .tc .vmem S512x3 .f32) (harg4 : arg4.IsWhole) (arg5 : Memref sig .tc .vmem S512x1 .f32) (harg5 : arg5.IsWhole)
    (x0 : Vec F S4000x3 .f32) (x1 : Vec F S1x3 .f32) (x2 : Vec F S4000x1 .i32) (o : Vec F S512x3 .f32) (s : Vec F S512x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k2_pay4 x0 x1 x2 o) ∗ owns (c : Thread nD τ) arg5 fullShare (k2_pay5 x2 s)) -∗ K ⟨⟩))
      ⊢ wp frame (wpE (defs₀ (F := F)) Variants.none c none) E (cc2__pool_logsoftmax_kernel i arg1 harg1 arg2 harg2 arg3 harg3 arg4 harg4 arg5 harg5) K := by
  simp only [cc2__pool_logsoftmax_kernel_eq_skeleton]; unfold cc2__pool_logsoftmax_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_store_last _ _ hz2 _ _ _).trans ?_
    simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]
  iexists _; isplitr
  swap; · iexact H4
  ipureintro
  refine (read_store_last _ _ hz2 _ _ _).trans ?_
  simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]

set_option maxHeartbeats 1000000 in
/-- The last point: the block's sums are added as before; then the finished counts and sums are read back and the sums
    replaced by their quotient's log-softmax. -/
theorem sound_kernel2_C (c : Dev nD) (E : Set ℕ) (i : grid2.Coords) (hc0 : ¬cond2_0 i) (hc1 : cond2_1 i)
    (arg1 : Memref sig .tc .vmem S4000x3 .f32) (harg1 : arg1.IsWhole)
    (arg2 : Memref sig .tc .vmem S1x3 .f32) (harg2 : arg2.IsWhole) (arg3 : Memref sig .tc .vmem S4000x1 .i32) (harg3 : arg3.IsWhole)
    (arg4 : Memref sig .tc .vmem S512x3 .f32) (harg4 : arg4.IsWhole) (arg5 : Memref sig .tc .vmem S512x1 .f32) (harg5 : arg5.IsWhole)
    (x0 : Vec F S4000x3 .f32) (x1 : Vec F S1x3 .f32) (x2 : Vec F S4000x1 .i32) (o : Vec F S512x3 .f32) (s : Vec F S512x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k2_pay6 (k2_pay5 x2 s) (k2_pay4 x0 x1 x2 o)) ∗ owns (c : Thread nD τ) arg5 fullShare (k2_pay5 x2 s)) -∗ K ⟨⟩))
      ⊢ wp frame (wpE (defs₀ (F := F)) Variants.none c none) E (cc2__pool_logsoftmax_kernel i arg1 harg1 arg2 harg2 arg3 harg3 arg4 harg4 arg5 harg5) K := by
  simp only [cc2__pool_logsoftmax_kernel_eq_skeleton]; unfold cc2__pool_logsoftmax_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (read_store_last _ _ hz2 _ _ _).trans ?_
    simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]
  iexists _; isplitr
  swap; · iexact H4
  ipureintro
  sl_unfold_words
  refine (read_store_last _ _ hz2 _ _ _).trans ?_
  simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]

/-! ## The invariant: the scratch column between points -/

/-- The scratch column, a whole scoped buffer of the kernel's own, passed beside the windows. -/
abbrev scM2 : Memref sig .tc .vmem S512x1 .f32 := Memref.whole cc2_scratch0

/-- The eleven staging buffers of the two regions before this one, each at some contents: scoped buffers this region
    never touches. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- What the launch hands the region has the scratch column among the scoped buffers at some contents; set apart from the
    buffers the region never touches, one way -/
theorem PhiA2_split (c : Dev nD) :
    (Pipeline.ΦA spec2 c : sProp 𝕄) ⊢ iprop(others2 (F := F) c ∗ (∃ d, owns (c : Thread nD τ) scM2 fullShare d) ∗ (∃ r, prngReg c r)) := by
  unfold Pipeline.ΦA others2; rw [scopedRest2_eq]; simp only [scM2, owns_whole]
  iintro ⟨⟨H1, H2, H3, H4, H5, H6, H7, H8, H9, H10, H11, HS⟩, Hg⟩
  isplitl [H1 H2 H3 H4 H5 H6 H7 H8 H9 H10 H11]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HS]; · iexact HS
  iexact Hg

/-- and back; -/
theorem PhiA2_join (c : Dev nD) :
    iprop(others2 (F := F) c ∗ (∃ d, owns (c : Thread nD τ) scM2 fullShare d) ∗ (∃ r, prngReg c r)) ⊢ (Pipeline.ΦA spec2 c : sProp 𝕄) := by
  unfold Pipeline.ΦA others2; rw [scopedRest2_eq]; simp only [scM2, owns_whole]
  iintro ⟨⟨H1, H2, H3, H4, H5, H6, H7, H8, H9, H10, H11⟩, HS, Hg⟩
  isplitl [H1 H2 H3 H4 H5 H6 H7 H8 H9 H10 H11 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iexact Hg

/-- so the two are one proposition. -/
theorem PhiA2_eq (c : Dev nD) :
    (Pipeline.ΦA spec2 c : sProp 𝕄) = iprop(others2 (F := F) c ∗ (∃ d, owns (c : Thread nD τ) scM2 fullShare d) ∗ (∃ r, prngReg c r)) :=
  BI.equiv_iff.mp ⟨PhiA2_split c, PhiA2_join c⟩

/-- The region's invariant before position n. Before the first point it is what the launch hands over, the scratch at
    anything; before a later point the scratch column holds the counts the point before left, the buffers the region never
    touches are at some contents, and the generator register at some state. -/
def PhiS2 (c : Dev nD) : (n : ℕ) → n ≤ cfg2.N → sProp 𝕄
  | 0, _ => Pipeline.ΦA spec2 c
  | n + 1, hn => iprop(others2 (F := F) c ∗ owns (c : Thread nD τ) scM2 fullShare (outsAt2 V c n hn).2 ∗ (∃ r, prngReg c r))

theorem PhiS2_zero (c : Dev nD) (n : ℕ) (h : n ≤ cfg2.N) (hz : n = 0) : PhiS2 V c n h = Pipeline.ΦA spec2 c := by
  subst hz; rfl

/-- After point n the counts are that point's. -/
theorem PhiS2_succ (c : Dev nD) (n : ℕ) (hn : n < cfg2.N) :
    PhiS2 V c (n + 1) hn
      = iprop(others2 (F := F) c ∗ owns (c : Thread nD τ) scM2 fullShare (outsAt2 V c n hn).2 ∗ (∃ r, prngReg c r)) := rfl

/-- Before a point that is not the first the counts are those of the point before. -/
theorem PhiS2_pos (c : Dev nD) (n : ℕ) (h : n ≤ cfg2.N) (hz : ¬n = 0) :
    PhiS2 V c n h
      = iprop(others2 (F := F) c ∗ owns (c : Thread nD τ) scM2 fullShare (outsAt2 V c (n - 1) (by omega)).2 ∗ (∃ r, prngReg c r)) := by
  cases n with
  | zero => exact absurd rfl hz
  | succ n => rfl

/-! ## The proof data -/

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the staging buffers hold when the body runs -/

/-- The three inputs: each buffer holds the point's block, fetched at this point or not (the bias row is fetched once and
    its block index never moves). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- The output's one buffer at the first point: nothing has filled it, it holds anything. -/
theorem before2_3_first (c : Dev nD) (t : Fin cfg2.N) (hz : t.val = 0) (d) : (dat2 V c).before 3 t d = d :=
  Dat.before_out_reset _ 3 rfl t (.inl hz) d

/-- At a later point it holds the sums the point before left: the block is written back after the last point only, so
    nothing has disturbed the buffer in between. -/
theorem before2_3_later (c : Dev nD) (t : Fin cfg2.N) (hz : ¬t.val = 0) (d) :
    (dat2 V c).before 3 t d = (outsAt2 V c (t.val - 1) (Nat.lt_of_le_of_lt (Nat.sub_le _ _) t.isLt)).1 := by
  have hN : t.val < 50 := lt_of_lt_of_eq t.isLt (show cfg2.N = 50 from N_2)
  rw [Dat.before_out_kept _ 3 rfl t hz (Bool.eq_false_iff.mpr fun h => by have := (flush2_3 _).mp h; dsimp only at this; omega)
    (fun _ => rfl) (fun _ _ => rfl)]
  dsimp only [dat2]

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point. The inputs' buffers hold their blocks; the point's number says which of the three cases runs;
    the output's buffer and the scratch column come in at the pair the point before left (at anything, at the first point)
    and go out at this point's pair, the sums to the output window and the counts to the invariant. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    after2_0, after2_1, after2_2, after2_3]
  rw [show (dat2 V c).Φ t.succ = PhiS2 V c (t.val + 1) t.isLt from rfl, PhiS2_succ, PhiS2_castSucc]
  have hN : t.val < 50 := lt_of_lt_of_eq t.isLt (show cfg2.N = 50 from N_2)
  by_cases hz : t.val = 0
  · have h49 : ¬t.val = 49 := by omega
    rw [PhiS2_zero V c _ _ hz, PhiA2_eq, outsAt2_first V c t hz, step2_fst_of_ne 0 (by omega), step2_snd]
    simp only [before2_3_first V c t hz]
    iintro ⟨⟨HR, ⟨%ds, HS⟩, Hg⟩, Ho, ⟨%d0, H0⟩, ⟨%d1, H1⟩, ⟨%d2, H2⟩, ⟨%d3, H3⟩⟩
    iapply (sound_kernel2_A c Set.univ _ ((hcond2_0 t).mpr hz) (fun h => h49 ((hcond2_1 t).mp h)) _ _ _ _ _ _ _ _ _ _
      (iblk2 V c 0 t) (iblk2 V c 1 t) (iblk2 V c 2 t) _)
    isplitl [H0]; · iexact H0
    isplitl [H1]; · iexact H1
    isplitl [H2]; · iexact H2
    isplitl [H3]; · iexists _; iexact H3
    isplitl [HS]; · iexists _; iexact HS
    iintro ⟨H0, H1, H2, H3, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    iexact H3
  · rw [PhiS2_pos V c _ _ hz, outsAt2_later V c t hz, step2_snd]
    simp only [before2_3_later V c t hz]
    by_cases h49 : t.val = 49
    · rw [step2_fst_of_eq _ h49]
      iintro ⟨⟨HR, HS, Hg⟩, Ho, ⟨%d0, H0⟩, ⟨%d1, H1⟩, ⟨%d2, H2⟩, ⟨%d3, H3⟩⟩
      iapply (sound_kernel2_C c Set.univ _ (fun h => hz ((hcond2_0 t).mp h)) ((hcond2_1 t).mpr h49) _ _ _ _ _ _ _ _ _ _
        (iblk2 V c 0 t) (iblk2 V c 1 t) (iblk2 V c 2 t)
        (outsAt2 V c (t.val - 1) (Nat.lt_of_le_of_lt (Nat.sub_le _ _) t.isLt)).1
        (outsAt2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3
    · rw [step2_fst_of_ne _ h49]
      iintro ⟨⟨HR, HS, Hg⟩, Ho, ⟨%d0, H0⟩, ⟨%d1, H1⟩, ⟨%d2, H2⟩, ⟨%d3, H3⟩⟩
      iapply (sound_kernel2_B c Set.univ _ (fun h => hz ((hcond2_0 t).mp h)) (fun h => h49 ((hcond2_1 t).mp h)) _ _ _ _ _ _ _ _ _ _
        (iblk2 V c 0 t) (iblk2 V c 1 t) (iblk2 V c 2 t)
        (outsAt2 V c (t.val - 1) (Nat.lt_of_le_of_lt (Nat.sub_le _ _) t.isLt)).1
        (outsAt2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's contents are forgotten. -/
theorem hout2 (c : Dev nD) : (dat2 V c).Φ (Fin.last cfg2.N) ⊢ Pipeline.ΦA spec2 c := by
  have hN : cfg2.N = 50 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨HR, HS, Hg⟩
  isplitl [HR]; · iexact HR
  isplitl [HS]; · iexists _; iexact HS
  iexact Hg

end Cert.Kernel.Hand

end
-- ==== Proof.K.Fold.lean ====
/-
  The contents of the TensorCore's buffers at each boundary between the items of @main: a fold from the launch memory.
  A stretch of host operations applies them; a kernel region leaves its arrays at what its write-backs fold to, and
  every other buffer as it found it.
-/
import proofs.«404303_j14577119003090_1_alg».proof.Proof.K.R0
import proofs.«404303_j14577119003090_1_alg».proof.Proof.K.R1
import proofs.«404303_j14577119003090_1_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m ((c : Dev nD), b)
/-- After the first stretch of host operations (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit, which is the end of @main. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- The prefetched tables' admissible contents: no pipeline has a table. -/
abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.Kernel.Hand

end
-- ==== Proof.K.Run.lean ====
/-
  The run of @main from the launch to the return. @main is three stretches of graph glue (the first makes the edge
  weights from the node degrees; the next two gather a product's rows along the edges, weight them and add them up
  at the nodes) around three kernel regions: the two node-wise products and the pooling over graphs. Between two items every core holds each unscoped buffer at the contents the fold
  names, beside its generator register at some state and a ledger that owes nothing. Each stretch applies its
  operations to those contents; each region takes its arrays out of the unscoped buffers, runs its pipeline on
  them, and puts them back at what the write-backs leave. Read at the end: the pooled output is the last region's
  fourth array, and no item writes an argument.
-/
import proofs.«404303_j14577119003090_1_alg».proof.Proof.K.Fold
import proofs.«404303_j14577119003090_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item writes an argument

A stretch of glue leaves every reference outside its list of written ones as it found it; a region leaves every
buffer that is none of its arrays as it found it, and an input array too (nothing is written back to it). -/

theorem glue0_keeps (c : Dev nD) (r : Ref sig .tc) (h : r ∉ hostOps0_W) :
    W1 m c (Proc.devRef .tc r) = W0 m c (Proc.devRef .tc r) :=
  StableHlo.after_of_writes_sub hostOps0 _ hostOps0_writes h
theorem glue1_keeps (c : Dev nD) (r : Ref sig .tc) (h : r ∉ hostOps1_W) :
    W3 m c (Proc.devRef .tc r) = W2 m c (Proc.devRef .tc r) :=
  StableHlo.after_of_writes_sub hostOps1 _ hostOps1_writes h
theorem glue2_keeps (c : Dev nD) (r : Ref sig .tc) (h : r ∉ hostOps2_W) :
    W5 m c (Proc.devRef .tc r) = W4 m c (Proc.devRef .tc r) :=
  StableHlo.after_of_writes_sub hostOps2 _ hostOps2_writes h

/-- An input array of the first product (the node features, the first layer's weights) leaves it as it entered. -/
theorem prod0_input (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- An input array of the second product (the aggregated features, the bias row, the second layer's weights) too. -/
theorem prod1_input (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-- From the end of @main back to the launch, for a reference that no stretch writes and no region outputs:
    given what each region does to it, it ends as launched. -/
theorem back_to_launch (c : Dev nD) (r : Ref sig .tc)
    (hpool : ∀ w, Pipeline.arrRef spec2 w ≠ r) (hg2 : r ∉ hostOps2_W)
    (hp1 : W4 m c (Proc.devRef .tc r) = W3 m c (Proc.devRef .tc r)) (hg1 : r ∉ hostOps1_W)
    (hp0 : W2 m c (Proc.devRef .tc r) = W1 m c (Proc.devRef .tc r)) (hg0 : r ∉ hostOps0_W) :
    W6 m c (Proc.devRef .tc r) = m ((c : Thread nD τ).loc r) :=
  (W6_of_ne m c r hpool).trans <| (glue2_keeps m c r hg2).trans <| hp1.trans <| (glue1_keeps m c r hg1).trans <|
    hp0.trans <| (glue0_keeps m c r hg0).trans rfl

/-- The node features: an input of the first product. -/
theorem end_arg0 (c : Dev nD) : W6 m c (Proc.devRef .tc main_arg0) = m ((c : Thread nD τ).loc main_arg0) :=
  back_to_launch m c main_arg0 (by decide) (by decide) (W4_of_ne m c main_arg0 (by decide)) (by decide)
    (prod0_input m c 0 rfl) (by decide)
/-- The edge list: read by the glue only. -/
theorem end_arg1 (c : Dev nD) : W6 m c (Proc.devRef .tc main_arg1) = m ((c : Thread nD τ).loc main_arg1) :=
  back_to_launch m c main_arg1 (by decide) (by decide) (W4_of_ne m c main_arg1 (by decide)) (by decide)
    (W2_of_ne m c main_arg1 (by decide)) (by decide)
/-- The graph ids: reshaped by the last stretch, never written. -/
theorem end_arg2 (c : Dev nD) : W6 m c (Proc.devRef .tc main_arg2) = m ((c : Thread nD τ).loc main_arg2) :=
  back_to_launch m c main_arg2 (by decide) (by decide) (W4_of_ne m c main_arg2 (by decide)) (by decide)
    (W2_of_ne m c main_arg2 (by decide)) (by decide)
/-- The first layer's weights: an input of the first product. -/
theorem end_arg3 (c : Dev nD) : W6 m c (Proc.devRef .tc main_arg3) = m ((c : Thread nD τ).loc main_arg3) :=
  back_to_launch m c main_arg3 (by decide) (by decide) (W4_of_ne m c main_arg3 (by decide)) (by decide)
    (prod0_input m c 1 rfl) (by decide)
/-- The first layer's bias: reshaped by the middle stretch, never written. -/
theorem end_arg4 (c : Dev nD) : W6 m c (Proc.devRef .tc main_arg4) = m ((c : Thread nD τ).loc main_arg4) :=
  back_to_launch m c main_arg4 (by decide) (by decide) (W4_of_ne m c main_arg4 (by decide)) (by decide)
    (W2_of_ne m c main_arg4 (by decide)) (by decide)
/-- The second layer's weights: an input of the second product. -/
theorem end_arg5 (c : Dev nD) : W6 m c (Proc.devRef .tc main_arg5) = m ((c : Thread nD τ).loc main_arg5) :=
  back_to_launch m c main_arg5 (by decide) (by decide) (prod1_input m c 2 rfl) (by decide)
    (W2_of_ne m c main_arg5 (by decide)) (by decide)
/-- The second layer's bias: reshaped by the last stretch, never written. -/
theorem end_arg6 (c : Dev nD) : W6 m c (Proc.devRef .tc main_arg6) = m ((c : Thread nD τ).loc main_arg6) :=
  back_to_launch m c main_arg6 (by decide) (by decide) (W4_of_ne m c main_arg6 (by decide)) (by decide)
    (W2_of_ne m c main_arg6 (by decide)) (by decide)

/-! ## What a core holds between two items -/

abbrev noVariants : Variants := Variants.none
/-- No core owes another anything, so no pair of a semaphore and a core carries a level. -/
abbrev noPairs : GSem nD τ sig → Finset Unit := fun _ => ∅
abbrev level0 : GSem nD τ sig → Unit → ℕ := fun _ _ => 0
/-- Beside the buffers, through every item: the core's generator register at some state (a region's invariant
    takes it in and hands it back) and the core's ledger, owing nothing. -/
abbrev beside (c : Dev nD) : sProp 𝕄 :=
  iprop((∃ r, prngReg c r) ∗ ∃ W, owes (c : Thread nD τ) (0 : CellTallies nD τ sig Unit) W)
/-- The state after the last item, less the ledger: every unscoped buffer at the final contents, the generator
    register at some state. -/
abbrev finalState (c : Dev nD) : sProp 𝕄 :=
  iprop(StableHlo.held (c : Thread nD τ) (Pipeline.ucRefs τ sig) (W6 m c) ∗ ∃ r, prngReg c r)
/-- An unscoped reference of the TensorCore is among the buffers a core holds between items. -/
theorem held_between (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The stretches of glue -/

/-- A stretch run from the contents W: its operations touch unscoped buffers only and allocate none, so it takes
    every unscoped buffer from W c to the operations applied to W c, what rides beside untouched. -/
abbrev glueSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs level0 :=
  Pipeline.HostSeg.ofOps _ _ _ _ _ (Pipeline.ucRefs τ sig) ops
    (fun op hop => Pipeline.sub_ucRefs op ((List.forall_iff_forall_mem.mp hsub) op hop))
    (fun op hop => (List.forall_iff_forall_mem.mp hfresh) op hop) W beside

/-! ## The kernel regions

Each region is entered from every unscoped buffer at its entry contents. Its arrays are cut out of those buffers
(they are whole, distinct, unscoped) and the rest bypasses the region; the generator register goes into the
region's invariant with the scratch buffers; the ledger owes nothing throughout and the kernels have no semaphore
of their own. At the exit the arrays, now at what the write-backs leave, are glued back to the rest. -/

set_option backward.isDefEq.respectTransparency.types false in
/-- The first product (node features times the first layer's weights), from the contents after the first stretch. -/
def prodSeg0 : Pipeline.RegionSeg (pcfgs (F := F)) adm (pdats m) () defs₀ noVariants noPairs level0 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noPairs level0 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hcut := Pipeline.arrays_of_unscopedBufs (p := 0) (pcfgs (F := F)) adm (pdats m) launch0.win launch0.arr_whole c
      ((pdats m 0 c).share_full fun _ => rfl) (V1 m c) fun _ => rfl
    rw [Pipeline.unscopedBufs_held] at hcut
    iintro ⟨⟨Hbufs, Hgen, Hledger⟩, -, -⟩
    ihave Hparts := hcut $$ Hbufs
    icases Hparts with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Hledger]
    · unfold Pipeline.Dat.owesAt Pipeline.owesWithin
      icases Hledger with ⟨%W, Hledger⟩
      iexists W
      isplitr; · ipureintro; exact fun _ _ => Or.inl trivial
      iexact Hledger
    isplitl [Hgen]; · iexact Hgen
    iexact Hothers
  hin c := by
    rw [show (pdats m 0 c).Φ 0 = Pipeline.ΦA spec0 c from rfl]; unfold Pipeline.ΦA
    iintro ⟨Hgen, -, Hscratch⟩
    isplitl [Hscratch]; · iexact Hscratch
    iexact Hgen
  hout c := by
    rw [Pipeline.ownSems0_none, show (pdats m 0 c).Φ (Fin.last _) = Pipeline.ΦA spec0 c from rfl]; unfold Pipeline.ΦA
    iintro ⟨Hscratch, Hgen⟩
    isplitl [Hgen]; · iexact Hgen
    isplitr; · iempintro
    iexact Hscratch
  hexit c := by
    have hglue := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hglue
    iintro ⟨Harrs, Hledger, Hgen, Hothers⟩
    imodintro
    isplitl [Harrs Hothers]
    · iapply hglue; isplitl [Harrs] <;> iassumption
    isplitl [Hgen]; · iexact Hgen
    unfold Pipeline.Dat.owesAt Pipeline.owesWithin
    icases Hledger with ⟨%W, -, Hledger⟩
    iexists W; iexact Hledger

set_option backward.isDefEq.respectTransparency.types false in
/-- The second product (aggregated features plus bias, times the second layer's weights), from the contents after the
    middle stretch. -/
def prodSeg1 : Pipeline.RegionSeg (pcfgs (F := F)) adm (pdats m) () defs₀ noVariants noPairs level0 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs level0 1 fun _ _ => rfl
  pre c := iprop(StableHlo.held (c : Thread nD τ) (Pipeline.ucRefs τ sig) (W3 m c) ∗ beside c)
  post c := iprop(StableHlo.held (c : Thread nD τ) (Pipeline.ucRefs τ sig) (W4 m c) ∗ beside c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hcut := Pipeline.arrays_of_unscopedBufs (p := 1) (pcfgs (F := F)) adm (pdats m) launch1.win launch1.arr_whole c
      ((pdats m 1 c).share_full fun _ => rfl) (V3 m c) fun _ => rfl
    rw [Pipeline.unscopedBufs_held] at hcut
    iintro ⟨⟨Hbufs, Hgen, Hledger⟩, -, -⟩
    ihave Hparts := hcut $$ Hbufs
    icases Hparts with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Hledger]
    · unfold Pipeline.Dat.owesAt Pipeline.owesWithin
      icases Hledger with ⟨%W, Hledger⟩
      iexists W
      isplitr; · ipureintro; exact fun _ _ => Or.inl trivial
      iexact Hledger
    isplitl [Hgen]; · iexact Hgen
    iexact Hothers
  hin c := by
    rw [show (pdats m 1 c).Φ 0 = Pipeline.ΦA spec1 c from rfl]; unfold Pipeline.ΦA
    iintro ⟨Hgen, -, Hscratch⟩
    isplitl [Hscratch]; · iexact Hscratch
    iexact Hgen
  hout c := by
    rw [Pipeline.ownSems0_none, show (pdats m 1 c).Φ (Fin.last _) = Pipeline.ΦA spec1 c from rfl]; unfold Pipeline.ΦA
    iintro ⟨Hscratch, Hgen⟩
    isplitl [Hgen]; · iexact Hgen
    isplitr; · iempintro
    iexact Hscratch
  hexit c := by
    have hglue := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hglue
    iintro ⟨Harrs, Hledger, Hgen, Hothers⟩
    imodintro
    isplitl [Harrs Hothers]
    · iapply hglue; isplitl [Harrs] <;> iassumption
    isplitl [Hgen]; · iexact Hgen
    unfold Pipeline.Dat.owesAt Pipeline.owesWithin
    icases Hledger with ⟨%W, -, Hledger⟩
    iexists W; iexact Hledger

set_option backward.isDefEq.respectTransparency.types false in
/-- The pooling region, from the contents after the last stretch. Its invariant is its own (it carries the node counts
    from point to point): what the launch hands over makes it before the first point, and after the last point it
    gives the scratch buffers and the generator register back. It is @main's last item, so it leaves the final state
    beside the ledger. -/
def poolSeg : Pipeline.RegionSeg (pcfgs (F := F)) adm (pdats m) () defs₀ noVariants noPairs level0 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ noPairs level0 2 fun _ _ => rfl
  pre c := iprop(StableHlo.held (c : Thread nD τ) (Pipeline.ucRefs τ sig) (W5 m c) ∗ beside c)
  post c := iprop(finalState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hcut := Pipeline.arrays_of_unscopedBufs (p := 2) (pcfgs (F := F)) adm (pdats m) launch2.win launch2.arr_whole c
      ((pdats m 2 c).share_full fun _ => rfl) (V5 m c) fun _ => rfl
    rw [Pipeline.unscopedBufs_held] at hcut
    iintro ⟨⟨Hbufs, Hgen, Hledger⟩, -, -⟩
    ihave Hparts := hcut $$ Hbufs
    icases Hparts with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Hledger]
    · unfold Pipeline.Dat.owesAt Pipeline.owesWithin
      icases Hledger with ⟨%W, Hledger⟩
      iexists W
      isplitr; · ipureintro; exact fun _ _ => Or.inl trivial
      iexact Hledger
    isplitl [Hgen]; · iexact Hgen
    iexact Hothers
  hin c := by
    rw [show (pdats m 2 c).Φ 0 = (dat2 (V5 m) c).Φ 0 from rfl]
    refine .trans ?_ (hin2 (V5 m) c)
    unfold Pipeline.ΦA
    iintro ⟨Hgen, -, Hscratch⟩
    isplitl [Hscratch]; · iexact Hscratch
    iexact Hgen
  hout c := by
    rw [Pipeline.ownSems0_none, show (pdats m 2 c).Φ (Fin.last _) = (dat2 (V5 m) c).Φ (Fin.last cfg2.N) from rfl]
    refine (hout2 (V5 m) c).trans ?_
    unfold Pipeline.ΦA
    iintro ⟨Hscratch, Hgen⟩
    isplitl [Hgen]; · iexact Hgen
    isplitr; · iempintro
    iexact Hscratch
  hexit c := by
    have hglue := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hglue
    iintro ⟨Harrs, Hledger, Hgen, Hothers⟩
    imodintro
    isplitr [Hledger]
    · isplitr [Hgen]
      · iapply hglue; isplitl [Harrs] <;> iassumption
      iexact Hgen
    unfold Pipeline.Dat.owesAt Pipeline.owesWithin
    icases Hledger with ⟨%W, -, Hledger⟩
    iexists W; iexact Hledger

/-! ## @main as its six items, and the launch -/

/-- The items in @main's order, each stretch from the contents the item before it leaves. -/
abbrev items : List (Pipeline.Seg (pcfgs (F := F)) adm (pdats m) () defs₀ noVariants noPairs level0) :=
  [ .host (glueSeg hostOps0 hostOps0_sub hostOps0_fresh (W0 m)),
    .region (prodSeg0 m),
    .host (glueSeg hostOps1 hostOps1_sub hostOps1_fresh (W2 m)),
    .region (prodSeg1 m),
    .host (glueSeg hostOps2 hostOps2_sub hostOps2_fresh (W4 m)),
    .region (poolSeg m) ]

/-- The items' programs are the links of @main's chain. -/
theorem items_progs : (items m).map Pipeline.Seg.prog = [
    StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()) ] := rfl

set_option backward.isDefEq.respectTransparency.types false in
/-- From any memory with every counter at zero, every weakly fair execution of @main on the TensorCores terminates
    without a fault, and in every final memory the pooled output holds what the pooling region's write-backs fold to
    and every argument holds what it held at launch. The several-regions launch over the six items: the launch deals
    each core its unscoped buffers at the launch contents, its generator register and an empty ledger; the items
    chain by the fold; the final state is read against the final memory buffer by buffer. -/
theorem run_value : θ_run defs (onTc (τ := τ) (main (F := F))) ⟨m, fun _ => 0, ρ⟩ (fun r => ∀ c : Dev nD,
      r.2.mem ((c.tc : Thread nD τ).loc main_v59) = (dat2 (V5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ noVariants noPairs level0 m ρ main (items m)
    (fun c Q => by
      rewrite [main_chain c, Pipeline.Seg.run_eq_chain, items_progs m]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := finalState m)
    (hch := ⟨fun _ => .rfl, fun _ => .rfl, fun _ => .rfl, fun _ => .rfl, fun _ => .rfl, fun _ => .rfl, fun _ => .rfl⟩)
    (hinit := by
      refine Pipeline.initEach noPairs level0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hledger, -, Hgen, -⟩, -⟩
      imodintro
      isplitl [Hbufs]; · iexact Hbufs
      isplitl [Hgen]; · iexists _; iexact Hgen
      iexists ∅; iexact Hledger)
    (QY := fun c s => ∀ b ∈ Pipeline.ucRefs τ sig, s.mem (((c : Thread nD τ)).1, b) = W6 m c b)
    (hfin := fun c s' => by
      iintro ⟨⟨Hbufs, -⟩, Hstate⟩
      unfold StableHlo.held
      imodintro
      iapply (pointsTo_read_all (Pipeline.ucRefs τ sig) (fun b => (((c : Thread nD τ)).1, b)) (W6 m c) s')
      isplitl [Hbufs] <;> iassumption)
    (hQ := fun s hread c =>
      ⟨(hread c _ (held_between main_v59 (by decide))).trans (W6_arr m c 3),
       (hread c _ (held_between main_arg0 (by decide))).trans (end_arg0 m c),
       (hread c _ (held_between main_arg1 (by decide))).trans (end_arg1 m c),
       (hread c _ (held_between main_arg2 (by decide))).trans (end_arg2 m c),
       (hread c _ (held_between main_arg3 (by decide))).trans (end_arg3 m c),
       (hread c _ (held_between main_arg4 (by decide))).trans (end_arg4 m c),
       (hread c _ (held_between main_arg5 (by decide))).trans (end_arg5 m c),
       (hread c _ (held_between main_arg6 (by decide))).trans (end_arg6 m c)⟩)

/-- The same run, read at the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.Kernel.Hand

end
-- ==== Proof.KI.R0.lean ====
/-
  Region 0 of @main: the node-wise product x · W1, one block of 8000 rows per grid point.
  Everything here is stated at a parameter V, the contents of the TensorCore's buffers when the region is entered.
  At a point the kernel loads its block of x and the whole of W1, and stores one value, their matrix product, over
  the whole output block; so after the body the output's staging buffer holds that product of the two input blocks.
-/
import proofs.«404303_j14577119003090_1_alg».proof.Proof.Gen.KernelIdeal.Launch
import proofs.«404303_j14577119003090_1_alg».proof.Proof.Gen.KernelIdeal.Skeleton
import proofs.«404303_j14577119003090_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: the staging buffer holds the point's block, whether it was fetched at this point or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights W1: fetched once, the block index never moves, so every point finds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S8000x2 := Rect.unit (s := S8000x2) ![0, 0] S8000x2.size inb_S8000x2_S8000x2_0_0
abbrev rw0 : Rect S2x64 := Rect.unit (s := S2x64) ![0, 0] S2x64.size inb_S2x64_S2x64_0_0
abbrev ro0 : Rect S8000x64 := Rect.unit (s := S8000x64) ![0, 0] S8000x64.size inb_S8000x64_S8000x64_0_0

/-- The output block after the body: the one store of the product of the two loaded blocks. -/
def out0_2 (x0 : Vec F S8000x2 .f32) (x1 : Vec F S2x64 .f32) : Vec F S8000x64 .f32 :=
  View.canon [⟨ro0, k0_pay1 (View.ld x0 rx0) (View.ld x1 rw0)⟩]

/-- The one store is over the whole block. -/
theorem cover0_2 (p0 : Vec F S8000x64 .f32) (y : S8000x64.Idx) :
    ∃ pc ∈ ([⟨ro0, p0⟩] : List (View.Piece (Elt F) S8000x64 .f32)), y ∈ pc.1.set :=
  View.cover_of_tiled [⟨ro0, p0⟩] S8000x64.size (by rfl) y

set_option maxHeartbeats 1000000 in
/-- The body on whole staging buffers: the inputs come back as they were, the output holds out0_2 of them. -/
theorem sound_kernel0 (c : Dev nD) (E : Set ℕ) (i : grid0.Coords) (arg1 : Memref sig .tc .vmem S8000x2 .f32) (harg1 : arg1.IsWhole)
    (arg2 : Memref sig .tc .vmem S2x64 .f32) (harg2 : arg2.IsWhole) (arg3 : Memref sig .tc .vmem S8000x64 .f32) (harg3 : arg3.IsWhole)
    (x0 : Vec F S8000x2 .f32) (x1 : Vec F S2x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body each input's buffer at
    its block and the output's at the product of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of @main: relu(agg + b1) · W2, one block of 8000 rows per grid point.
  Everything here is stated at a parameter V, the contents of the TensorCore's buffers when the region is entered.
  At a point the kernel loads its block of the aggregated features, the bias row and the whole of W2, and stores one
  value over the whole output block: the matrix product of the rectified, biased block with W2.
-/
import proofs.«404303_j14577119003090_1_alg».proof.Proof.Gen.KernelIdeal.Launch
import proofs.«404303_j14577119003090_1_alg».proof.Proof.Gen.KernelIdeal.Skeleton
import proofs.«404303_j14577119003090_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated rows: the staging buffer holds the point's block, whether it was fetched at this point or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weights W2: fetched once, its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev ra1 : Rect S8000x64 := Rect.unit (s := S8000x64) ![0, 0] S8000x64.size inb_S8000x64_S8000x64_0_0
abbrev rb1 : Rect S1x64 := Rect.unit (s := S1x64) ![0, 0] S1x64.size inb_S1x64_S1x64_0_0
abbrev rw1 : Rect S64x3 := Rect.unit (s := S64x3) ![0, 0] S64x3.size inb_S64x3_S64x3_0_0
abbrev ro1 : Rect S8000x3 := Rect.unit (s := S8000x3) ![0, 0] S8000x3.size inb_S8000x3_S8000x3_0_0

/-- The output block after the body: the one store of relu(block + bias) · W2. -/
def out1_3 (x0 : Vec F S8000x64 .f32) (x1 : Vec F S1x64 .f32) (x2 : Vec F S64x3 .f32) : Vec F S8000x3 .f32 :=
  View.canon [⟨ro1, k1_pay1 (View.ld x0 ra1) (View.ld x1 rb1) (View.ld x2 rw1)⟩]

/-- The one store is over the whole block. -/
theorem cover1_3 (p0 : Vec F S8000x3 .f32) (y : S8000x3.Idx) :
    ∃ pc ∈ ([⟨ro1, p0⟩] : List (View.Piece (Elt F) S8000x3 .f32)), y ∈ pc.1.set :=
  View.cover_of_tiled [⟨ro1, p0⟩] S8000x3.size (by rfl) y

set_option maxHeartbeats 1000000 in
/-- The body on whole staging buffers: the inputs come back as they were, the output holds out1_3 of them. -/
theorem sound_kernel1 (c : Dev nD) (E : Set ℕ) (i : grid1.Coords) (arg1 : Memref sig .tc .vmem S8000x64 .f32) (harg1 : arg1.IsWhole)
    (arg2 : Memref sig .tc .vmem S1x64 .f32) (harg2 : arg2.IsWhole) (arg3 : Memref sig .tc .vmem S64x3 .f32) (harg3 : arg3.IsWhole)
    (arg4 : Memref sig .tc .vmem S8000x3 .f32) (harg4 : arg4.IsWhole)
    (x0 : Vec F S8000x64 .f32) (x1 : Vec F S1x64 .f32) (x2 : Vec F S64x3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__fused_bias_relu_matmul_kernel i arg1 harg1 arg2 harg2 arg3 harg3 arg4 harg4) K := by
  simp only [cc1__fused_bias_relu_matmul_kernel_eq_skeleton]; unfold cc1__fused_bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core c: the arrays as the region finds them; after the body each input's buffer at
    its block and the output's at out1_3 of the input blocks; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 of @main: the mean pool over graphs and the log-softmax, 4000 nodes per grid point, fifty points.
  Everything here is stated at a parameter V, the contents of the TensorCore's buffers when the region is entered.
  The output block (512 x 3, one per graph and class) and the scratch column (512 x 1, the node counts) are carried
  from point to point: the first point clears both, every point adds its block's one-hot sums, and the last point
  divides by max(count, 1) and takes the log-softmax along the classes.
-/
import proofs.«404303_j14577119003090_1_alg».proof.Proof.Gen.KernelIdeal.Launch
import proofs.«404303_j14577119003090_1_alg».proof.Proof.Gen.KernelIdeal.Skeleton
import proofs.«404303_j14577119003090_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One point's work on the carried pair (sums, counts): add the block's one-hot sums to both; at the last point (number 49)
    the sums are then divided by max(count, 1) and log-softmaxed. x0 the block of node features, x1 the bias row, x2 the
    block of graph ids. -/
def step2 (n : ℕ) (x0 : Vec F S4000x3 .f32) (x1 : Vec F S1x3 .f32) (x2 : Vec F S4000x1 .i32)
    (o : Vec F S512x3 .f32) (s : Vec F S512x1 .f32) : Vec F S512x3 .f32 × Vec F S512x1 .f32 :=
  (if n = 49 then k2_pay6 (k2_pay5 x2 s) (k2_pay4 x0 x1 x2 o) else k2_pay4 x0 x1 x2 o, k2_pay5 x2 s)

/-- What the output's staging buffer and the scratch hold after the body at position n: the first point starts from
    the cleared pair, every later one from what the point before left. -/
def outsAt2 (c : Dev nD) : (n : ℕ) → n < cfg2.N → Vec F S512x3 .f32 × Vec F S512x1 .f32
  | 0, hn => step2 0 (iblk2 V c 0 ⟨0, hn⟩) (iblk2 V c 1 ⟨0, hn⟩) (iblk2 V c 2 ⟨0, hn⟩) k2_pay1 k2_pay2
  | n + 1, hn => step2 (n + 1) (iblk2 V c 0 ⟨n + 1, hn⟩) (iblk2 V c 1 ⟨n + 1, hn⟩) (iblk2 V c 2 ⟨n + 1, hn⟩)
      (outsAt2 c n (Nat.lt_of_succ_lt hn)).1 (outsAt2 c n (Nat.lt_of_succ_lt hn)).2

/-! ## The pair, point by point -/

/-- The sums away from the last point: the block's contribution added, nothing more. -/
theorem step2_fst_of_ne (n : ℕ) (h : ¬n = 49) (x0 : Vec F S4000x3 .f32) (x1 : Vec F S1x3 .f32) (x2 : Vec F S4000x1 .i32)
    (o : Vec F S512x3 .f32) (s : Vec F S512x1 .f32) : (step2 n x0 x1 x2 o s).1 = k2_pay4 x0 x1 x2 o := by
  unfold step2; dsimp only; rw [if_neg h]

/-- The sums at the last point: the finished sums divided by the finished counts, then the log-softmax. -/
theorem step2_fst_of_eq (n : ℕ) (h : n = 49) (x0 : Vec F S4000x3 .f32) (x1 : Vec F S1x3 .f32) (x2 : Vec F S4000x1 .i32)
    (o : Vec F S512x3 .f32) (s : Vec F S512x1 .f32) :
    (step2 n x0 x1 x2 o s).1 = k2_pay6 (k2_pay5 x2 s) (k2_pay4 x0 x1 x2 o) := by
  unfold step2; dsimp only; rw [if_pos h]

/-- The counts: the block's one-hot column sums added, at every point. -/
theorem step2_snd (n : ℕ) (x0 : Vec F S4000x3 .f32) (x1 : Vec F S1x3 .f32) (x2 : Vec F S4000x1 .i32)
    (o : Vec F S512x3 .f32) (s : Vec F S512x1 .f32) : (step2 n x0 x1 x2 o s).2 = k2_pay5 x2 s := rfl

/-- At the first point the pair starts from the cleared one. -/
theorem outsAt2_first (c : Dev nD) (t : Fin cfg2.N) (hz : t.val = 0) :
    outsAt2 V c t.val t.isLt = step2 0 (iblk2 V c 0 t) (iblk2 V c 1 t) (iblk2 V c 2 t) k2_pay1 k2_pay2 := by
  obtain ⟨n, hn⟩ := t
  cases n with
  | zero => rfl
  | succ n => exact absurd hz (Nat.succ_ne_zero n)

/-- At a later point it starts from what the point before left. -/
theorem outsAt2_later (c : Dev nD) (t : Fin cfg2.N) (hz : ¬t.val = 0) :
    outsAt2 V c t.val t.isLt = step2 t.val (iblk2 V c 0 t) (iblk2 V c 1 t) (iblk2 V c 2 t)
      (outsAt2 V c (t.val - 1) (Nat.lt_of_le_of_lt (Nat.sub_le _ _) t.isLt)).1
      (outsAt2 V c (t.val - 1) (Nat.lt_of_le_of_lt (Nat.sub_le _ _) t.isLt)).2 := by
  obtain ⟨n, hn⟩ := t
  cases n with
  | zero => exact absurd rfl hz
  | succ n => rfl

/-! ## The two conditions of the body -/

/-- The first conditional's test, from the grid coordinate: is this the first point? -/
abbrev cond2_0 (i : grid2.Coords) : Prop := (Scalar.cmpi .ne (Scalar.extui (Scalar.cmpi .eq (BitVec.ofNat 32 (i 0).val) 0#32)) 0#32) = 1#1
/-- The second's: is this point number 49, the last? -/
abbrev cond2_1 (i : grid2.Coords) : Prop := (Scalar.cmpi .ne (Scalar.extui (Scalar.cmpi .eq (BitVec.ofNat 32 (i 0).val) 49#32)) 0#32) = 1#1

/-- Both in closed form, decided over the fifty points. -/
theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 49 :=
  (by decide +kernel : ∀ t : Fin grid2.N, cond2_1 (grid2.coords t) ↔ t.val = 49)

/-! ## Whole-buffer loads and stores -/

/-- The offsets of every load and store of the body: zero on both axes. -/
theorem hz2 : (![0, 0] : Fin 2 → Nat) = fun _ => 0 := by funext a; fin_cases a <;> rfl

/-- A buffer whose LAST store went over the whole of it reads that store's value, whatever was stored before. -/
theorem read_store_last {S : Shape} {e : EltTy} (v : View sig .tc .vmem S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-! ## The body, case by case, on whole buffers with their contents named -/

set_option maxHeartbeats 1000000 in
/-- The first point: both carried buffers are cleared whatever they held, then the block's sums are added to the cleared pair. -/
theorem sound_kernel2_A (c : Dev nD) (E : Set ℕ) (i : grid2.Coords) (hc0 : cond2_0 i) (hc1 : ¬cond2_1 i)
    (arg1 : Memref sig .tc .vmem S4000x3 .f32) (harg1 : arg1.IsWhole)
    (arg2 : Memref sig .tc .vmem S1x3 .f32) (harg2 : arg2.IsWhole) (arg3 : Memref sig .tc .vmem S4000x1 .i32) (harg3 : arg3.IsWhole)
    (arg4 : Memref sig .tc .vmem S512x3 .f32) (harg4 : arg4.IsWhole) (arg5 : Memref sig .tc .vmem S512x1 .f32) (harg5 : arg5.IsWhole)
    (x0 : Vec F S4000x3 .f32) (x1 : Vec F S1x3 .f32) (x2 : Vec F S4000x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay4 x0 x1 x2 k2_pay1) ∗ owns (c : Thread nD τ) arg5 fullShare (k2_pay5 x2 k2_pay2)) -∗ K ⟨⟩))
      ⊢ wp frame (wpE (defs₀ (F := F)) Variants.none c none) E (cc2__pool_logsoftmax_kernel i arg1 harg1 arg2 harg2 arg3 harg3 arg4 harg4 arg5 harg5) K := by
  simp only [cc2__pool_logsoftmax_kernel_eq_skeleton]; unfold cc2__pool_logsoftmax_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (read_store_last _ _ hz2 _ _ _).trans ?_
    simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]
  iexists _; isplitr
  swap; · iexact H4
  ipureintro
  sl_unfold_words
  refine (read_store_last _ _ hz2 _ _ _).trans ?_
  simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]

set_option maxHeartbeats 1000000 in
/-- A point that is neither first nor last: the block's sums are added to the pair the point before left. -/
theorem sound_kernel2_B (c : Dev nD) (E : Set ℕ) (i : grid2.Coords) (hc0 : ¬cond2_0 i) (hc1 : ¬cond2_1 i)
    (arg1 : Memref sig .tc .vmem S4000x3 .f32) (harg1 : arg1.IsWhole)
    (arg2 : Memref sig .tc .vmem S1x3 .f32) (harg2 : arg2.IsWhole) (arg3 : Memref sig .tc .vmem S4000x1 .i32) (harg3 : arg3.IsWhole)
    (arg4 : Memref sig .tc .vmem S512x3 .f32) (harg4 : arg4.IsWhole) (arg5 : Memref sig .tc .vmem S512x1 .f32) (harg5 : arg5.IsWhole)
    (x0 : Vec F S4000x3 .f32) (x1 : Vec F S1x3 .f32) (x2 : Vec F S4000x1 .i32) (o : Vec F S512x3 .f32) (s : Vec F S512x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k2_pay4 x0 x1 x2 o) ∗ owns (c : Thread nD τ) arg5 fullShare (k2_pay5 x2 s)) -∗ K ⟨⟩))
      ⊢ wp frame (wpE (defs₀ (F := F)) Variants.none c none) E (cc2__pool_logsoftmax_kernel i arg1 harg1 arg2 harg2 arg3 harg3 arg4 harg4 arg5 harg5) K := by
  simp only [cc2__pool_logsoftmax_kernel_eq_skeleton]; unfold cc2__pool_logsoftmax_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_store_last _ _ hz2 _ _ _).trans ?_
    simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]
  iexists _; isplitr
  swap; · iexact H4
  ipureintro
  refine (read_store_last _ _ hz2 _ _ _).trans ?_
  simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]

set_option maxHeartbeats 1000000 in
/-- The last point: the block's sums are added as before; then the finished counts and sums are read back and the sums
    replaced by their quotient's log-softmax. -/
theorem sound_kernel2_C (c : Dev nD) (E : Set ℕ) (i : grid2.Coords) (hc0 : ¬cond2_0 i) (hc1 : cond2_1 i)
    (arg1 : Memref sig .tc .vmem S4000x3 .f32) (harg1 : arg1.IsWhole)
    (arg2 : Memref sig .tc .vmem S1x3 .f32) (harg2 : arg2.IsWhole) (arg3 : Memref sig .tc .vmem S4000x1 .i32) (harg3 : arg3.IsWhole)
    (arg4 : Memref sig .tc .vmem S512x3 .f32) (harg4 : arg4.IsWhole) (arg5 : Memref sig .tc .vmem S512x1 .f32) (harg5 : arg5.IsWhole)
    (x0 : Vec F S4000x3 .f32) (x1 : Vec F S1x3 .f32) (x2 : Vec F S4000x1 .i32) (o : Vec F S512x3 .f32) (s : Vec F S512x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k2_pay6 (k2_pay5 x2 s) (k2_pay4 x0 x1 x2 o)) ∗ owns (c : Thread nD τ) arg5 fullShare (k2_pay5 x2 s)) -∗ K ⟨⟩))
      ⊢ wp frame (wpE (defs₀ (F := F)) Variants.none c none) E (cc2__pool_logsoftmax_kernel i arg1 harg1 arg2 harg2 arg3 harg3 arg4 harg4 arg5 harg5) K := by
  simp only [cc2__pool_logsoftmax_kernel_eq_skeleton]; unfold cc2__pool_logsoftmax_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (read_store_last _ _ hz2 _ _ _).trans ?_
    simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]
  iexists _; isplitr
  swap; · iexact H4
  ipureintro
  sl_unfold_words
  refine (read_store_last _ _ hz2 _ _ _).trans ?_
  simp only [View.readAt_eq_ld, View.ld_unit_zero (S := S4000x3) hz2, View.ld_unit_zero (S := S1x3) hz2,
      View.ld_unit_zero (S := S4000x1) hz2, View.ld_unit_zero (S := S512x3) hz2, View.ld_unit_zero (S := S512x1) hz2,
      View.readCov_unit_zero (S := S512x3) _ hz2, View.readCov_unit_zero (S := S512x1) _ hz2]

/-! ## The invariant: the scratch column between points -/

/-- The scratch column, a whole scoped buffer of the kernel's own, passed beside the windows. -/
abbrev scM2 : Memref sig .tc .vmem S512x1 .f32 := Memref.whole cc2_scratch0

/-- The eleven staging buffers of the two regions before this one, each at some contents: scoped buffers this region
    never touches. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- What the launch hands the region has the scratch column among the scoped buffers at some contents; set apart from the
    buffers the region never touches, one way -/
theorem PhiA2_split (c : Dev nD) :
    (Pipeline.ΦA spec2 c : sProp 𝕄) ⊢ iprop(others2 (F := F) c ∗ (∃ d, owns (c : Thread nD τ) scM2 fullShare d) ∗ (∃ r, prngReg c r)) := by
  unfold Pipeline.ΦA others2; rw [scopedRest2_eq]; simp only [scM2, owns_whole]
  iintro ⟨⟨H1, H2, H3, H4, H5, H6, H7, H8, H9, H10, H11, HS⟩, Hg⟩
  isplitl [H1 H2 H3 H4 H5 H6 H7 H8 H9 H10 H11]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HS]; · iexact HS
  iexact Hg

/-- and back; -/
theorem PhiA2_join (c : Dev nD) :
    iprop(others2 (F := F) c ∗ (∃ d, owns (c : Thread nD τ) scM2 fullShare d) ∗ (∃ r, prngReg c r)) ⊢ (Pipeline.ΦA spec2 c : sProp 𝕄) := by
  unfold Pipeline.ΦA others2; rw [scopedRest2_eq]; simp only [scM2, owns_whole]
  iintro ⟨⟨H1, H2, H3, H4, H5, H6, H7, H8, H9, H10, H11⟩, HS, Hg⟩
  isplitl [H1 H2 H3 H4 H5 H6 H7 H8 H9 H10 H11 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iexact Hg

/-- so the two are one proposition. -/
theorem PhiA2_eq (c : Dev nD) :
    (Pipeline.ΦA spec2 c : sProp 𝕄) = iprop(others2 (F := F) c ∗ (∃ d, owns (c : Thread nD τ) scM2 fullShare d) ∗ (∃ r, prngReg c r)) :=
  BI.equiv_iff.mp ⟨PhiA2_split c, PhiA2_join c⟩

/-- The region's invariant before position n. Before the first point it is what the launch hands over, the scratch at
    anything; before a later point the scratch column holds the counts the point before left, the buffers the region never
    touches are at some contents, and the generator register at some state. -/
def PhiS2 (c : Dev nD) : (n : ℕ) → n ≤ cfg2.N → sProp 𝕄
  | 0, _ => Pipeline.ΦA spec2 c
  | n + 1, hn => iprop(others2 (F := F) c ∗ owns (c : Thread nD τ) scM2 fullShare (outsAt2 V c n hn).2 ∗ (∃ r, prngReg c r))

theorem PhiS2_zero (c : Dev nD) (n : ℕ) (h : n ≤ cfg2.N) (hz : n = 0) : PhiS2 V c n h = Pipeline.ΦA spec2 c := by
  subst hz; rfl

/-- After point n the counts are that point's. -/
theorem PhiS2_succ (c : Dev nD) (n : ℕ) (hn : n < cfg2.N) :
    PhiS2 V c (n + 1) hn
      = iprop(others2 (F := F) c ∗ owns (c : Thread nD τ) scM2 fullShare (outsAt2 V c n hn).2 ∗ (∃ r, prngReg c r)) := rfl

/-- Before a point that is not the first the counts are those of the point before. -/
theorem PhiS2_pos (c : Dev nD) (n : ℕ) (h : n ≤ cfg2.N) (hz : ¬n = 0) :
    PhiS2 V c n h
      = iprop(others2 (F := F) c ∗ owns (c : Thread nD τ) scM2 fullShare (outsAt2 V c (n - 1) (by omega)).2 ∗ (∃ r, prngReg c r)) := by
  cases n with
  | zero => exact absurd rfl hz
  | succ n => rfl

/-! ## The proof data -/

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the staging buffers hold when the body runs -/

/-- The three inputs: each buffer holds the point's block, fetched at this point or not (the bias row is fetched once and
    its block index never moves). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- The output's one buffer at the first point: nothing has filled it, it holds anything. -/
theorem before2_3_first (c : Dev nD) (t : Fin cfg2.N) (hz : t.val = 0) (d) : (dat2 V c).before 3 t d = d :=
  Dat.before_out_reset _ 3 rfl t (.inl hz) d

/-- At a later point it holds the sums the point before left: the block is written back after the last point only, so
    nothing has disturbed the buffer in between. -/
theorem before2_3_later (c : Dev nD) (t : Fin cfg2.N) (hz : ¬t.val = 0) (d) :
    (dat2 V c).before 3 t d = (outsAt2 V c (t.val - 1) (Nat.lt_of_le_of_lt (Nat.sub_le _ _) t.isLt)).1 := by
  have hN : t.val < 50 := lt_of_lt_of_eq t.isLt (show cfg2.N = 50 from N_2)
  rw [Dat.before_out_kept _ 3 rfl t hz (Bool.eq_false_iff.mpr fun h => by have := (flush2_3 _).mp h; dsimp only at this; omega)
    (fun _ => rfl) (fun _ _ => rfl)]
  dsimp only [dat2]

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point. The inputs' buffers hold their blocks; the point's number says which of the three cases runs;
    the output's buffer and the scratch column come in at the pair the point before left (at anything, at the first point)
    and go out at this point's pair, the sums to the output window and the counts to the invariant. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    after2_0, after2_1, after2_2, after2_3]
  rw [show (dat2 V c).Φ t.succ = PhiS2 V c (t.val + 1) t.isLt from rfl, PhiS2_succ, PhiS2_castSucc]
  have hN : t.val < 50 := lt_of_lt_of_eq t.isLt (show cfg2.N = 50 from N_2)
  by_cases hz : t.val = 0
  · have h49 : ¬t.val = 49 := by omega
    rw [PhiS2_zero V c _ _ hz, PhiA2_eq, outsAt2_first V c t hz, step2_fst_of_ne 0 (by omega), step2_snd]
    simp only [before2_3_first V c t hz]
    iintro ⟨⟨HR, ⟨%ds, HS⟩, Hg⟩, Ho, ⟨%d0, H0⟩, ⟨%d1, H1⟩, ⟨%d2, H2⟩, ⟨%d3, H3⟩⟩
    iapply (sound_kernel2_A c Set.univ _ ((hcond2_0 t).mpr hz) (fun h => h49 ((hcond2_1 t).mp h)) _ _ _ _ _ _ _ _ _ _
      (iblk2 V c 0 t) (iblk2 V c 1 t) (iblk2 V c 2 t) _)
    isplitl [H0]; · iexact H0
    isplitl [H1]; · iexact H1
    isplitl [H2]; · iexact H2
    isplitl [H3]; · iexists _; iexact H3
    isplitl [HS]; · iexists _; iexact HS
    iintro ⟨H0, H1, H2, H3, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    iexact H3
  · rw [PhiS2_pos V c _ _ hz, outsAt2_later V c t hz, step2_snd]
    simp only [before2_3_later V c t hz]
    by_cases h49 : t.val = 49
    · rw [step2_fst_of_eq _ h49]
      iintro ⟨⟨HR, HS, Hg⟩, Ho, ⟨%d0, H0⟩, ⟨%d1, H1⟩, ⟨%d2, H2⟩, ⟨%d3, H3⟩⟩
      iapply (sound_kernel2_C c Set.univ _ (fun h => hz ((hcond2_0 t).mp h)) ((hcond2_1 t).mpr h49) _ _ _ _ _ _ _ _ _ _
        (iblk2 V c 0 t) (iblk2 V c 1 t) (iblk2 V c 2 t)
        (outsAt2 V c (t.val - 1) (Nat.lt_of_le_of_lt (Nat.sub_le _ _) t.isLt)).1
        (outsAt2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3
    · rw [step2_fst_of_ne _ h49]
      iintro ⟨⟨HR, HS, Hg⟩, Ho, ⟨%d0, H0⟩, ⟨%d1, H1⟩, ⟨%d2, H2⟩, ⟨%d3, H3⟩⟩
      iapply (sound_kernel2_B c Set.univ _ (fun h => hz ((hcond2_0 t).mp h)) (fun h => h49 ((hcond2_1 t).mp h)) _ _ _ _ _ _ _ _ _ _
        (iblk2 V c 0 t) (iblk2 V c 1 t) (iblk2 V c 2 t)
        (outsAt2 V c (t.val - 1) (Nat.lt_of_le_of_lt (Nat.sub_le _ _) t.isLt)).1
        (outsAt2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's contents are forgotten. -/
theorem hout2 (c : Dev nD) : (dat2 V c).Φ (Fin.last cfg2.N) ⊢ Pipeline.ΦA spec2 c := by
  have hN : cfg2.N = 50 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨HR, HS, Hg⟩
  isplitl [HR]; · iexact HR
  isplitl [HS]; · iexists _; iexact HS
  iexact Hg

end Cert.KernelIdeal.Hand

end
-- ==== Proof.KI.Fold.lean ====
/-
  The contents of the TensorCore's buffers at each boundary between the items of @main: a fold from the launch memory.
  A stretch of host operations applies them; a kernel region leaves its arrays at what its write-backs fold to, and
  every other buffer as it found it.
-/
import proofs.«404303_j14577119003090_1_alg».proof.Proof.KI.R0
import proofs.«404303_j14577119003090_1_alg».proof.Proof.KI.R1
import proofs.«404303_j14577119003090_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m ((c : Dev nD), b)
/-- After the first stretch of host operations (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit, which is the end of @main. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- The prefetched tables' admissible contents: no pipeline has a table. -/
abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.KernelIdeal.Hand

end
-- ==== Proof.KI.Run.lean ====
/-
  The run of @main from the launch to the return. @main is three stretches of graph glue (the first makes the edge
  weights from the node degrees; the next two gather a product's rows along the edges, weight them and add them up
  at the nodes) around three kernel regions: the two node-wise products and the pooling over graphs. Between two items every core holds each unscoped buffer at the contents the fold
  names, beside its generator register at some state and a ledger that owes nothing. Each stretch applies its
  operations to those contents; each region takes its arrays out of the unscoped buffers, runs its pipeline on
  them, and puts them back at what the write-backs leave. Read at the end: the pooled output is the last region's
  fourth array, and no item writes an argument.
-/
import proofs.«404303_j14577119003090_1_alg».proof.Proof.KI.Fold
import proofs.«404303_j14577119003090_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item writes an argument

A stretch of glue leaves every reference outside its list of written ones as it found it; a region leaves every
buffer that is none of its arrays as it found it, and an input array too (nothing is written back to it). -/

theorem glue0_keeps (c : Dev nD) (r : Ref sig .tc) (h : r ∉ hostOps0_W) :
    W1 m c (Proc.devRef .tc r) = W0 m c (Proc.devRef .tc r) :=
  StableHlo.after_of_writes_sub hostOps0 _ hostOps0_writes h
theorem glue1_keeps (c : Dev nD) (r : Ref sig .tc) (h : r ∉ hostOps1_W) :
    W3 m c (Proc.devRef .tc r) = W2 m c (Proc.devRef .tc r) :=
  StableHlo.after_of_writes_sub hostOps1 _ hostOps1_writes h
theorem glue2_keeps (c : Dev nD) (r : Ref sig .tc) (h : r ∉ hostOps2_W) :
    W5 m c (Proc.devRef .tc r) = W4 m c (Proc.devRef .tc r) :=
  StableHlo.after_of_writes_sub hostOps2 _ hostOps2_writes h

/-- An input array of the first product (the node features, the first layer's weights) leaves it as it entered. -/
theorem prod0_input (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- An input array of the second product (the aggregated features, the bias row, the second layer's weights) too. -/
theorem prod1_input (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-- From the end of @main back to the launch, for a reference that no stretch writes and no region outputs:
    given what each region does to it, it ends as launched. -/
theorem back_to_launch (c : Dev nD) (r : Ref sig .tc)
    (hpool : ∀ w, Pipeline.arrRef spec2 w ≠ r) (hg2 : r ∉ hostOps2_W)
    (hp1 : W4 m c (Proc.devRef .tc r) = W3 m c (Proc.devRef .tc r)) (hg1 : r ∉ hostOps1_W)
    (hp0 : W2 m c (Proc.devRef .tc r) = W1 m c (Proc.devRef .tc r)) (hg0 : r ∉ hostOps0_W) :
    W6 m c (Proc.devRef .tc r) = m ((c : Thread nD τ).loc r) :=
  (W6_of_ne m c r hpool).trans <| (glue2_keeps m c r hg2).trans <| hp1.trans <| (glue1_keeps m c r hg1).trans <|
    hp0.trans <| (glue0_keeps m c r hg0).trans rfl

/-- The node features: an input of the first product. -/
theorem end_arg0 (c : Dev nD) : W6 m c (Proc.devRef .tc main_arg0) = m ((c : Thread nD τ).loc main_arg0) :=
  back_to_launch m c main_arg0 (by decide) (by decide) (W4_of_ne m c main_arg0 (by decide)) (by decide)
    (prod0_input m c 0 rfl) (by decide)
/-- The edge list: read by the glue only. -/
theorem end_arg1 (c : Dev nD) : W6 m c (Proc.devRef .tc main_arg1) = m ((c : Thread nD τ).loc main_arg1) :=
  back_to_launch m c main_arg1 (by decide) (by decide) (W4_of_ne m c main_arg1 (by decide)) (by decide)
    (W2_of_ne m c main_arg1 (by decide)) (by decide)
/-- The graph ids: reshaped by the last stretch, never written. -/
theorem end_arg2 (c : Dev nD) : W6 m c (Proc.devRef .tc main_arg2) = m ((c : Thread nD τ).loc main_arg2) :=
  back_to_launch m c main_arg2 (by decide) (by decide) (W4_of_ne m c main_arg2 (by decide)) (by decide)
    (W2_of_ne m c main_arg2 (by decide)) (by decide)
/-- The first layer's weights: an input of the first product. -/
theorem end_arg3 (c : Dev nD) : W6 m c (Proc.devRef .tc main_arg3) = m ((c : Thread nD τ).loc main_arg3) :=
  back_to_launch m c main_arg3 (by decide) (by decide) (W4_of_ne m c main_arg3 (by decide)) (by decide)
    (prod0_input m c 1 rfl) (by decide)
/-- The first layer's bias: reshaped by the middle stretch, never written. -/
theorem end_arg4 (c : Dev nD) : W6 m c (Proc.devRef .tc main_arg4) = m ((c : Thread nD τ).loc main_arg4) :=
  back_to_launch m c main_arg4 (by decide) (by decide) (W4_of_ne m c main_arg4 (by decide)) (by decide)
    (W2_of_ne m c main_arg4 (by decide)) (by decide)
/-- The second layer's weights: an input of the second product. -/
theorem end_arg5 (c : Dev nD) : W6 m c (Proc.devRef .tc main_arg5) = m ((c : Thread nD τ).loc main_arg5) :=
  back_to_launch m c main_arg5 (by decide) (by decide) (prod1_input m c 2 rfl) (by decide)
    (W2_of_ne m c main_arg5 (by decide)) (by decide)
/-- The second layer's bias: reshaped by the last stretch, never written. -/
theorem end_arg6 (c : Dev nD) : W6 m c (Proc.devRef .tc main_arg6) = m ((c : Thread nD τ).loc main_arg6) :=
  back_to_launch m c main_arg6 (by decide) (by decide) (W4_of_ne m c main_arg6 (by decide)) (by decide)
    (W2_of_ne m c main_arg6 (by decide)) (by decide)

/-! ## What a core holds between two items -/

abbrev noVariants : Variants := Variants.none
/-- No core owes another anything, so no pair of a semaphore and a core carries a level. -/
abbrev noPairs : GSem nD τ sig → Finset Unit := fun _ => ∅
abbrev level0 : GSem nD τ sig → Unit → ℕ := fun _ _ => 0
/-- Beside the buffers, through every item: the core's generator register at some state (a region's invariant
    takes it in and hands it back) and the core's ledger, owing nothing. -/
abbrev beside (c : Dev nD) : sProp 𝕄 :=
  iprop((∃ r, prngReg c r) ∗ ∃ W, owes (c : Thread nD τ) (0 : CellTallies nD τ sig Unit) W)
/-- The state after the last item, less the ledger: every unscoped buffer at the final contents, the generator
    register at some state. -/
abbrev finalState (c : Dev nD) : sProp 𝕄 :=
  iprop(StableHlo.held (c : Thread nD τ) (Pipeline.ucRefs τ sig) (W6 m c) ∗ ∃ r, prngReg c r)
/-- An unscoped reference of the TensorCore is among the buffers a core holds between items. -/
theorem held_between (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The stretches of glue -/

/-- A stretch run from the contents W: its operations touch unscoped buffers only and allocate none, so it takes
    every unscoped buffer from W c to the operations applied to W c, what rides beside untouched. -/
abbrev glueSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs level0 :=
  Pipeline.HostSeg.ofOps _ _ _ _ _ (Pipeline.ucRefs τ sig) ops
    (fun op hop => Pipeline.sub_ucRefs op ((List.forall_iff_forall_mem.mp hsub) op hop))
    (fun op hop => (List.forall_iff_forall_mem.mp hfresh) op hop) W beside

/-! ## The kernel regions

Each region is entered from every unscoped buffer at its entry contents. Its arrays are cut out of those buffers
(they are whole, distinct, unscoped) and the rest bypasses the region; the generator register goes into the
region's invariant with the scratch buffers; the ledger owes nothing throughout and the kernels have no semaphore
of their own. At the exit the arrays, now at what the write-backs leave, are glued back to the rest. -/

set_option backward.isDefEq.respectTransparency.types false in
/-- The first product (node features times the first layer's weights), from the contents after the first stretch. -/
def prodSeg0 : Pipeline.RegionSeg (pcfgs (F := F)) adm (pdats m) () defs₀ noVariants noPairs level0 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noPairs level0 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hcut := Pipeline.arrays_of_unscopedBufs (p := 0) (pcfgs (F := F)) adm (pdats m) launch0.win launch0.arr_whole c
      ((pdats m 0 c).share_full fun _ => rfl) (V1 m c) fun _ => rfl
    rw [Pipeline.unscopedBufs_held] at hcut
    iintro ⟨⟨Hbufs, Hgen, Hledger⟩, -, -⟩
    ihave Hparts := hcut $$ Hbufs
    icases Hparts with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Hledger]
    · unfold Pipeline.Dat.owesAt Pipeline.owesWithin
      icases Hledger with ⟨%W, Hledger⟩
      iexists W
      isplitr; · ipureintro; exact fun _ _ => Or.inl trivial
      iexact Hledger
    isplitl [Hgen]; · iexact Hgen
    iexact Hothers
  hin c := by
    rw [show (pdats m 0 c).Φ 0 = Pipeline.ΦA spec0 c from rfl]; unfold Pipeline.ΦA
    iintro ⟨Hgen, -, Hscratch⟩
    isplitl [Hscratch]; · iexact Hscratch
    iexact Hgen
  hout c := by
    rw [Pipeline.ownSems0_none, show (pdats m 0 c).Φ (Fin.last _) = Pipeline.ΦA spec0 c from rfl]; unfold Pipeline.ΦA
    iintro ⟨Hscratch, Hgen⟩
    isplitl [Hgen]; · iexact Hgen
    isplitr; · iempintro
    iexact Hscratch
  hexit c := by
    have hglue := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hglue
    iintro ⟨Harrs, Hledger, Hgen, Hothers⟩
    imodintro
    isplitl [Harrs Hothers]
    · iapply hglue; isplitl [Harrs] <;> iassumption
    isplitl [Hgen]; · iexact Hgen
    unfold Pipeline.Dat.owesAt Pipeline.owesWithin
    icases Hledger with ⟨%W, -, Hledger⟩
    iexists W; iexact Hledger

set_option backward.isDefEq.respectTransparency.types false in
/-- The second product (aggregated features plus bias, times the second layer's weights), from the contents after the
    middle stretch. -/
def prodSeg1 : Pipeline.RegionSeg (pcfgs (F := F)) adm (pdats m) () defs₀ noVariants noPairs level0 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs level0 1 fun _ _ => rfl
  pre c := iprop(StableHlo.held (c : Thread nD τ) (Pipeline.ucRefs τ sig) (W3 m c) ∗ beside c)
  post c := iprop(StableHlo.held (c : Thread nD τ) (Pipeline.ucRefs τ sig) (W4 m c) ∗ beside c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hcut := Pipeline.arrays_of_unscopedBufs (p := 1) (pcfgs (F := F)) adm (pdats m) launch1.win launch1.arr_whole c
      ((pdats m 1 c).share_full fun _ => rfl) (V3 m c) fun _ => rfl
    rw [Pipeline.unscopedBufs_held] at hcut
    iintro ⟨⟨Hbufs, Hgen, Hledger⟩, -, -⟩
    ihave Hparts := hcut $$ Hbufs
    icases Hparts with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Hledger]
    · unfold Pipeline.Dat.owesAt Pipeline.owesWithin
      icases Hledger with ⟨%W, Hledger⟩
      iexists W
      isplitr; · ipureintro; exact fun _ _ => Or.inl trivial
      iexact Hledger
    isplitl [Hgen]; · iexact Hgen
    iexact Hothers
  hin c := by
    rw [show (pdats m 1 c).Φ 0 = Pipeline.ΦA spec1 c from rfl]; unfold Pipeline.ΦA
    iintro ⟨Hgen, -, Hscratch⟩
    isplitl [Hscratch]; · iexact Hscratch
    iexact Hgen
  hout c := by
    rw [Pipeline.ownSems0_none, show (pdats m 1 c).Φ (Fin.last _) = Pipeline.ΦA spec1 c from rfl]; unfold Pipeline.ΦA
    iintro ⟨Hscratch, Hgen⟩
    isplitl [Hgen]; · iexact Hgen
    isplitr; · iempintro
    iexact Hscratch
  hexit c := by
    have hglue := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hglue
    iintro ⟨Harrs, Hledger, Hgen, Hothers⟩
    imodintro
    isplitl [Harrs Hothers]
    · iapply hglue; isplitl [Harrs] <;> iassumption
    isplitl [Hgen]; · iexact Hgen
    unfold Pipeline.Dat.owesAt Pipeline.owesWithin
    icases Hledger with ⟨%W, -, Hledger⟩
    iexists W; iexact Hledger

set_option backward.isDefEq.respectTransparency.types false in
/-- The pooling region, from the contents after the last stretch. Its invariant is its own (it carries the node counts
    from point to point): what the launch hands over makes it before the first point, and after the last point it
    gives the scratch buffers and the generator register back. It is @main's last item, so it leaves the final state
    beside the ledger. -/
def poolSeg : Pipeline.RegionSeg (pcfgs (F := F)) adm (pdats m) () defs₀ noVariants noPairs level0 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ noPairs level0 2 fun _ _ => rfl
  pre c := iprop(StableHlo.held (c : Thread nD τ) (Pipeline.ucRefs τ sig) (W5 m c) ∗ beside c)
  post c := iprop(finalState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hcut := Pipeline.arrays_of_unscopedBufs (p := 2) (pcfgs (F := F)) adm (pdats m) launch2.win launch2.arr_whole c
      ((pdats m 2 c).share_full fun _ => rfl) (V5 m c) fun _ => rfl
    rw [Pipeline.unscopedBufs_held] at hcut
    iintro ⟨⟨Hbufs, Hgen, Hledger⟩, -, -⟩
    ihave Hparts := hcut $$ Hbufs
    icases Hparts with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Hledger]
    · unfold Pipeline.Dat.owesAt Pipeline.owesWithin
      icases Hledger with ⟨%W, Hledger⟩
      iexists W
      isplitr; · ipureintro; exact fun _ _ => Or.inl trivial
      iexact Hledger
    isplitl [Hgen]; · iexact Hgen
    iexact Hothers
  hin c := by
    rw [show (pdats m 2 c).Φ 0 = (dat2 (V5 m) c).Φ 0 from rfl]
    refine .trans ?_ (hin2 (V5 m) c)
    unfold Pipeline.ΦA
    iintro ⟨Hgen, -, Hscratch⟩
    isplitl [Hscratch]; · iexact Hscratch
    iexact Hgen
  hout c := by
    rw [Pipeline.ownSems0_none, show (pdats m 2 c).Φ (Fin.last _) = (dat2 (V5 m) c).Φ (Fin.last cfg2.N) from rfl]
    refine (hout2 (V5 m) c).trans ?_
    unfold Pipeline.ΦA
    iintro ⟨Hscratch, Hgen⟩
    isplitl [Hgen]; · iexact Hgen
    isplitr; · iempintro
    iexact Hscratch
  hexit c := by
    have hglue := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hglue
    iintro ⟨Harrs, Hledger, Hgen, Hothers⟩
    imodintro
    isplitr [Hledger]
    · isplitr [Hgen]
      · iapply hglue; isplitl [Harrs] <;> iassumption
      iexact Hgen
    unfold Pipeline.Dat.owesAt Pipeline.owesWithin
    icases Hledger with ⟨%W, -, Hledger⟩
    iexists W; iexact Hledger

/-! ## @main as its six items, and the launch -/

/-- The items in @main's order, each stretch from the contents the item before it leaves. -/
abbrev items : List (Pipeline.Seg (pcfgs (F := F)) adm (pdats m) () defs₀ noVariants noPairs level0) :=
  [ .host (glueSeg hostOps0 hostOps0_sub hostOps0_fresh (W0 m)),
    .region (prodSeg0 m),
    .host (glueSeg hostOps1 hostOps1_sub hostOps1_fresh (W2 m)),
    .region (prodSeg1 m),
    .host (glueSeg hostOps2 hostOps2_sub hostOps2_fresh (W4 m)),
    .region (poolSeg m) ]

/-- The items' programs are the links of @main's chain. -/
theorem items_progs : (items m).map Pipeline.Seg.prog = [
    StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()) ] := rfl

set_option backward.isDefEq.respectTransparency.types false in
/-- From any memory with every counter at zero, every weakly fair execution of @main on the TensorCores terminates
    without a fault, and in every final memory the pooled output holds what the pooling region's write-backs fold to
    and every argument holds what it held at launch. The several-regions launch over the six items: the launch deals
    each core its unscoped buffers at the launch contents, its generator register and an empty ledger; the items
    chain by the fold; the final state is read against the final memory buffer by buffer. -/
theorem run_value : θ_run defs (onTc (τ := τ) (main (F := F))) ⟨m, fun _ => 0, ρ⟩ (fun r => ∀ c : Dev nD,
      r.2.mem ((c.tc : Thread nD τ).loc main_v59) = (dat2 (V5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ noVariants noPairs level0 m ρ main (items m)
    (fun c Q => by
      rewrite [main_chain c, Pipeline.Seg.run_eq_chain, items_progs m]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := finalState m)
    (hch := ⟨fun _ => .rfl, fun _ => .rfl, fun _ => .rfl, fun _ => .rfl, fun _ => .rfl, fun _ => .rfl, fun _ => .rfl⟩)
    (hinit := by
      refine Pipeline.initEach noPairs level0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hledger, -, Hgen, -⟩, -⟩
      imodintro
      isplitl [Hbufs]; · iexact Hbufs
      isplitl [Hgen]; · iexists _; iexact Hgen
      iexists ∅; iexact Hledger)
    (QY := fun c s => ∀ b ∈ Pipeline.ucRefs τ sig, s.mem (((c : Thread nD τ)).1, b) = W6 m c b)
    (hfin := fun c s' => by
      iintro ⟨⟨Hbufs, -⟩, Hstate⟩
      unfold StableHlo.held
      imodintro
      iapply (pointsTo_read_all (Pipeline.ucRefs τ sig) (fun b => (((c : Thread nD τ)).1, b)) (W6 m c) s')
      isplitl [Hbufs] <;> iassumption)
    (hQ := fun s hread c =>
      ⟨(hread c _ (held_between main_v59 (by decide))).trans (W6_arr m c 3),
       (hread c _ (held_between main_arg0 (by decide))).trans (end_arg0 m c),
       (hread c _ (held_between main_arg1 (by decide))).trans (end_arg1 m c),
       (hread c _ (held_between main_arg2 (by decide))).trans (end_arg2 m c),
       (hread c _ (held_between main_arg3 (by decide))).trans (end_arg3 m c),
       (hread c _ (held_between main_arg4 (by decide))).trans (end_arg4 m c),
       (hread c _ (held_between main_arg5 (by decide))).trans (end_arg5 m c),
       (hread c _ (held_between main_arg6 (by decide))).trans (end_arg6 m c)⟩)

/-- The same run, read at the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.KernelIdeal.Hand

end
-- ==== Proof.Spec.lean ====
/-
  The three node-wise stages of the network as the reference composes them, each as one function of its operands:
  the first layer's product x · W1; the second layer's relu(a + b1) · W2; and the mean pool over graphs followed by
  the log-softmax along the classes. The reference's run is these three with the graph's gather / scale / scatter-add
  steps between them.
-/
import proofs.«404303_j14577119003090_1_alg».proof.Proof.Gen.ReferenceIdeal.Read

noncomputable section

namespace Cert.RefSpec

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The first layer's node-wise product: row n of the result is row n of x times W1. -/
def node1 (x : (⟨S200000x2, .f32⟩ : BufTy).Contents (Elt F)) (w : (⟨S2x64, .f32⟩ : BufTy).Contents (Elt F)) :
    (⟨S200000x64, .f32⟩ : BufTy).Contents (Elt F) :=
  Host.dotGeneral dot_S200000x2_S2x64_S200000x64_1_0_0_1_n_n none x w

/-- The second layer's node-wise product: relu(a + b) · W2, the bias row b broadcast down the rows. -/
def node2 (a : (⟨S200000x64, .f32⟩ : BufTy).Contents (Elt F)) (b : (⟨S1x64, .f32⟩ : BufTy).Contents (Elt F))
    (w : (⟨S64x3, .f32⟩ : BufTy).Contents (Elt F)) : (⟨S200000x3, .f32⟩ : BufTy).Contents (Elt F) :=
  Host.dotGeneral dot_S200000x64_S64x3_S200000x3_1_0_0_1_n_n none
    (maximumf (addf a (broadcastInDim S200000x64 ![0, 1] bcast_S1x64_S200000x64_0_1 b))
      (broadcastInDim S200000x64 ![] bcast_S_S200000x64 (constant S_ .f32 0x00000000#32))) w

/-- A row minus its maximum (the maximum taken from minus infinity). -/
def shifted (x : (⟨S512x3, .f32⟩ : BufTy).Contents (Elt F)) : (⟨S512x3, .f32⟩ : BufTy).Contents (Elt F) :=
  subf x (broadcastInDim S512x3 ![0, 1] bcast_S512x1_S512x3_0_1 (broadcastInDim S512x1 ![0] bcast_S512_S512x1_0
    (maximumf (broadcastInDim S512 ![] bcast_S_S512 (constant S_ .f32 0xFF800000#32))
      (Host.reduce FloatOps.maximumf x (constant S_ .f32 0xFF800000#32) reducesTo_S512x3_S512_d1 h_S_))))

/-- The log-softmax along the classes: the shifted row minus the log of the sum of its exponentials. -/
def logSoftmax (x : (⟨S512x3, .f32⟩ : BufTy).Contents (Elt F)) : (⟨S512x3, .f32⟩ : BufTy).Contents (Elt F) :=
  subf (shifted x) (broadcastInDim S512x3 ![0, 1] bcast_S512x1_S512x3_0_1 (Host.log (broadcastInDim S512x1 ![0] bcast_S512_S512x1_0
    (Host.reduceAdd (Host.exp (shifted x)) (constant S_ .f32 0x00000000#32) reducesTo_S512x3_S512_d1 h_S_))))

/-- The per-graph sums of a + b (b the bias row) over the nodes of each graph, q the nodes' graph ids. -/
def poolSum (a : (⟨S200000x3, .f32⟩ : BufTy).Contents (Elt F)) (b : (⟨S1x3, .f32⟩ : BufTy).Contents (Elt F))
    (q : (⟨S200000x1, .i32⟩ : BufTy).Contents (Elt F)) : (⟨S512x3, .f32⟩ : BufTy).Contents (Elt F) :=
  Host.scatterAdd scatter_S512x3_S200000x1_S200000x3_1_0_0_1 (broadcastInDim S512x3 ![] bcast_S_S512x3 (constant S_ .f32 0x00000000#32)) q
    (addf a (broadcastInDim S200000x3 ![0, 1] bcast_S1x3_S200000x3_0_1 b))

/-- The per-graph node counts. -/
def poolCnt (q : (⟨S200000x1, .i32⟩ : BufTy).Contents (Elt F)) : (⟨S512, .f32⟩ : BufTy).Contents (Elt F) :=
  Host.scatterAdd scatter_S512_S200000x1_S200000_n_0_0_1 (broadcastInDim S512 ![] bcast_S_S512 (constant S_ .f32 0x00000000#32)) q
    (broadcastInDim S200000 ![] bcast_S_S200000 (constant S_ .f32 0x3F800000#32))

/-- The mean pool (sums over max(count, 1)) followed by the log-softmax. -/
def pool (a : (⟨S200000x3, .f32⟩ : BufTy).Contents (Elt F)) (b : (⟨S1x3, .f32⟩ : BufTy).Contents (Elt F))
    (q : (⟨S200000x1, .i32⟩ : BufTy).Contents (Elt F)) : (⟨S512x3, .f32⟩ : BufTy).Contents (Elt F) :=
  logSoftmax (Host.divf (poolSum a b q)
    (broadcastInDim S512x3 ![0, 1] bcast_S512x1_S512x3_0_1 (broadcastInDim S512x1 ![0] bcast_S512_S512x1_0
      (maximumf (poolCnt q) (broadcastInDim S512 ![] bcast_S_S512 (constant S_ .f32 0x3F800000#32))))))

/-! The reference's stages are these functions of the stages before them. -/

theorem val_v30_eq (x0 : (⟨S200000x2, .f32⟩ : BufTy).Contents (Elt F)) (x3 : (⟨S2x64, .f32⟩ : BufTy).Contents (Elt F)) :
    val_main_v30 (F := F) x0 x3 = node1 x0 x3 := rfl

theorem val_v47_eq (x0 : (⟨S200000x2, .f32⟩ : BufTy).Contents (Elt F)) (x1 : (⟨S2x3200000, .i32⟩ : BufTy).Contents (Elt F))
    (x3 : (⟨S2x64, .f32⟩ : BufTy).Contents (Elt F)) (x4 : (⟨S64, .f32⟩ : BufTy).Contents (Elt F)) (x5 : (⟨S64x3, .f32⟩ : BufTy).Contents (Elt F)) :
    val_main_v47 (F := F) x0 x1 x3 x4 x5 = node2 (val_main_v42 (F := F) x0 x1 x3) (val_main_v43 (F := F) x4) x5 := rfl

theorem val_v75_eq (x0 : (⟨S200000x2, .f32⟩ : BufTy).Contents (Elt F)) (x1 : (⟨S2x3200000, .i32⟩ : BufTy).Contents (Elt F))
    (x2 : (⟨S200000, .i32⟩ : BufTy).Contents (Elt F)) (x3 : (⟨S2x64, .f32⟩ : BufTy).Contents (Elt F)) (x4 : (⟨S64, .f32⟩ : BufTy).Contents (Elt F))
    (x5 : (⟨S64x3, .f32⟩ : BufTy).Contents (Elt F)) (x6 : (⟨S3, .f32⟩ : BufTy).Contents (Elt F)) :
    val_main_v75 (F := F) x0 x1 x2 x3 x4 x5 x6
      = pool (val_main_v59 (F := F) x0 x1 x3 x4 x5) (val_main_v60 (F := F) x6) (val_main_v65 (F := F) x2) := rfl

end Cert.RefSpec

end
-- ==== Proof.KI.Val01.lean ====
/-
  What regions 0 and 1 leave in their result arrays, read at the exact extended-real instance: the blocks the grid
  points write back tile the array, and each block is the node-wise product of its rows.
-/
import proofs.«404303_j14577119003090_1_alg».proof.Proof.Spec
import proofs.«404303_j14577119003090_1_alg».proof.Proof.KI.Fold
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Idealize.ShloMosaic Idealize.ShloMosaic.TcCoe Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

open Idealize.ShloMosaic.ValueIdx

/-! ## Region 0: x · W1 -/

/-- The zero offsets of a whole-block rectangle. -/
theorem hz : (![0, 0] : Fin 2 → Nat) = fun _ => 0 := funext fun a => by fin_cases a <;> rfl

/-- Over the 25 grid points: the block of x and the output block at point t are block row t, column block 0; the
    weights' block never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is row 8000 t + p of the array. -/
def row0 (t : Fin cfg0.N) (p : Fin 8000) : Fin 200000 :=
  ⟨8000 * t.val + p.val, by have h : t.val < 25 := Nat.lt_of_lt_of_eq t.isLt N_0; have := p.isLt; omega⟩

/-! ### The kernel's matrix product at an index -/

theorem lhs0_0 (i : S8000x64.Idx) (q : dot_S8000x2_S2x64_S8000x64_1_0_0_1_n_n.contr.Idx) :
    (dot_S8000x2_S2x64_S8000x64_1_0_0_1_n_n.lhsIdx i q 0).val = (i 0).val := by
  unfold DotDims.lhsIdx
  rw [dif_neg (show ¬(0 : Fin S8000x2.rank) ∈ dot_S8000x2_S2x64_S8000x64_1_0_0_1_n_n.lhsBatch by decide), dif_pos (show (0 : Fin S8000x2.rank) ∈ dot_S8000x2_S2x64_S8000x64_1_0_0_1_n_n.lhsNonContracting by decide)]
  rfl
theorem lhs0_1 (i : S8000x64.Idx) (q : dot_S8000x2_S2x64_S8000x64_1_0_0_1_n_n.contr.Idx) :
    (dot_S8000x2_S2x64_S8000x64_1_0_0_1_n_n.lhsIdx i q 1).val = (q ⟨0, by decide⟩).val :=
  dot_S8000x2_S2x64_S8000x64_1_0_0_1_n_n.lhsIdx_val_of_single rfl i q
theorem rhs0_0 (i : S8000x64.Idx) (q : dot_S8000x2_S2x64_S8000x64_1_0_0_1_n_n.contr.Idx) :
    (dot_S8000x2_S2x64_S8000x64_1_0_0_1_n_n.rhsIdx i q 0).val = (q ⟨0, by decide⟩).val :=
  dot_S8000x2_S2x64_S8000x64_1_0_0_1_n_n.rhsIdx_val_of_single rfl i q
theorem rhs0_1 (i : S8000x64.Idx) (q : dot_S8000x2_S2x64_S8000x64_1_0_0_1_n_n.contr.Idx) :
    (dot_S8000x2_S2x64_S8000x64_1_0_0_1_n_n.rhsIdx i q 1).val = (i 1).val := by
  unfold DotDims.rhsIdx
  rw [dif_neg (show ¬(1 : Fin S2x64.rank) ∈ dot_S8000x2_S2x64_S8000x64_1_0_0_1_n_n.rhsBatch by decide), dif_pos (show (1 : Fin S2x64.rank) ∈ dot_S8000x2_S2x64_S8000x64_1_0_0_1_n_n.rhsNonContracting by decide)]
  rfl

/-- Entry (p, q) of the body's product of a block of x with W1: the sum over the two features of x (p, k) · W1 (k, q).
    The format changes are the identity on the extended reals and the accumulator starts at zero. -/
theorem pay0_apply (x : Vec Ideal S8000x2 .f32) (w : Vec Ideal S2x64 .f32) (p : Fin 8000) (q : Fin 64) :
    k0_pay1 (F := Ideal) x w (ix2 p q) = ∑ k : Fin 2, x (ix2 p k) * w (ix2 k q) := by
  unfold k0_pay1
  refine (Ideal.matmul_constant_zero_apply dot_S8000x2_S2x64_S8000x64_1_0_0_1_n_n none _ _ (ix2 p q)).trans ?_
  refine (Equiv.sum_comp (contrEquiv1 dot_S8000x2_S2x64_S8000x64_1_0_0_1_n_n 2 rfl rfl).symm _).symm.trans ?_
  refine Finset.sum_congr rfl fun k _ => ?_
  have hk := contrEquiv1_symm_val dot_S8000x2_S2x64_S8000x64_1_0_0_1_n_n 2 rfl rfl k
  have el : dot_S8000x2_S2x64_S8000x64_1_0_0_1_n_n.lhsIdx (ix2 p q) ((contrEquiv1 dot_S8000x2_S2x64_S8000x64_1_0_0_1_n_n 2 rfl rfl).symm k) = ix2 p k := funext fun a => Fin.ext (by
    match a with
    | ⟨0, _⟩ => exact lhs0_0 _ _
    | ⟨1, _⟩ => exact (lhs0_1 _ _).trans hk)
  have er : dot_S8000x2_S2x64_S8000x64_1_0_0_1_n_n.rhsIdx (ix2 p q) ((contrEquiv1 dot_S8000x2_S2x64_S8000x64_1_0_0_1_n_n 2 rfl rfl).symm k) = ix2 k q := funext fun a => Fin.ext (by
    match a with
    | ⟨0, _⟩ => exact (rhs0_0 _ _).trans hk
    | ⟨1, _⟩ => exact rhs0_1 _ _)
  rw [el, er]
  rfl

/-! ### The reference's product at an index -/

/-- Entry (r, q) of x · W1. -/
theorem node1_apply (x : (⟨S200000x2, .f32⟩ : BufTy).Contents (Elt Ideal)) (w : (⟨S2x64, .f32⟩ : BufTy).Contents (Elt Ideal))
    (r : Fin 200000) (q : Fin 64) :
    Cert.RefSpec.node1 (F := Ideal) x w (ix2 r q) = ∑ k : Fin 2, x (ix2 r k) * w (ix2 k q) := by
  refine (Cert.ReferenceIdeal.Read.val_main_v30_apply x w (ix2 r q)).trans ?_
  refine Finset.sum_congr rfl fun k _ => ?_
  have el : Cert.ReferenceIdeal.Read.lidx_main_v30 (ix2 r q) k = ix2 r k := funext fun a => Fin.ext (by
    match a with
    | ⟨0, _⟩ => rfl
    | ⟨1, _⟩ => rfl)
  have er : Cert.ReferenceIdeal.Read.ridx_main_v30 (ix2 r q) k = ix2 k q := funext fun a => Fin.ext (by
    match a with
    | ⟨0, _⟩ => rfl
    | ⟨1, _⟩ => rfl)
  rw [el, er]

/-! ### The blocks as parts of the arrays -/

/-- The block of x at point t holds rows 8000 t … 8000 t + 7999 of x. -/
theorem xblk0_apply (c : Dev nD) (t : Fin cfg0.N) (p : Fin 8000) (k : Fin 2) :
    (iblk0 (F := Ideal) V c 0 t : Vec Ideal S8000x2 .f32) (ix2 p k)
      = (V c main_arg0 : (⟨S200000x2, .f32⟩ : BufTy).Contents (Elt Ideal)) (ix2 (row0 t p) k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 8000 + 1 * p.val = 8000 * t.val + p.val; rw [e0]; omega
  | ⟨1, _⟩ => show win0_0.index t (1 : Fin 2) * 2 + 1 * k.val = k.val; rw [e1]; omega

/-- The block of W1 at any point is the whole of W1. -/
theorem wblk0_apply (c : Dev nD) (t : Fin cfg0.N) (k : Fin 2) (q : Fin 64) :
    (iblk0 (F := Ideal) V c 1 t : Vec Ideal S2x64 .f32) (ix2 k q)
      = (V c main_arg3 : (⟨S2x64, .f32⟩ : BufTy).Contents (Elt Ideal)) (ix2 k q) := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 2 + 1 * k.val = k.val; rw [e2]; omega
  | ⟨1, _⟩ => show win0_1.index t (1 : Fin 2) * 64 + 1 * q.val = q.val; rw [e3]; omega

/-- Entry (p, q) of the output block at point t sits at (8000 t + p, q) of the result array. -/
theorem oemb0 (t : Fin cfg0.N) (p : Fin 8000) (q : Fin 64) :
    ((cfg0.win 2).blk t).view.emb (ix2 p q) = (ix2 (row0 t p) q : S200000x64.Idx) := by
  obtain ⟨-, -, -, -, e4, e5⟩ := idx_facts0 t
  funext a
  apply Fin.ext
  match a with
  | ⟨0, _⟩ => show win0_2.index t (0 : Fin 2) * 8000 + 1 * p.val = 8000 * t.val + p.val; rw [e4]; omega
  | ⟨1, _⟩ => show win0_2.index t (1 : Fin 2) * 64 + 1 * q.val = q.val; rw [e5]; omega

/-- What point t writes back is block t of x · W1. -/
theorem flushed0_eq (c : Dev nD) (t : Fin cfg0.N) :
    (dat0 (F := Ideal) V c).flushed 2 t
      = ((cfg0.win 2).blk t).view.read (Elt Ideal) (Cert.RefSpec.node1 (F := Ideal) (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S8000x2) hz, View.ld_unit_zero (S := S2x64) hz]
  funext j
  obtain ⟨p, q, rfl⟩ : ∃ (p : Fin 8000) (q : Fin 64), j = ix2 p q := ⟨j 0, j 1, eq_ix2 j⟩
  rw [View.read_apply, oemb0 t p q]
  refine (pay0_apply (iblk0 (F := Ideal) V c 0 t) (iblk0 (F := Ideal) V c 1 t) p q).trans ?_
  refine Eq.trans ?_ (node1_apply (V c main_arg0) (V c main_arg3) (row0 t p) q).symm
  refine Finset.sum_congr rfl fun k _ => ?_
  rw [xblk0_apply V c t p k, wblk0_apply V c t k q]

/-- An index of the result array lies in point t's block iff each coordinate lies in the block's range. -/
theorem mem_blk0 (t : Fin cfg0.N) (i : S200000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v30).slice (win0_2.rect t)).set ↔ _
  rw [View.set_slice_whole, Rect.mem_set_unit]
  exact Iff.rfl

/-- The 25 blocks of 8000 rows cover the 200000 rows: row r is in block r / 8000. -/
theorem cover0 (i : S200000x64.Idx) : ∃ t : Fin cfg0.N, (cfg0.win 2).flush t = true ∧ i ∈ ((cfg0.win 2).blk t).view.set := by
  have hi0 : (i 0).val < 200000 := (i 0).isLt
  have hi1 : (i 1).val < 64 := (i 1).isLt
  have hN : cfg0.N = 25 := N_0
  let t : Fin cfg0.N := ⟨(i 0).val / 8000, by rw [hN]; omega⟩
  obtain ⟨-, -, -, -, e4, e5⟩ := idx_facts0 t
  have ht : t.val = (i 0).val / 8000 := rfl
  refine ⟨t, flush0_2 t, ?_⟩
  rw [mem_blk0]
  intro a
  match a with
  | ⟨0, _⟩ => show win0_2.index t (0 : Fin 2) * 8000 ≤ (i 0).val ∧ (i 0).val < win0_2.index t (0 : Fin 2) * 8000 + 8000; rw [e4, ht]; omega
  | ⟨1, _⟩ => show win0_2.index t (1 : Fin 2) * 64 ≤ (i 1).val ∧ (i 1).val < win0_2.index t (1 : Fin 2) * 64 + 64; rw [e5]; omega

/-- Region 0 leaves x · W1 in its result array. -/
theorem final0 (c : Dev nD) :
    (dat0 (F := Ideal) V c).arrAt 2 cfg0.N = Cert.RefSpec.node1 (F := Ideal) (V c main_arg0) (V c main_arg3) :=
  (dat0 (F := Ideal) V c).arrAt_eq_of_cover 2 _ (fun t _ => flushed0_eq V c t) cover0

/-! ## Region 1: relu(a + b1) · W2 -/

/-- Over the 25 grid points: the block of the aggregated features and the output block at point t are block row t;
    the bias row's and the weights' blocks never move. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is row 8000 t + p of the array. -/
def row1 (t : Fin cfg1.N) (p : Fin 8000) : Fin 200000 :=
  ⟨8000 * t.val + p.val, by have h : t.val < 25 := Nat.lt_of_lt_of_eq t.isLt N_1; have := p.isLt; omega⟩

/-! ### The kernel's fused bias, relu and matrix product at an index -/

theorem lhs1_0 (i : S8000x3.Idx) (q : dot_S8000x64_S64x3_S8000x3_1_0_0_1_n_n.contr.Idx) :
    (dot_S8000x64_S64x3_S8000x3_1_0_0_1_n_n.lhsIdx i q 0).val = (i 0).val := by
  unfold DotDims.lhsIdx
  rw [dif_neg (show ¬(0 : Fin S8000x64.rank) ∈ dot_S8000x64_S64x3_S8000x3_1_0_0_1_n_n.lhsBatch by decide), dif_pos (show (0 : Fin S8000x64.rank) ∈ dot_S8000x64_S64x3_S8000x3_1_0_0_1_n_n.lhsNonContracting by decide)]
  rfl
theorem lhs1_1 (i : S8000x3.Idx) (q : dot_S8000x64_S64x3_S8000x3_1_0_0_1_n_n.contr.Idx) :
    (dot_S8000x64_S64x3_S8000x3_1_0_0_1_n_n.lhsIdx i q 1).val = (q ⟨0, by decide⟩).val :=
  dot_S8000x64_S64x3_S8000x3_1_0_0_1_n_n.lhsIdx_val_of_single rfl i q
theorem rhs1_0 (i : S8000x3.Idx) (q : dot_S8000x64_S64x3_S8000x3_1_0_0_1_n_n.contr.Idx) :
    (dot_S8000x64_S64x3_S8000x3_1_0_0_1_n_n.rhsIdx i q 0).val = (q ⟨0, by decide⟩).val :=
  dot_S8000x64_S64x3_S8000x3_1_0_0_1_n_n.rhsIdx_val_of_single rfl i q
theorem rhs1_1 (i : S8000x3.Idx) (q : dot_S8000x64_S64x3_S8000x3_1_0_0_1_n_n.contr.Idx) :
    (dot_S8000x64_S64x3_S8000x3_1_0_0_1_n_n.rhsIdx i q 1).val = (i 1).val := by
  unfold DotDims.rhsIdx
  rw [dif_neg (show ¬(1 : Fin S64x3.rank) ∈ dot_S8000x64_S64x3_S8000x3_1_0_0_1_n_n.rhsBatch by decide), dif_pos (show (1 : Fin S64x3.rank) ∈ dot_S8000x64_S64x3_S8000x3_1_0_0_1_n_n.rhsNonContracting by decide)]
  rfl

/-- Entry (p, q) of the body's value on a block a, the bias row b and W2: the sum over the 64 hidden features of
    max (a (p, k) + b (0, k)) 0 · W2 (k, q). The shape casts are between equal shapes, the bias row is repeated down
    the rows, the format changes are the identity and the accumulator starts at zero. -/
theorem pay1_apply (x : Vec Ideal S8000x64 .f32) (b : Vec Ideal S1x64 .f32) (w : Vec Ideal S64x3 .f32) (p : Fin 8000) (q : Fin 3) :
    k1_pay1 (F := Ideal) x b w (ix2 p q) = ∑ k : Fin 64, max (x (ix2 p k) + b (ix2 (0 : Fin 1) k)) 0 * w (ix2 k q) := by
  unfold k1_pay1
  refine (Ideal.matmul_constant_zero_apply dot_S8000x64_S64x3_S8000x3_1_0_0_1_n_n none _ _ (ix2 p q)).trans ?_
  refine (Equiv.sum_comp (contrEquiv1 dot_S8000x64_S64x3_S8000x3_1_0_0_1_n_n 64 rfl rfl).symm _).symm.trans ?_
  refine Finset.sum_congr rfl fun k _ => ?_
  have hk := contrEquiv1_symm_val dot_S8000x64_S64x3_S8000x3_1_0_0_1_n_n 64 rfl rfl k
  have el : dot_S8000x64_S64x3_S8000x3_1_0_0_1_n_n.lhsIdx (ix2 p q) ((contrEquiv1 dot_S8000x64_S64x3_S8000x3_1_0_0_1_n_n 64 rfl rfl).symm k) = ix2 p k := funext fun a => Fin.ext (by
    match a with
    | ⟨0, _⟩ => exact lhs1_0 _ _
    | ⟨1, _⟩ => exact (lhs1_1 _ _).trans hk)
  have er : dot_S8000x64_S64x3_S8000x3_1_0_0_1_n_n.rhsIdx (ix2 p q) ((contrEquiv1 dot_S8000x64_S64x3_S8000x3_1_0_0_1_n_n 64 rfl rfl).symm k) = ix2 k q := funext fun a => Fin.ext (by
    match a with
    | ⟨0, _⟩ => exact (rhs1_0 _ _).trans hk
    | ⟨1, _⟩ => exact rhs1_1 _ _)
  rw [el, er]
  show max (shapeCast S8000x64 x shapeCasts_S8000x64_S8000x64 (ix2 p k)
      + broadcastTo S8000x64 (shapeCast S1x64 b shapeCasts_S1x64_S1x64) broadcasts_S1x64_S8000x64 (ix2 p k)) (Ideal.ofBits .f32 0x00000000#32) * w (ix2 k q) = _
  rw [shapeCast_self, shapeCast_self, broadcastTo_1b_ab_apply, Ideal.ofBits_zero_f32]

/-! ### The reference's second layer at an index -/

/-- relu(a + b) at (r, k), the bias row repeated down the rows. -/
theorem relu_apply (a : (⟨Cert.ReferenceIdeal.S200000x64, .f32⟩ : BufTy).Contents (Elt Ideal)) (b : (⟨Cert.ReferenceIdeal.S1x64, .f32⟩ : BufTy).Contents (Elt Ideal))
    (r : Fin 200000) (k : Fin 64) :
    (maximumf (addf a (broadcastInDim Cert.ReferenceIdeal.S200000x64 ![0, 1] Cert.ReferenceIdeal.Gen.bcast_S1x64_S200000x64_0_1 b))
      (broadcastInDim Cert.ReferenceIdeal.S200000x64 ![] Cert.ReferenceIdeal.Gen.bcast_S_S200000x64 (constant (F := Ideal) Cert.ReferenceIdeal.S_ .f32 0x00000000#32)) :
        (⟨Cert.ReferenceIdeal.S200000x64, .f32⟩ : BufTy).Contents (Elt Ideal)) (ix2 r k)
      = max (a (ix2 r k) + b (ix2 (0 : Fin 1) k)) 0 := by
  show max (a (ix2 r k) + broadcastInDim Cert.ReferenceIdeal.S200000x64 ![0, 1] Cert.ReferenceIdeal.Gen.bcast_S1x64_S200000x64_0_1 b (ix2 r k))
      (broadcastInDim Cert.ReferenceIdeal.S200000x64 ![] Cert.ReferenceIdeal.Gen.bcast_S_S200000x64 (constant (F := Ideal) Cert.ReferenceIdeal.S_ .f32 0x00000000#32) (ix2 r k)) = _
  rw [broadcastInDim_apply _ Cert.ReferenceIdeal.Gen.bcast_S1x64_S200000x64_0_1 b (ix2 r k) (ix2 (0 : Fin 1) k) (fun a => match a with
      | ⟨0, _⟩ => by show 0 = if (1 : Nat) = 1 then 0 else r.val; rw [if_pos rfl]
      | ⟨1, _⟩ => by show k.val = if (64 : Nat) = 1 then 0 else k.val; rw [if_neg (by decide)]),
    broadcastInDim_apply _ Cert.ReferenceIdeal.Gen.bcast_S_S200000x64 (constant (F := Ideal) Cert.ReferenceIdeal.S_ .f32 0x00000000#32) (ix2 r k) ix0 (fun a => a.elim0)]
  show max (a (ix2 r k) + b (ix2 (0 : Fin 1) k)) (Ideal.ofBits .f32 0x00000000#32) = _
  rw [Ideal.ofBits_zero_f32]

/-- Entry (r, q) of a product l · W2 over the 64 hidden features. -/
theorem dot2_apply (l : FVec Ideal Cert.ReferenceIdeal.S200000x64 .f32) (w : FVec Ideal Cert.ReferenceIdeal.S64x3 .f32)
    (r : Fin 200000) (q : Fin 3) :
    Host.dotGeneral (F := Ideal) Cert.ReferenceIdeal.dot_S200000x64_S64x3_S200000x3_1_0_0_1_n_n none l w (ix2 r q) = ∑ k : Fin 64, l (ix2 r k) * w (ix2 k q) := by
  simp only [Host.dotGeneral]
  refine (Ideal.dotGeneral_apply Cert.ReferenceIdeal.dot_S200000x64_S64x3_S200000x3_1_0_0_1_n_n none _ l w (ix2 r q)).trans ?_
  refine (Equiv.sum_comp (contrEquiv1 Cert.ReferenceIdeal.dot_S200000x64_S64x3_S200000x3_1_0_0_1_n_n 64 rfl rfl).symm _).symm.trans ?_
  refine Finset.sum_congr rfl fun k _ => ?_
  have hk := contrEquiv1_symm_val Cert.ReferenceIdeal.dot_S200000x64_S64x3_S200000x3_1_0_0_1_n_n 64 rfl rfl k
  have el : Cert.ReferenceIdeal.dot_S200000x64_S64x3_S200000x3_1_0_0_1_n_n.lhsIdx (ix2 r q) ((contrEquiv1 Cert.ReferenceIdeal.dot_S200000x64_S64x3_S200000x3_1_0_0_1_n_n 64 rfl rfl).symm k) = ix2 r k := funext fun a => Fin.ext (by
    match a with
    | ⟨0, _⟩ => exact Cert.ReferenceIdeal.Read.lhs_main_v47_0 _ _
    | ⟨1, _⟩ => exact (Cert.ReferenceIdeal.Read.lhs_main_v47_1 _ _).trans hk)
  have er : Cert.ReferenceIdeal.dot_S200000x64_S64x3_S200000x3_1_0_0_1_n_n.rhsIdx (ix2 r q) ((contrEquiv1 Cert.ReferenceIdeal.dot_S200000x64_S64x3_S200000x3_1_0_0_1_n_n 64 rfl rfl).symm k) = ix2 k q := funext fun a => Fin.ext (by
    match a with
    | ⟨0, _⟩ => exact (Cert.ReferenceIdeal.Read.rhs_main_v47_0 _ _).trans hk
    | ⟨1, _⟩ => exact Cert.ReferenceIdeal.Read.rhs_main_v47_1 _ _)
  rw [el, er]

/-- Entry (r, q) of relu(a + b) · W2. -/
theorem node2_apply (a : (⟨Cert.ReferenceIdeal.S200000x64, .f32⟩ : BufTy).Contents (Elt Ideal)) (b : (⟨Cert.ReferenceIdeal.S1x64, .f32⟩ : BufTy).Contents (Elt Ideal))
    (w : (⟨Cert.ReferenceIdeal.S64x3, .f32⟩ : BufTy).Contents (Elt Ideal)) (r : Fin 200000) (q : Fin 3) :
    Cert.RefSpec.node2 (F := Ideal) a b w (ix2 r q) = ∑ k : Fin 64, max (a (ix2 r k) + b (ix2 (0 : Fin 1) k)) 0 * w (ix2 k q) := by
  unfold Cert.RefSpec.node2
  refine (dot2_apply _ w r q).trans ?_
  refine Finset.sum_congr rfl fun k _ => ?_
  exact congrArg (· * w (ix2 k q)) (relu_apply a b r k)

/-! ### The blocks as parts of the arrays -/

/-- The block of the aggregated features at point t holds rows 8000 t … 8000 t + 7999. -/
theorem ablk1_apply (c : Dev nD) (t : Fin cfg1.N) (p : Fin 8000) (k : Fin 64) :
    (iblk1 (F := Ideal) V c 0 t : Vec Ideal S8000x64 .f32) (ix2 p k)
      = (V c main_v42 : (⟨S200000x64, .f32⟩ : BufTy).Contents (Elt Ideal)) (ix2 (row1 t p) k) := by
  obtain ⟨e0, e1, -⟩ := idx_facts1 t
  unfold iblk1
  rw [View.read_apply]
  show V c main_v42 _ = V c main_v42 _
  congr 1
  funext a
  apply Fin.ext
  match a with
  | ⟨0, _⟩ => show win1_0.index t (0 : Fin 2) * 8000 + 1 * p.val = 8000 * t.val + p.val; rw [e0]; omega
  | ⟨1, _⟩ => show win1_0.index t (1 : Fin 2) * 64 + 1 * k.val = k.val; rw [e1]; omega

/-- The block of the bias row at any point is the whole row. -/
theorem bblk1_apply (c : Dev nD) (t : Fin cfg1.N) (z : Fin 1) (k : Fin 64) :
    (iblk1 (F := Ideal) V c 1 t : Vec Ideal S1x64 .f32) (ix2 z k)
      = (V c main_v43 : (⟨S1x64, .f32⟩ : BufTy).Contents (Elt Ideal)) (ix2 z k) := by
  obtain ⟨-, -, e2, e3, -⟩ := idx_facts1 t
  unfold iblk1
  rw [View.read_apply]
  show V c main_v43 _ = V c main_v43 _
  congr 1
  funext a
  apply Fin.ext
  match a with
  | ⟨0, _⟩ => show win1_1.index t (0 : Fin 2) * 1 + 1 * z.val = z.val; rw [e2]; omega
  | ⟨1, _⟩ => show win1_1.index t (1 : Fin 2) * 64 + 1 * k.val = k.val; rw [e3]; omega

/-- The block of W2 at any point is the whole of W2. -/
theorem wblk1_apply (c : Dev nD) (t : Fin cfg1.N) (k : Fin 64) (q : Fin 3) :
    (iblk1 (F := Ideal) V c 2 t : Vec Ideal S64x3 .f32) (ix2 k q)
      = (V c main_arg5 : (⟨S64x3, .f32⟩ : BufTy).Contents (Elt Ideal)) (ix2 k q) := by
  obtain ⟨-, -, -, -, e4, e5, -⟩ := idx_facts1 t
  unfold iblk1
  rw [View.read_apply]
  show V c main_arg5 _ = V c main_arg5 _
  congr 1
  funext a
  apply Fin.ext
  match a with
  | ⟨0, _⟩ => show win1_2.index t (0 : Fin 2) * 64 + 1 * k.val = k.val; rw [e4]; omega
  | ⟨1, _⟩ => show win1_2.index t (1 : Fin 2) * 3 + 1 * q.val = q.val; rw [e5]; omega

/-- Entry (p, q) of the output block at point t sits at (8000 t + p, q) of the result array. -/
theorem oemb1 (t : Fin cfg1.N) (p : Fin 8000) (q : Fin 3) :
    ((cfg1.win 3).blk t).view.emb (ix2 p q) = (ix2 (row1 t p) q : S200000x3.Idx) := by
  obtain ⟨-, -, -, -, -, -, e6, e7⟩ := idx_facts1 t
  funext a
  apply Fin.ext
  match a with
  | ⟨0, _⟩ => show win1_3.index t (0 : Fin 2) * 8000 + 1 * p.val = 8000 * t.val + p.val; rw [e6]; omega
  | ⟨1, _⟩ => show win1_3.index t (1 : Fin 2) * 3 + 1 * q.val = q.val; rw [e7]; omega

/-- What point t writes back is block t of relu(a + b1) · W2. -/
theorem flushed1_eq (c : Dev nD) (t : Fin cfg1.N) :
    (dat1 (F := Ideal) V c).flushed 3 t
      = ((cfg1.win 3).blk t).view.read (Elt Ideal) (Cert.RefSpec.node2 (F := Ideal) (V c main_v42) (V c main_v43) (V c main_arg5)) := by
  show (cfg1.win 3).cut (grid1.coords t) ((dat1 (F := Ideal) V c).after 3 t) = _
  rw [after1_3]
  unfold out1_3
  rw [View.canon_unit_zero hz]
  simp only [View.ld_unit_zero (S := S8000x64) hz, View.ld_unit_zero (S := S1x64) hz, View.ld_unit_zero (S := S64x3) hz]
  funext j
  obtain ⟨p, q, rfl⟩ : ∃ (p : Fin 8000) (q : Fin 3), j = ix2 p q := ⟨j 0, j 1, eq_ix2 j⟩
  rw [View.read_apply, oemb1 t p q]
  refine (pay1_apply (iblk1 (F := Ideal) V c 0 t) (iblk1 (F := Ideal) V c 1 t) (iblk1 (F := Ideal) V c 2 t) p q).trans ?_
  refine Eq.trans ?_ (node2_apply (V c main_v42) (V c main_v43) (V c main_arg5) (row1 t p) q).symm
  refine Finset.sum_congr rfl fun k _ => ?_
  rw [ablk1_apply V c t p k, bblk1_apply V c t 0 k, wblk1_apply V c t k q]

/-- An index of the result array lies in point t's block iff each coordinate lies in the block's range. -/
theorem mem_blk1 (t : Fin cfg1.N) (i : S200000x3.Idx) :
    i ∈ ((cfg1.win 3).blk t).view.set ↔ ∀ a : Fin 2, win1_3.index t a * S8000x3.size a ≤ (i a).val ∧ (i a).val < win1_3.index t a * S8000x3.size a + S8000x3.size a := by
  show i ∈ ((View.whole main_v44).slice (win1_3.rect t)).set ↔ _
  rw [View.set_slice_whole, Rect.mem_set_unit]
  exact Iff.rfl

/-- The 25 blocks of 8000 rows cover the 200000 rows: row r is in block r / 8000. -/
theorem cover1 (i : S200000x3.Idx) : ∃ t : Fin cfg1.N, (cfg1.win 3).flush t = true ∧ i ∈ ((cfg1.win 3).blk t).view.set := by
  have hi0 : (i 0).val < 200000 := (i 0).isLt
  have hi1 : (i 1).val < 3 := (i 1).isLt
  have hN : cfg1.N = 25 := N_1
  let t : Fin cfg1.N := ⟨(i 0).val / 8000, by rw [hN]; omega⟩
  obtain ⟨-, -, -, -, -, -, e6, e7⟩ := idx_facts1 t
  have ht : t.val = (i 0).val / 8000 := rfl
  refine ⟨t, flush1_3 t, ?_⟩
  rw [mem_blk1]
  intro a
  match a with
  | ⟨0, _⟩ => show win1_3.index t (0 : Fin 2) * 8000 ≤ (i 0).val ∧ (i 0).val < win1_3.index t (0 : Fin 2) * 8000 + 8000; rw [e6, ht]; omega
  | ⟨1, _⟩ => show win1_3.index t (1 : Fin 2) * 3 ≤ (i 1).val ∧ (i 1).val < win1_3.index t (1 : Fin 2) * 3 + 3; rw [e7]; omega

/-- Region 1 leaves relu(a + b1) · W2 in its result array, a the aggregated features it was entered with. -/
theorem final1 (c : Dev nD) :
    (dat1 (F := Ideal) V c).arrAt 3 cfg1.N = Cert.RefSpec.node2 (F := Ideal) (V c main_v42) (V c main_v43) (V c main_arg5) :=
  (dat1 (F := Ideal) V c).arrAt_eq_of_cover 3 _ (fun t _ => flushed1_eq V c t) cover1

end Cert.KernelIdeal.HandV

end
-- ==== Proof.KI.PoolMath.lean ====
/-
  The arithmetic of the pooling stage at the exact extended-real reading. The stage walks the 200000 nodes in fifty
  blocks of 4000. For every graph g (512 of them) and class d (3) it accumulates the sum of a (r, d) + b (0, d) over
  the nodes r whose graph id is g, and beside it the number of such nodes; it does so by multiplying the block's
  one-hot matrix (row r, column g: 1 if node r's id is the word g, else 0) against the block's biased features and
  against a column of ones. After the last block the sums are divided by max(count, 1) and the rows are log-softmaxed.
  Here: the partial sums over the first n nodes, that the cleared buffers are the sums over no node, and that one block
  takes the sums over the first 4000 t nodes to those over the first 4000 (t + 1). The law behind the step: in the
  extended reals 0 * x = 0 and 1 * x = x for every x, and addition is commutative and associative, so a sum over the
  nodes below 4000 (t + 1) splits into the sum over the nodes below 4000 t and the sum over the block, whatever the
  entries are.
-/
import proofs.«404303_j14577119003090_1_alg».proof.Proof.Spec
import proofs.«404303_j14577119003090_1_alg».proof.Proof.Gen.KernelIdeal.Skeleton
import Idealize.ShloMosaic.Lib.ValueIdx
import Idealize.ShloMosaic.Lib.Pipeline.Value
import Idealize.ShloMosaic.Lib.StableHlo.Predicate
import Idealize.ShloMosaic.PureOps.Ideal.Laws

set_option maxRecDepth 16384

noncomputable section

open scoped BigOperators

namespace Cert.KernelIdeal.HandV

open Idealize.ShloMosaic Idealize.ShloMosaic.ValueIdx Idealize.SL.Sem
open Cert.KernelIdeal Cert.KernelIdeal.Gen

variable (a : (⟨Cert.ReferenceIdeal.S200000x3, .f32⟩ : BufTy).Contents (Elt Ideal))
  (b : (⟨Cert.ReferenceIdeal.S1x3, .f32⟩ : BufTy).Contents (Elt Ideal))
  (q : (⟨Cert.ReferenceIdeal.S200000x1, .i32⟩ : BufTy).Contents (Elt Ideal))

/-- The sum of f r over the nodes r below n whose graph-id word is the word g. -/
def osum (f : Fin 200000 → EReal) (n g : ℕ) : EReal :=
  ∑ r : Fin 200000, if r.val < n ∧ q (ix2 r (0 : Fin 1)) = BitVec.ofNat 32 g then f r else 0

/-- The one-hot sums over the first n nodes: entry (g, d) is the sum, over the nodes r below n whose graph-id word
    equals g, of a (r, d) + b (0, d). -/
def psum (n : ℕ) : Vec Ideal S512x3 .f32 :=
  fun i => osum q (fun r => a (ix2 r (i 1)) + b (ix2 (0 : Fin 1) (i 1))) n (i 0).val

/-- The node counts over the first n nodes: entry (g, 0) is the number of nodes r below n whose graph-id word equals g. -/
def pcnt (n : ℕ) : Vec Ideal S512x1 .f32 :=
  fun i => osum q (fun _ => 1) n (i 0).val

/-! ## The partial sums: none, and one more block -/

/-- Over no node the sum is zero. -/
theorem osum_zero (f : Fin 200000 → EReal) (g : ℕ) : osum q f 0 g = 0 := by
  unfold osum
  exact Finset.sum_eq_zero fun r _ => if_neg (fun h => Nat.not_lt_zero _ h.1)

/-- One block of 4000 nodes: the sum over the first 4000 (t + 1) nodes is the sum over the first 4000 t plus the
    block's own, written with the one-hot factor 1 or 0 in front of each term. -/
theorem osum_step (f : Fin 200000 → EReal) (t : ℕ) (ht : t < 50) (g : ℕ) :
    osum q f (4000 * (t + 1)) g = osum q f (4000 * t) g
      + ∑ r : Fin 4000, (if q (ix2 (⟨4000 * t + r.val, by omega⟩ : Fin 200000) (0 : Fin 1)) = BitVec.ofNat 32 g then (1 : EReal) else 0)
          * f ⟨4000 * t + r.val, by omega⟩ := by
  unfold osum
  have hblk : (∑ r : Fin 4000, (if q (ix2 (⟨4000 * t + r.val, by omega⟩ : Fin 200000) (0 : Fin 1)) = BitVec.ofNat 32 g then (1 : EReal) else 0)
          * f ⟨4000 * t + r.val, by omega⟩)
      = ∑ r : Fin 200000, if (4000 * t ≤ r.val ∧ r.val < 4000 * (t + 1)) ∧ q (ix2 r (0 : Fin 1)) = BitVec.ofNat 32 g then f r else 0 := by
    refine Fintype.sum_of_injective (fun r : Fin 4000 => (⟨4000 * t + r.val, by omega⟩ : Fin 200000)) ?_ _ _ ?_ ?_
    · intro r r' h
      have := congrArg Fin.val h
      exact Fin.ext (by simpa using this)
    · intro r hr
      refine if_neg fun h => hr ⟨⟨r.val - 4000 * t, by omega⟩, Fin.ext ?_⟩
      show 4000 * t + (r.val - 4000 * t) = r.val
      omega
    · intro r
      by_cases hq : q (ix2 (⟨4000 * t + r.val, by omega⟩ : Fin 200000) (0 : Fin 1)) = BitVec.ofNat 32 g
      · rw [if_pos hq, one_mul, if_pos ⟨⟨by show 4000 * t ≤ 4000 * t + r.val; omega, by show 4000 * t + r.val < 4000 * (t + 1); omega⟩, hq⟩]
      · rw [if_neg hq, zero_mul, if_neg fun h => hq h.2]
  rw [hblk, ← Finset.sum_add_distrib]
  refine Finset.sum_congr rfl fun r _ => ?_
  by_cases hq : q (ix2 r (0 : Fin 1)) = BitVec.ofNat 32 g
  · by_cases h1 : r.val < 4000 * t
    · rw [if_pos ⟨by omega, hq⟩, if_pos ⟨h1, hq⟩, if_neg fun h => by omega, add_zero]
    · by_cases h2 : r.val < 4000 * (t + 1)
      · rw [if_pos ⟨h2, hq⟩, if_neg fun h => h1 h.1, if_pos ⟨⟨by omega, h2⟩, hq⟩, zero_add]
      · rw [if_neg fun h => h2 h.1, if_neg fun h => h1 h.1, if_neg fun h => h2 h.1.2, zero_add]
  · rw [if_neg fun h => hq h.2, if_neg fun h => hq h.2, if_neg fun h => hq h.2, zero_add]

/-! ## The one-hot matrix -/

/-- A word comparison widened and converted: 1 where the two words are equal, 0 where they are not. -/
theorem hotWord (w v : BitVec 32) :
    FloatOps.sitofp (F := Ideal) .f32 ((IntOp.cmpi .eq w v).setWidth 32) = if w = v then (1 : EReal) else 0 := by
  by_cases h : w = v
  · rw [if_pos h, StableHlo.Predicate.cmpi_eq_iff.mpr h]
    show (((((1#1 : BitVec 1).setWidth 32).toInt : ℝ)) : EReal) = 1
    rw [show ((1#1 : BitVec 1).setWidth 32).toInt = 1 by decide]; simp
  · rw [if_neg h, eq_zero_of_ne_one (fun h' => h (StableHlo.Predicate.cmpi_eq_iff.mp h'))]
    show (((((0#1 : BitVec 1).setWidth 32).toInt : ℝ)) : EReal) = 0
    rw [show ((0#1 : BitVec 1).setWidth 32).toInt = 0 by decide]; simp

/-- The id column spread along the graphs reads the row's id at every column. -/
theorem idCol_apply (x2 : IVec S4000x1 32) (r : Fin 4000) (g : Fin 512) :
    broadcastTo S4000x512 (shapeCast S4000x1 x2 shapeCasts_S4000x1_S4000x1) broadcasts_S4000x1_S4000x512 (ix2 r g)
      = x2 (ix2 r (0 : Fin 1)) :=
  (broadcastTo_apply _ broadcasts_S4000x1_S4000x512 (ix2 r g) (ix2 r (0 : Fin 1)) (fun a => match a with
    | ⟨0, _⟩ => by show r.val = if (4000 : Nat) = 1 then 0 else r.val; rw [if_neg (by decide)]
    | ⟨1, _⟩ => by show (0 : Nat) = if (1 : Nat) = 1 then 0 else g.val; rw [if_pos rfl])).trans
    (congrFun (shapeCast_self x2 shapeCasts_S4000x1_S4000x1) _)

/-- The graph numbers spread down the rows read the column's number at every row. -/
theorem graphRow_apply (r : Fin 4000) (g : Fin 512) :
    broadcastTo S4000x512 (iota .tc S1x512 32 [1] iota_S1x512_d1_w32) broadcasts_S1x512_S4000x512 (ix2 r g)
      = BitVec.ofNat 32 g.val :=
  (broadcastTo_apply _ broadcasts_S1x512_S4000x512 (ix2 r g) (ix2 (0 : Fin 1) g) (fun a => match a with
    | ⟨0, _⟩ => by show (0 : Nat) = if (1 : Nat) = 1 then 0 else r.val; rw [if_pos rfl]
    | ⟨1, _⟩ => by show g.val = if (512 : Nat) = 1 then 0 else g.val; rw [if_neg (by decide)])).trans
    (iota_single_apply .tc S1x512 32 1 iota_S1x512_d1_w32 (ix2 (0 : Fin 1) g))

/-- The one-hot matrix of a block: entry (r, g) is 1 if row r's id is the word g, else 0. -/
theorem onehot_apply (x2 : Vec Ideal S4000x1 .i32) (r : Fin 4000) (g : Fin 512) :
    k2_pay3 (F := Ideal) x2 (ix2 r g) = if x2 (ix2 r (0 : Fin 1)) = BitVec.ofNat 32 g.val then (1 : EReal) else 0 := by
  unfold k2_pay3
  refine Eq.trans ?_ (hotWord (x2 (ix2 r (0 : Fin 1))) (BitVec.ofNat 32 g.val))
  show FloatOps.sitofp (F := Ideal) .f32 ((IntOp.cmpi .eq _ _).setWidth 32) = _
  rw [idCol_apply, graphRow_apply]

/-! ## The two products of a block: one-hot (transposed) times features, one-hot (transposed) times ones

Both contract the row axis (axis 0 of both operands); the result's rows are the left operand's columns and its columns
the right operand's. -/

theorem lhsSum_0 (i : S512x3.Idx) (k : dot_S4000x512_S4000x3_S512x3_0_0_1_1_n_n.contr.Idx) :
    (dot_S4000x512_S4000x3_S512x3_0_0_1_1_n_n.lhsIdx i k 0).val = (k ⟨0, by decide⟩).val :=
  dot_S4000x512_S4000x3_S512x3_0_0_1_1_n_n.lhsIdx_val_of_single rfl i k
theorem lhsSum_1 (i : S512x3.Idx) (k : dot_S4000x512_S4000x3_S512x3_0_0_1_1_n_n.contr.Idx) :
    (dot_S4000x512_S4000x3_S512x3_0_0_1_1_n_n.lhsIdx i k 1).val = (i 0).val := by
  unfold DotDims.lhsIdx
  rw [dif_neg (show ¬(1 : Fin S4000x512.rank) ∈ dot_S4000x512_S4000x3_S512x3_0_0_1_1_n_n.lhsBatch by decide), dif_pos (show (1 : Fin S4000x512.rank) ∈ dot_S4000x512_S4000x3_S512x3_0_0_1_1_n_n.lhsNonContracting by decide)]
  rfl
theorem rhsSum_0 (i : S512x3.Idx) (k : dot_S4000x512_S4000x3_S512x3_0_0_1_1_n_n.contr.Idx) :
    (dot_S4000x512_S4000x3_S512x3_0_0_1_1_n_n.rhsIdx i k 0).val = (k ⟨0, by decide⟩).val :=
  dot_S4000x512_S4000x3_S512x3_0_0_1_1_n_n.rhsIdx_val_of_single rfl i k
theorem rhsSum_1 (i : S512x3.Idx) (k : dot_S4000x512_S4000x3_S512x3_0_0_1_1_n_n.contr.Idx) :
    (dot_S4000x512_S4000x3_S512x3_0_0_1_1_n_n.rhsIdx i k 1).val = (i 1).val := by
  unfold DotDims.rhsIdx
  rw [dif_neg (show ¬(1 : Fin S4000x3.rank) ∈ dot_S4000x512_S4000x3_S512x3_0_0_1_1_n_n.rhsBatch by decide), dif_pos (show (1 : Fin S4000x3.rank) ∈ dot_S4000x512_S4000x3_S512x3_0_0_1_1_n_n.rhsNonContracting by decide)]
  rfl

/-- The product into the sums, at graph g and class d: the sum over the block's rows of left (r, g) times right (r, d). -/
theorem mmSum_apply (L : FVec Ideal S4000x512 .bf16) (R : FVec Ideal S4000x3 .bf16) (g : Fin 512) (d : Fin 3) :
    matmul dot_S4000x512_S4000x3_S512x3_0_0_1_1_n_n none L R (constant (F := Ideal) S512x3 .f32 0x00000000#32) (ix2 g d)
      = ∑ r : Fin 4000, L (ix2 r g) * R (ix2 r d) := by
  simp only [matmul]
  rw [Ideal.matmul_constant_zero_apply, ← Equiv.sum_comp (contrEquiv1 dot_S4000x512_S4000x3_S512x3_0_0_1_1_n_n 4000 rfl rfl).symm]
  refine Finset.sum_congr rfl fun k _ => ?_
  have hk := contrEquiv1_symm_val dot_S4000x512_S4000x3_S512x3_0_0_1_1_n_n 4000 rfl rfl k
  have el : dot_S4000x512_S4000x3_S512x3_0_0_1_1_n_n.lhsIdx (ix2 g d) ((contrEquiv1 dot_S4000x512_S4000x3_S512x3_0_0_1_1_n_n 4000 rfl rfl).symm k) = ix2 k g := funext fun a => Fin.ext (by
    match a with
    | ⟨0, _⟩ => exact (lhsSum_0 _ _).trans hk
    | ⟨1, _⟩ => exact lhsSum_1 _ _)
  have er : dot_S4000x512_S4000x3_S512x3_0_0_1_1_n_n.rhsIdx (ix2 g d) ((contrEquiv1 dot_S4000x512_S4000x3_S512x3_0_0_1_1_n_n 4000 rfl rfl).symm k) = ix2 k d := funext fun a => Fin.ext (by
    match a with
    | ⟨0, _⟩ => exact (rhsSum_0 _ _).trans hk
    | ⟨1, _⟩ => exact rhsSum_1 _ _)
  rw [el, er]

theorem lhsCnt_0 (i : S512x1.Idx) (k : dot_S4000x512_S4000x1_S512x1_0_0_1_1_n_n.contr.Idx) :
    (dot_S4000x512_S4000x1_S512x1_0_0_1_1_n_n.lhsIdx i k 0).val = (k ⟨0, by decide⟩).val :=
  dot_S4000x512_S4000x1_S512x1_0_0_1_1_n_n.lhsIdx_val_of_single rfl i k
theorem lhsCnt_1 (i : S512x1.Idx) (k : dot_S4000x512_S4000x1_S512x1_0_0_1_1_n_n.contr.Idx) :
    (dot_S4000x512_S4000x1_S512x1_0_0_1_1_n_n.lhsIdx i k 1).val = (i 0).val := by
  unfold DotDims.lhsIdx
  rw [dif_neg (show ¬(1 : Fin S4000x512.rank) ∈ dot_S4000x512_S4000x1_S512x1_0_0_1_1_n_n.lhsBatch by decide), dif_pos (show (1 : Fin S4000x512.rank) ∈ dot_S4000x512_S4000x1_S512x1_0_0_1_1_n_n.lhsNonContracting by decide)]
  rfl

/-- The product into the counts, at graph g: against a right operand that is c everywhere, c times the column sum of left. -/
theorem mmCnt_apply (L : FVec Ideal S4000x512 .bf16) (c : EReal) (g : Fin 512) :
    matmul dot_S4000x512_S4000x1_S512x1_0_0_1_1_n_n none L (broadcast S4000x1 c : FVec Ideal S4000x1 .bf16)
        (constant (F := Ideal) S512x1 .f32 0x00000000#32) (ix2 g (0 : Fin 1))
      = ∑ r : Fin 4000, L (ix2 r g) * c := by
  simp only [matmul]
  rw [Ideal.matmul_constant_zero_apply, ← Equiv.sum_comp (contrEquiv1 dot_S4000x512_S4000x1_S512x1_0_0_1_1_n_n 4000 rfl rfl).symm]
  refine Finset.sum_congr rfl fun k _ => ?_
  have hk := contrEquiv1_symm_val dot_S4000x512_S4000x1_S512x1_0_0_1_1_n_n 4000 rfl rfl k
  have el : dot_S4000x512_S4000x1_S512x1_0_0_1_1_n_n.lhsIdx (ix2 g (0 : Fin 1)) ((contrEquiv1 dot_S4000x512_S4000x1_S512x1_0_0_1_1_n_n 4000 rfl rfl).symm k) = ix2 k g := funext fun a => Fin.ext (by
    match a with
    | ⟨0, _⟩ => exact (lhsCnt_0 _ _).trans hk
    | ⟨1, _⟩ => exact lhsCnt_1 _ _)
  rw [el]
  rfl

/-! ## One block's step on the sums and on the counts -/

/-- The biased features of a block: entry (r, d) is the feature plus the bias row's entry d. -/
theorem biased_apply (x0 : FVec Ideal S4000x3 .f32) (x1 : FVec Ideal S1x3 .f32) (r : Fin 4000) (d : Fin 3) :
    addf (F := Ideal) (φ := .f32) (shapeCast S4000x3 x0 shapeCasts_S4000x3_S4000x3)
        (broadcastTo S4000x3 (shapeCast S1x3 x1 shapeCasts_S1x3_S1x3) broadcasts_S1x3_S4000x3) (ix2 r d)
      = x0 (ix2 r d) + x1 (ix2 (0 : Fin 1) d) :=
  congrArg₂ (· + ·) (congrFun (shapeCast_self x0 shapeCasts_S4000x3_S4000x3) _)
    ((broadcastTo_apply _ broadcasts_S1x3_S4000x3 (ix2 r d) (ix2 (0 : Fin 1) d) (fun a => match a with
      | ⟨0, _⟩ => by show (0 : Nat) = if (1 : Nat) = 1 then 0 else r.val; rw [if_pos rfl]
      | ⟨1, _⟩ => by show d.val = if (3 : Nat) = 1 then 0 else d.val; rw [if_neg (by decide)])).trans
      (congrFun (shapeCast_self x1 shapeCasts_S1x3_S1x3) _))

/-- A block's update of the sums at (g, d): what was there plus the sum, over the block's rows, of the one-hot entry
    times the biased feature. -/
theorem sums_apply (x0 : Vec Ideal S4000x3 .f32) (x1 : Vec Ideal S1x3 .f32) (x2 : Vec Ideal S4000x1 .i32)
    (o : Vec Ideal S512x3 .f32) (g : Fin 512) (d : Fin 3) :
    k2_pay4 (F := Ideal) x0 x1 x2 o (ix2 g d)
      = o (ix2 g d) + ∑ r : Fin 4000, (if x2 (ix2 r (0 : Fin 1)) = BitVec.ofNat 32 g.val then (1 : EReal) else 0)
          * (x0 (ix2 r d) + x1 (ix2 (0 : Fin 1) d)) := by
  unfold k2_pay4
  refine (addf_apply _ _ _).trans ?_
  refine congrArg₂ (· + ·) (congrFun (shapeCast_self o shapeCasts_S512x3_S512x3) _) ?_
  refine (mmSum_apply _ _ g d).trans ?_
  refine Finset.sum_congr rfl fun r _ => ?_
  exact congrArg₂ (· * ·) (onehot_apply x2 r g) (biased_apply x0 x1 r d)

/-- The bf16 word 0x3F80 is the number one. -/
theorem one_bf16 : Ideal.ofBits .bf16 0x3F80#16 = 1 := IdealRules.sign_bit.ideal_onePat .bf16

/-- A block's update of the counts at g: what was there plus the number of the block's rows whose id is the word g. -/
theorem counts_apply (x2 : Vec Ideal S4000x1 .i32) (s : Vec Ideal S512x1 .f32) (g : Fin 512) :
    k2_pay5 (F := Ideal) x2 s (ix2 g (0 : Fin 1))
      = s (ix2 g (0 : Fin 1)) + ∑ r : Fin 4000, (if x2 (ix2 r (0 : Fin 1)) = BitVec.ofNat 32 g.val then (1 : EReal) else 0) * 1 := by
  unfold k2_pay5
  refine (congrFun (shapeCast_self _ shapeCasts_S512x1_S512x1) _).trans ?_
  refine (addf_apply _ _ _).trans ?_
  refine congrArg (s (ix2 g (0 : Fin 1)) + ·) ?_
  refine (mmCnt_apply _ _ g).trans ?_
  refine Finset.sum_congr rfl fun r _ => ?_
  exact congrArg₂ (· * ·) (onehot_apply x2 r g) one_bf16

theorem psum_zero : (k2_pay1 (F := Ideal)) = psum a b q 0 := by
  funext i
  unfold psum
  rw [osum_zero]
  exact Ideal.ofBits_zero_f32

theorem pcnt_zero : (k2_pay2 (F := Ideal)) = pcnt q 0 := by
  funext i
  unfold pcnt k2_pay2
  rw [osum_zero]
  refine (congrFun (shapeCast_self _ shapeCasts_S512x1_S512x1) _).trans ?_
  exact Ideal.ofBits_zero_f32

theorem psum_step (t : ℕ) (ht : t < 50) (x0 : Vec Ideal S4000x3 .f32) (x1 : Vec Ideal S1x3 .f32) (x2 : Vec Ideal S4000x1 .i32)
    (h0 : ∀ (r : Fin 4000) (d : Fin 3), x0 (ix2 r d) = a (ix2 (⟨4000 * t + r.val, by omega⟩ : Fin 200000) d))
    (h1 : ∀ d : Fin 3, x1 (ix2 (0 : Fin 1) d) = b (ix2 (0 : Fin 1) d))
    (h2 : ∀ r : Fin 4000, x2 (ix2 r (0 : Fin 1)) = q (ix2 (⟨4000 * t + r.val, by omega⟩ : Fin 200000) (0 : Fin 1))) :
    k2_pay4 (F := Ideal) x0 x1 x2 (psum a b q (4000 * t)) = psum a b q (4000 * (t + 1)) := by
  funext i
  obtain ⟨g, d, rfl⟩ : ∃ (g : Fin 512) (d : Fin 3), i = ix2 g d := ⟨i 0, i 1, eq_ix2 i⟩
  refine (sums_apply x0 x1 x2 _ g d).trans ?_
  show osum q (fun r => a (ix2 r d) + b (ix2 (0 : Fin 1) d)) (4000 * t) g.val + _
    = osum q (fun r => a (ix2 r d) + b (ix2 (0 : Fin 1) d)) (4000 * (t + 1)) g.val
  rw [osum_step q _ t ht g.val]
  refine congrArg (osum q (fun r => a (ix2 r d) + b (ix2 (0 : Fin 1) d)) (4000 * t) g.val + ·) ?_
  refine Finset.sum_congr rfl fun r _ => ?_
  rw [h2 r, h0 r d, h1 d]

theorem pcnt_step (t : ℕ) (ht : t < 50) (x2 : Vec Ideal S4000x1 .i32)
    (h2 : ∀ r : Fin 4000, x2 (ix2 r (0 : Fin 1)) = q (ix2 (⟨4000 * t + r.val, by omega⟩ : Fin 200000) (0 : Fin 1))) :
    k2_pay5 (F := Ideal) x2 (pcnt q (4000 * t)) = pcnt q (4000 * (t + 1)) := by
  funext i
  obtain ⟨g, z, rfl⟩ : ∃ (g : Fin 512) (z : Fin 1), i = ix2 g z := ⟨i 0, i 1, eq_ix2 i⟩
  obtain rfl : z = 0 := Subsingleton.elim _ _
  refine (counts_apply x2 _ g).trans ?_
  show osum q (fun _ => 1) (4000 * t) g.val + _ = osum q (fun _ => 1) (4000 * (t + 1)) g.val
  rw [osum_step q _ t ht g.val]
  refine congrArg (osum q (fun _ => (1 : EReal)) (4000 * t) g.val + ·) ?_
  refine Finset.sum_congr rfl fun r _ => ?_
  rw [h2 r]

end Cert.KernelIdeal.HandV

end
-- ==== Proof.KI.PoolScatter.lean ====
/-
  The one-hot sums over all 200000 nodes are the host's scatter-adds: an update (r, d) lands at (g, d) exactly when
  node r's graph id, read as a signed word, is g; ids outside 0..511 land nowhere, and match no one-hot column.
-/
import proofs.«404303_j14577119003090_1_alg».proof.Proof.KI.PoolMath
import Idealize.ShloMosaic.Lib.ValueIdx
import Idealize.ShloMosaic.PureOps.Ideal.Laws
import Idealize.ShloMosaic.Lib.IdealHost

set_option maxRecDepth 16384

noncomputable section

open scoped BigOperators

namespace Cert.KernelIdeal.HandV

open Idealize.ShloMosaic Idealize.ShloMosaic.ValueIdx Idealize.SL.Sem
open Cert.KernelIdeal Cert.KernelIdeal.Gen

variable (a : (⟨Cert.ReferenceIdeal.S200000x3, .f32⟩ : BufTy).Contents (Elt Ideal))
  (b : (⟨Cert.ReferenceIdeal.S1x3, .f32⟩ : BufTy).Contents (Elt Ideal))
  (q : (⟨Cert.ReferenceIdeal.S200000x1, .i32⟩ : BufTy).Contents (Elt Ideal))

/-! ## Words: a signed read that is a graph number is that number's word -/

/-- A 32-bit word read signed is the natural g (below 512) exactly when it is the word g. -/
theorem toInt_eq_iff_word (x : BitVec 32) (g : ℕ) (hg : g < 512) : x.toInt = (g : ℤ) ↔ x = BitVec.ofNat 32 g := by
  constructor
  · intro h
    apply BitVec.eq_of_toNat_eq
    rw [BitVec.toNat_ofNat]
    rw [BitVec.toInt_eq_toNat_cond] at h
    have := x.isLt
    split at h <;> omega
  · rintro rfl
    rw [BitVec.toInt_eq_toNat_cond, BitVec.toNat_ofNat]
    have : g % 2 ^ 32 = g := Nat.mod_eq_of_lt (by omega)
    rw [this]; split <;> omega

/-- A rank-1 index set is its coordinate's range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The counts' scatter: rank-1 operand, no window axis -/

abbrev D1 := Cert.ReferenceIdeal.scatter_S512_S200000x1_S200000_n_0_0_1

theorem D1_siIdx (r : Fin 200000) (c : Fin D1.scatterDimsToOperandDims.length) :
    D1.siIdx (ix1 r) c = ix2 r (0 : Fin 1) := by
  funext b
  match b with
  | ⟨0, _⟩ => rfl
  | ⟨1, _⟩ =>
    apply Fin.ext
    have := c.isLt
    show c.val = 0
    have h : D1.scatterDimsToOperandDims.length = 1 := rfl
    omega

theorem D1_start {w : Nat} (r : Fin 200000) (idx : IVec Cert.ReferenceIdeal.S200000x1 w) (a : Fin Cert.ReferenceIdeal.S512.rank) :
    D1.start (ix1 r) idx a = (idx (ix2 r (0 : Fin 1))).toInt := by
  unfold ScatterDims.start
  split
  · rw [D1_siIdx]
  · rename_i h
    exfalso; apply h
    show a ∈ [(0 : Fin 1)]
    simp; omega

theorem D1_window (r : Fin 200000) (a : Fin Cert.ReferenceIdeal.S512.rank) :
    D1.window (ix1 r) a = 0 := by
  unfold ScatterDims.window
  split
  · rename_i h
    exfalso
    have : a ∈ ([] : List (Fin 1)) := h
    simp at this
  · rfl

/-- Update r lands on element g exactly when node r's id, read signed, is g. -/
theorem D1_hit {w : Nat} (idx : IVec Cert.ReferenceIdeal.S200000x1 w) (r : Fin 200000) (g : Fin 512) :
    D1.resultIdx? (ix1 r) idx = some (ix1 g) ↔ (idx (ix2 r (0 : Fin 1))).toInt = (g.val : ℤ) := by
  have hg := g.isLt
  unfold ScatterDims.resultIdx?
  split
  · rename_i h
    rw [Option.some.injEq]
    constructor
    · intro hf
      have hv := congrArg Fin.val (congrFun hf (0 : Fin 1))
      have h0 := (h 0).1
      rw [D1_start, D1_window] at h0
      simp only [D1_start, D1_window] at hv
      change _ = g.val at hv
      omega
    · intro ht
      funext a
      apply Fin.ext
      show (D1.start (ix1 r) idx a + ((D1.window (ix1 r) a : ℕ) : ℤ)).toNat = (ix1 g a).val
      rw [D1_start, D1_window]
      match a with
      | ⟨0, _⟩ => show _ = g.val; omega
  · rename_i h
    constructor
    · intro hf; cases hf
    · intro ht
      exfalso; apply h
      intro a
      rw [D1_start, D1_window]
      match a with
      | ⟨0, _⟩ =>
        show 0 ≤ _ ∧ _ < ((512 : ℕ) : ℤ)
        constructor <;> omega

/-! ## The sums' scatter: rank-2 operand, the class axis a window axis -/

abbrev D2 := Cert.ReferenceIdeal.scatter_S512x3_S200000x1_S200000x3_1_0_0_1

theorem D2_siIdx (r : Fin 200000) (d : Fin 3) (c : Fin D2.scatterDimsToOperandDims.length) :
    D2.siIdx (ix2 r d) c = ix2 r (0 : Fin 1) := by
  funext b
  match b with
  | ⟨0, _⟩ => rfl
  | ⟨1, _⟩ =>
    apply Fin.ext
    have := c.isLt
    show c.val = 0
    have h : D2.scatterDimsToOperandDims.length = 1 := rfl
    omega

/-- The window starts at the node's id on the graph axis and at 0 on the class axis. -/
theorem D2_start {w : Nat} (r : Fin 200000) (d : Fin 3) (idx : IVec Cert.ReferenceIdeal.S200000x1 w)
    (a : Fin Cert.ReferenceIdeal.S512x3.rank) :
    D2.start (ix2 r d) idx a = if a.val = 0 then (idx (ix2 r (0 : Fin 1))).toInt else 0 := by
  unfold ScatterDims.start
  match a with
  | ⟨0, ha⟩ =>
    rw [if_pos rfl]
    split
    · rw [D2_siIdx]
    · rename_i h
      exfalso; apply h
      show (⟨0, ha⟩ : Fin 2) ∈ [(0 : Fin 2)]
      simp
  | ⟨1, ha⟩ =>
    rw [if_neg (by simp)]
    split
    · rename_i h
      exfalso
      have : (⟨1, ha⟩ : Fin 2) ∈ [(0 : Fin 2)] := h
      simp at this
    · rfl

/-- The window coordinate is 0 on the graph axis and the update's class on the class axis. -/
theorem D2_window (r : Fin 200000) (d : Fin 3) (a : Fin Cert.ReferenceIdeal.S512x3.rank) :
    D2.window (ix2 r d) a = if a.val = 0 then 0 else d.val := by
  unfold ScatterDims.window
  match a with
  | ⟨0, ha⟩ =>
    rw [if_pos rfl]
    split
    · rename_i h
      exfalso
      have : (⟨0, ha⟩ : Fin 2) ∈ [(1 : Fin 2)] := h
      simp at this
    · rfl
  | ⟨1, ha⟩ =>
    rw [if_neg (by simp)]
    split
    · rfl
    · rename_i h
      exfalso; apply h
      show (⟨1, ha⟩ : Fin 2) ∈ [(1 : Fin 2)]
      simp

/-- Update (r, d') lands on element (g, d) exactly when node r's id, read signed, is g and d' is d. -/
theorem D2_hit {w : Nat} (idx : IVec Cert.ReferenceIdeal.S200000x1 w) (r : Fin 200000) (d' : Fin 3) (g : Fin 512) (d : Fin 3) :
    D2.resultIdx? (ix2 r d') idx = some (ix2 g d) ↔ (idx (ix2 r (0 : Fin 1))).toInt = (g.val : ℤ) ∧ d' = d := by
  have hg := g.isLt
  have hd := d.isLt
  have hd' := d'.isLt
  have sw : ∀ a : Fin Cert.ReferenceIdeal.S512x3.rank,
      D2.start (ix2 r d') idx a + ((D2.window (ix2 r d') a : ℕ) : ℤ)
        = if a.val = 0 then (idx (ix2 r (0 : Fin 1))).toInt else (d'.val : ℤ) := by
    intro a
    rw [D2_start, D2_window]
    split <;> simp
  unfold ScatterDims.resultIdx?
  split
  · rename_i h
    rw [Option.some.injEq]
    constructor
    · intro hf
      have hv0 := congrArg Fin.val (congrFun hf ⟨0, by decide⟩)
      have hv1 := congrArg Fin.val (congrFun hf ⟨1, by decide⟩)
      have h0 := (h ⟨0, by decide⟩).1
      have h1 := (h ⟨1, by decide⟩).1
      simp only [sw, ↓reduceIte, one_ne_zero] at hv0 hv1 h0 h1
      change _ = g.val at hv0
      change _ = d.val at hv1
      refine ⟨by omega, Fin.ext (by omega)⟩
    · rintro ⟨ht, rfl⟩
      funext a
      apply Fin.ext
      show (D2.start (ix2 r d') idx a + ((D2.window (ix2 r d') a : ℕ) : ℤ)).toNat = (ix2 g d' a).val
      rw [sw]
      match a with
      | ⟨0, _⟩ => rw [if_pos rfl]; show _ = g.val; omega
      | ⟨1, _⟩ => rw [if_neg (by simp)]; show _ = d'.val; omega
  · rename_i h
    constructor
    · intro hf; cases hf
    · rintro ⟨ht, rfl⟩
      exfalso; apply h
      intro a
      rw [sw]
      match a with
      | ⟨0, _⟩ =>
        rw [if_pos rfl]
        show 0 ≤ _ ∧ _ < ((512 : ℕ) : ℤ)
        constructor <;> omega
      | ⟨1, _⟩ =>
        rw [if_neg (by simp)]
        show 0 ≤ _ ∧ _ < ((3 : ℕ) : ℤ)
        constructor <;> omega

/-- The bias row broadcast down the nodes reads the bias at the class. -/
theorem bias_apply (r : Fin 200000) (d : Fin 3) :
    broadcastInDim Cert.ReferenceIdeal.S200000x3 ![0, 1] Cert.ReferenceIdeal.Facts₀.bcast_S1x3_S200000x3_0_1 b (ix2 r d)
      = b (ix2 (0 : Fin 1) d) := by
  unfold broadcastInDim
  refine congrArg b (funext fun a => ?_)
  match a with
  | ⟨0, _⟩ => rfl
  | ⟨1, _⟩ => rfl

/-- The one-hot sums over all the nodes are the scatter-add of a + b by the graph ids into zeros. -/
theorem psum_total : psum a b q 200000 = Cert.RefSpec.poolSum (F := Ideal) a b q := by
  funext i
  obtain ⟨g, d, rfl⟩ : ∃ (g : Fin 512) (d : Fin 3), i = ix2 g d := ⟨i 0, i 1, eq_ix2 i⟩
  unfold Cert.RefSpec.poolSum Host.scatterAdd
  rw [Ideal.hostScatterAdd_def]
  unfold Ideal.hostScatterAdd
  rw [broadcastInDim_scalar_apply, constant_apply, Ideal.ofBits_zero_f32, zero_add]
  rw [Finset.sum_filter, sum_idx2]
  show (∑ r : Fin 200000, if r.val < 200000 ∧ q (ix2 r (0 : Fin 1)) = BitVec.ofNat 32 g.val
      then a (ix2 r d) + b (ix2 (0 : Fin 1) d) else 0) = _
  apply Finset.sum_congr rfl
  intro r _
  have hr : r.val < 200000 := r.isLt
  have hiff : ∀ d' : Fin 3, D2.resultIdx? (ix2 r d') q = some (ix2 g d)
      ↔ (q (ix2 r (0 : Fin 1)) = BitVec.ofNat 32 g.val ∧ d' = d) := fun d' =>
    (D2_hit q r d' g d).trans (and_congr_left' (toInt_eq_iff_word _ g.val g.isLt))
  by_cases hc : q (ix2 r (0 : Fin 1)) = BitVec.ofNat 32 g.val
  · rw [if_pos ⟨hr, hc⟩, Finset.sum_eq_single d]
    · rw [if_pos ((hiff d).2 ⟨hc, rfl⟩), addf_apply, bias_apply]
    · intro d' _ hne
      rw [if_neg (fun h => hne ((hiff d').1 h).2)]
    · intro h; exact absurd (Finset.mem_univ d) h
  · rw [if_neg (fun h => hc h.2)]
    symm
    apply Finset.sum_eq_zero
    intro d' _
    rw [if_neg (fun h => hc ((hiff d').1 h).1)]

/-- The counts over all the nodes are the scatter-add of ones by the graph ids into zeros. -/
theorem pcnt_total (g : Fin 512) : pcnt q 200000 (ix2 g (0 : Fin 1)) = Cert.RefSpec.poolCnt (F := Ideal) q (ix1 g) := by
  unfold Cert.RefSpec.poolCnt Host.scatterAdd
  rw [Ideal.hostScatterAdd_def]
  unfold Ideal.hostScatterAdd
  rw [broadcastInDim_scalar_apply, constant_apply, Ideal.ofBits_zero_f32, zero_add]
  rw [Finset.sum_filter, sum_idx1]
  show (∑ r : Fin 200000, if r.val < 200000 ∧ q (ix2 r (0 : Fin 1)) = BitVec.ofNat 32 g.val then (1 : EReal) else 0) = _
  apply Finset.sum_congr rfl
  intro r _
  rw [broadcastInDim_scalar_apply, constant_apply, Ideal.ofBits_one_f32]
  have hr : r.val < 200000 := r.isLt
  have hiff := (D1_hit q r g).trans (toInt_eq_iff_word _ g.val g.isLt)
  by_cases hc : q (ix2 r (0 : Fin 1)) = BitVec.ofNat 32 g.val
  · rw [if_pos ⟨hr, hc⟩, if_pos (hiff.2 hc)]
  · rw [if_neg (fun h => hc h.2), if_neg (fun h => hc (hiff.1 h))]

end Cert.KernelIdeal.HandV

end
-- ==== Proof.KI.PoolSoftmax.lean ====
/-
  The last block's finishing step, o / max(s, 1) followed by the log-softmax along the classes, is the same function
  in the kernel's vector operations and in the host's: the quotient, the row maximum from minus infinity, the
  exponential, the row sum, the logarithm are each one function of the extended reals on both sides.
-/
import proofs.«404303_j14577119003090_1_alg».proof.Proof.Spec
import proofs.«404303_j14577119003090_1_alg».proof.Proof.Gen.KernelIdeal.Skeleton
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.HandV

open Idealize.ShloMosaic Idealize.ShloMosaic.ValueIdx Idealize.SL.Sem
open Cert.KernelIdeal Cert.KernelIdeal.Gen

variable (a : (⟨Cert.ReferenceIdeal.S200000x3, .f32⟩ : BufTy).Contents (Elt Ideal))
  (b : (⟨Cert.ReferenceIdeal.S1x3, .f32⟩ : BufTy).Contents (Elt Ideal))
  (q : (⟨Cert.ReferenceIdeal.S200000x1, .i32⟩ : BufTy).Contents (Elt Ideal))

/-! ## A column beside a matrix: the layout steps read at (row, class)

The step keeps every per-row number (the count, the row maximum, the logarithm of the row sum) as a column of
one entry per row and spreads it over the classes. Entry (p, c) of the spread column is the row's number. -/

section Columns
variable {α : Type}

/-- A vector of m numbers seen as an m x 1 column: entry (i, u) is the vector's entry i. -/
theorem shapeCast_a_a1_apply {m : ℕ} (x : (⟨1, ![m]⟩ : Shape).Idx → α)
    (h : (⟨1, ![m]⟩ : Shape).ShapeCasts ⟨2, ![m, 1]⟩) (i : Fin m) (u : Fin 1) :
    shapeCast ⟨2, ![m, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An m x 1 column spread over n classes by the vector unit: entry (p, c) is the column's entry (p, 0). -/
theorem broadcastTo_a1_ab_apply {m n : ℕ} (v : (⟨2, ![m, 1]⟩ : Shape).Idx → α)
    (h : (⟨2, ![m, 1]⟩ : Shape).Broadcasts ⟨2, ![m, n]⟩) (p : Fin m) (c : Fin n) :
    broadcastTo ⟨2, ![m, n]⟩ v h (ix2 p c) = v (ix2 p (0 : Fin 1)) := by
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

/-- The host's column of a vector (axis 0 kept): entry (p, u) is the vector's entry p. -/
theorem broadcastInDim_a_a1_apply {m : ℕ} (h : (⟨1, ![m]⟩ : Shape).BroadcastsInDim ⟨2, ![m, 1]⟩ ![0])
    (v : (⟨1, ![m]⟩ : Shape).Idx → α) (p : Fin m) (u : Fin 1) :
    broadcastInDim ⟨2, ![m, 1]⟩ ![0] h v (ix2 p u) = v (ix1 p) := by
  refine broadcastInDim_apply _ h v (ix2 p u) (ix1 p) fun ax => ?_
  match ax with
  | ⟨0, _⟩ =>
    show p.val = if m = 1 then 0 else p.val
    split
    · have := p.isLt; omega
    · rfl

/-- The host's spread of an m x 1 column over n classes (both axes kept): entry (p, c) is the column's (p, 0). -/
theorem broadcastInDim_a1_ab_apply {m n : ℕ} (h : (⟨2, ![m, 1]⟩ : Shape).BroadcastsInDim ⟨2, ![m, n]⟩ ![0, 1])
    (v : (⟨2, ![m, 1]⟩ : Shape).Idx → α) (p : Fin m) (c : Fin n) :
    broadcastInDim ⟨2, ![m, n]⟩ ![0, 1] h v (ix2 p c) = v (ix2 p (0 : Fin 1)) := by
  refine broadcastInDim_apply _ h v (ix2 p c) (ix2 p (0 : Fin 1)) fun ax => ?_
  match ax with
  | ⟨0, _⟩ =>
    show p.val = if m = 1 then 0 else p.val
    split
    · have := p.isLt; omega
    · rfl
  | ⟨1, _⟩ => rfl

end Columns

/-! ## A reduction along the classes read at a row

Both reductions run over the three classes of one row; the index of class k in row p is (p, k). -/

/-- Row p with class k put in is the index (p, k). -/
theorem lift_row (h : S512x3.Reduces [1] S512) (p : Fin 512) (k : Fin 3) : h.lift (ix1 p) k = ix2 p k :=
  funext fun c => Fin.ext (by match c with | ⟨0, _⟩ => rfl | ⟨1, _⟩ => rfl)

/-- The vector unit's row maximum from minus infinity is the maximum, from minus infinity, of the row's three entries. -/
theorem rowMax_vec (y : FVec Ideal S512x3 .f32) (h : S512x3.Reduces [1] S512) (hφ : FKind.Formats .f32)
    (hacc : (0xFF800000#32 : BitVec 32) = 0xFF800000#32) (p : Fin 512) :
    multiReduction .maximumf [1] S512 y 0xFF800000#32 h hφ hacc (ix1 p)
      = (Finset.univ : Finset (Fin 3)).fold max (Ideal.ofBits .f32 0xFF800000#32) (fun k => y (ix2 p k)) := by
  refine (Ideal.multiReduction_maximumf_single y 0xFF800000#32 h hφ hacc (ix1 p)).trans ?_
  exact congrArg (fun f : Fin 3 → EReal => (Finset.univ : Finset (Fin 3)).fold max (Ideal.ofBits .f32 0xFF800000#32) f)
    (funext fun k => congrArg y (lift_row h p k))

/-- The host's row maximum from an initial scalar is the maximum, from that scalar, of the row's three entries. -/
theorem rowMax_host {u : Shape} (x : S512x3.Idx → Ideal .f32) (init : u.Idx → Ideal .f32)
    (h' : S512x3.ReducesTo [1] S512) (hu : 0 < u.numel) (p : Fin 512) :
    Host.reduce (FloatOps.maximumf (F := Ideal) (φ := .f32)) x init h' hu (ix1 p)
      = (Finset.univ : Finset (Fin 3)).fold max (init (Shape.Idx.first hu)) (fun k => x (ix2 p k)) := by
  have h : S512x3.Reduces [1] S512 := by decide
  refine (Host.reduce_eq_fold_single _ x init h' h hu (ix1 p)).trans ?_
  exact congrArg (fun f : Fin 3 → EReal => (Finset.univ : Finset (Fin 3)).fold max (init (Shape.Idx.first hu)) f)
    (funext fun k => congrArg x (lift_row h p k))

/-- The vector unit's row sum is the sum of the row's three entries. -/
theorem rowSum_vec (y : FVec Ideal S512x3 .f32) (h : S512x3.Reduces [1] S512) (hφ : FKind.Formats .f32)
    (hacc : (0x00000000#32 : BitVec 32) = 0x00000000#32) (p : Fin 512) :
    multiReduction .add [1] S512 y 0x00000000#32 h hφ hacc (ix1 p) = ∑ k : Fin 3, y (ix2 p k) := by
  refine (Ideal.multiReduction_add_single y 0x00000000#32 h hφ hacc (ix1 p)).trans ?_
  exact Finset.sum_congr rfl fun k _ => congrArg y (lift_row h p k)

/-- The host's row sum from an initial scalar is that scalar plus the sum of the row's three entries. -/
theorem rowSum_host {u : Shape} (y : FVec Ideal S512x3 .f32) (init : u.Idx → Ideal .f32)
    (h' : S512x3.ReducesTo [1] S512) (hu : 0 < u.numel) (p : Fin 512) :
    Host.reduceAdd y init h' hu (ix1 p) = init (Shape.Idx.first hu) + ∑ k : Fin 3, y (ix2 p k) := by
  have h : S512x3.Reduces [1] S512 := by decide
  refine (hostReduceAdd_apply y init h' hu (ix1 p)).trans ?_
  refine (Ideal.hostReduceAdd_single h' h y _ (ix1 p)).trans ?_
  exact congrArg (_ + ·) (Finset.sum_congr rfl fun k _ => congrArg y (lift_row h p k))

/-! ## One row's log-softmax as a function of the row's three numbers

With t the row's largest number (taken from minus infinity), entry d of the result is (x d - t) - log (sum over the
classes of exp (x k - t)). Each program is read, at (g, d), as this function of its row g; the rows agree because
the two quotients do. -/

/-- The largest of a row's three numbers: the maximum from minus infinity, joined once more with minus infinity as
    both programs do. -/
def rowTop (x : Fin 3 → EReal) : EReal :=
  max (Ideal.ofBits .f32 0xFF800000#32) ((Finset.univ : Finset (Fin 3)).fold max (Ideal.ofBits .f32 0xFF800000#32) x)

/-- The log-softmax of one row. -/
def rowLsm (x : Fin 3 → EReal) (d : Fin 3) : EReal :=
  (x d - rowTop x) - Ideal.log (∑ k : Fin 3, Ideal.exp (x k - rowTop x))

/-- The vector unit's exponential at an index. -/
theorem vexp_apply {s : Shape} (v : FVec Ideal s .f32) (i : s.Idx) : exp v i = Ideal.exp (v i) := rfl
/-- The vector unit's logarithm at an index. -/
theorem vlog_apply {s : Shape} (v : FVec Ideal s .f32) (i : s.Idx) : log v i = Ideal.log (v i) := rfl
/-- The host's exponential at an index: the same function. -/
theorem hexp_apply {s : Shape} (v : FVec Ideal s .f32) (i : s.Idx) : Host.exp v i = Ideal.exp (v i) := rfl
/-- The host's logarithm at an index: the same function. -/
theorem hlog_apply {s : Shape} (v : FVec Ideal s .f32) (i : s.Idx) : Host.log v i = Ideal.log (v i) := rfl
/-- A scalar constant of the kernel is the extended real its word denotes. -/
theorem scalar_ofBits_f32 (w : BitVec 32) : Scalar.ofBits (F := Ideal) .f32 w = Ideal.ofBits .f32 w := rfl

/-! ### The host's side -/

/-- The host's shifted row: the entry minus the row's largest number. -/
theorem shifted_apply (X : (⟨Cert.ReferenceIdeal.S512x3, .f32⟩ : BufTy).Contents (Elt Ideal)) (g : Fin 512) (d : Fin 3) :
    Cert.RefSpec.shifted (F := Ideal) X (ix2 g d) = X (ix2 g d) - rowTop (fun k => X (ix2 g k)) := by
  unfold Cert.RefSpec.shifted rowTop
  rw [subf_apply, broadcastInDim_a1_ab_apply, broadcastInDim_a_a1_apply, maximumf_apply,
    broadcastInDim_scalar_apply, rowMax_host, constant_apply, constant_apply]

/-- The host's log-softmax at (g, d) is the row function of row g. -/
theorem logSoftmax_apply (X : (⟨Cert.ReferenceIdeal.S512x3, .f32⟩ : BufTy).Contents (Elt Ideal)) (g : Fin 512) (d : Fin 3) :
    Cert.RefSpec.logSoftmax (F := Ideal) X (ix2 g d) = rowLsm (fun k => X (ix2 g k)) d := by
  unfold Cert.RefSpec.logSoftmax rowLsm
  rw [subf_apply, shifted_apply, broadcastInDim_a1_ab_apply, hlog_apply, broadcastInDim_a_a1_apply, rowSum_host,
    constant_apply, Ideal.ofBits_zero_f32, zero_add]
  simp only [hexp_apply, shifted_apply]

/-! ### The kernel's side -/

/-- The kernel's finishing step at (g, d) is the row function of the quotients of row g. -/
theorem pay6_apply (s : Vec Ideal S512x1 .f32) (o : Vec Ideal S512x3 .f32) (g : Fin 512) (d : Fin 3) :
    k2_pay6 (F := Ideal) s o (ix2 g d)
      = rowLsm (fun k => Ideal.div (o (ix2 g k)) (max (s (ix2 g (0 : Fin 1))) (Ideal.ofBits .f32 0x3F800000#32))) d := by
  unfold k2_pay6 rowLsm rowTop
  simp only [shapeCast_self, subf_apply, broadcastTo_a1_ab_apply, shapeCast_a_a1_apply, vlog_apply,
    maximumf_apply, broadcast_apply, divf_apply, scalar_ofBits_f32]
  rw [rowSum_vec]
  simp only [vexp_apply, subf_apply, broadcastTo_a1_ab_apply, shapeCast_a_a1_apply, maximumf_apply, broadcast_apply,
    divf_apply]
  rw [rowMax_vec]
  simp only [divf_apply, broadcastTo_a1_ab_apply, maximumf_apply, broadcast_apply]

/-! ### The two sides -/

/-- The finishing step on sums o and counts s (s a 512 x 1 column, cnt the same numbers as a 512-vector). -/
theorem pay6_eq (s : Vec Ideal S512x1 .f32) (o : Vec Ideal S512x3 .f32)
    (cnt : (⟨Cert.ReferenceIdeal.S512, .f32⟩ : BufTy).Contents (Elt Ideal))
    (hs : ∀ g : Fin 512, s (ix2 g (0 : Fin 1)) = cnt (ix1 g)) :
    k2_pay6 (F := Ideal) s o = Cert.RefSpec.logSoftmax (F := Ideal) (Host.divf (F := Ideal) o
      (broadcastInDim Cert.ReferenceIdeal.S512x3 ![0, 1] Cert.ReferenceIdeal.Facts₀.bcast_S512x1_S512x3_0_1
        (broadcastInDim Cert.ReferenceIdeal.S512x1 ![0] Cert.ReferenceIdeal.Facts₀.bcast_S512_S512x1_0
          (maximumf (F := Ideal) cnt (broadcastInDim Cert.ReferenceIdeal.S512 ![] Cert.ReferenceIdeal.Facts₀.bcast_S_S512
            (constant (F := Ideal) Cert.ReferenceIdeal.S_ .f32 0x3F800000#32)))))) := by
  funext i
  obtain ⟨g, d, rfl⟩ : ∃ (g : Fin 512) (d : Fin 3), i = ix2 g d := ⟨i 0, i 1, eq_ix2 i⟩
  rw [pay6_apply, logSoftmax_apply]
  refine congrArg (fun x : Fin 3 → EReal => rowLsm x d) (funext fun k => ?_)
  rw [hostDivf_apply, broadcastInDim_a1_ab_apply, broadcastInDim_a_a1_apply, maximumf_apply,
    broadcastInDim_scalar_apply, constant_apply, hs g]

end Cert.KernelIdeal.HandV

end
-- ==== Proof.KI.PoolFinal.lean ====
/-
  The pooling stage's total: the one-hot sums and counts over all the nodes, finished off, are the reference's mean
  pool followed by its log-softmax.
-/
import proofs.«404303_j14577119003090_1_alg».proof.Proof.KI.PoolScatter
import proofs.«404303_j14577119003090_1_alg».proof.Proof.KI.PoolSoftmax
import Idealize.ShloMosaic.Lib.ValueIdx
import Idealize.ShloMosaic.PureOps.Ideal.Laws

set_option maxRecDepth 16384

noncomputable section

open scoped BigOperators

namespace Cert.KernelIdeal.HandV

open Idealize.ShloMosaic Idealize.ShloMosaic.ValueIdx Idealize.SL.Sem
open Cert.KernelIdeal Cert.KernelIdeal.Gen

variable (a : (⟨Cert.ReferenceIdeal.S200000x3, .f32⟩ : BufTy).Contents (Elt Ideal))
  (b : (⟨Cert.ReferenceIdeal.S1x3, .f32⟩ : BufTy).Contents (Elt Ideal))
  (q : (⟨Cert.ReferenceIdeal.S200000x1, .i32⟩ : BufTy).Contents (Elt Ideal))

/-- The sums and counts over all 200000 nodes, divided and log-softmaxed, are the reference's pooled value. -/
theorem pool_final : k2_pay6 (F := Ideal) (pcnt q 200000) (psum a b q 200000) = Cert.RefSpec.pool (F := Ideal) a b q := by
  rw [psum_total]
  exact pay6_eq _ _ _ (pcnt_total q)

end Cert.KernelIdeal.HandV

end
-- ==== Proof.KI.Val2.lean ====
/-
  What region 2 leaves in its result array, read at the exact extended-real instance: the per-graph means of the
  biased node features, log-softmaxed along the classes.
-/
import proofs.«404303_j14577119003090_1_alg».proof.Proof.Spec
import proofs.«404303_j14577119003090_1_alg».proof.Proof.KI.Fold
import proofs.«404303_j14577119003090_1_alg».proof.Proof.KI.PoolMath
import proofs.«404303_j14577119003090_1_alg».proof.Proof.KI.PoolFinal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Idealize.ShloMosaic Idealize.ShloMosaic.TcCoe Idealize.SL.Sem
open Idealize.ShloMosaic.Pipeline (Dat Cfg Window)
open Cert.KernelIdeal Cert.KernelIdeal.Gen Cert.KernelIdeal.Hand

/-!
  The region walks the 200000 nodes in fifty blocks of 4000 rows. A block of the node features (or of the graph ids)
  at point t is rows 4000 t .. 4000 t + 3999 of its array; the bias row and the result (512 x 3) are one block each,
  which never moves. The pair carried from point to point is, before the last point, the one-hot sums and the node
  counts over the nodes met so far (by induction on the point); the last point divides the sums over all the nodes by
  max(count, 1) and takes the log-softmax, which is the reference's pooled value. The result is written back once,
  after the last point, and its one block is the whole array: so the array ends holding that value.
-/

open Idealize.ShloMosaic.ValueIdx (ix2)

variable (V : (c : Dev nD) → (b : Ref sig .tc) → Buf (Elt Ideal) ((c : Thread nD τ).loc b))

/-- The three arrays the region reads, as it finds them: the node features (200000 x 3), the bias row (1 x 3) and
    the nodes' graph ids (200000 x 1). -/
abbrev poolA (c : Dev nD) : Vec Ideal S200000x3 .f32 := V c main_v56
abbrev poolB (c : Dev nD) : Vec Ideal S1x3 .f32 := V c main_v58
abbrev poolQ (c : Dev nD) : Vec Ideal S200000x1 .i32 := V c main_v57

/-- Their blocks at a point: 4000 rows of features, the bias row, 4000 graph ids. -/
abbrev poolABlk (c : Dev nD) (t : Fin cfg2.N) : Vec Ideal S4000x3 .f32 := iblk2 V c 0 t
abbrev poolBBlk (c : Dev nD) (t : Fin cfg2.N) : Vec Ideal S1x3 .f32 := iblk2 V c 1 t
abbrev poolQBlk (c : Dev nD) (t : Fin cfg2.N) : Vec Ideal S4000x1 .i32 := iblk2 V c 2 t

theorem points2 : cfg2.N = 50 := N_2

/-- Where each window's block sits at point t: the features' and the ids' blocks move down the rows with the point,
    the bias row's and the result's never move. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

/-- Row r of the features' block at point t is row 4000 t + r of the array. -/
theorem poolABlk_apply (c : Dev nD) (t : Fin cfg2.N) (r : Fin 4000) (d : Fin 3) (hb : 4000 * t.val + r.val < 200000) :
    poolABlk V c t (ix2 r d) = poolA V c (ix2 ⟨4000 * t.val + r.val, hb⟩ d) := by
  obtain ⟨e0, e1, -⟩ := blockIndex2 t
  show V c main_v56 (((cfg2.win 0).blk t).view.emb (ix2 r d)) = V c main_v56 (ix2 ⟨4000 * t.val + r.val, hb⟩ d)
  refine congrArg (V c main_v56) (funext fun a => Fin.ext ?_)
  match a with
  | ⟨0, _⟩ => show win2_0.index t (0 : Fin 2) * 4000 + 1 * r.val = 4000 * t.val + r.val; omega
  | ⟨1, _⟩ => show win2_0.index t (1 : Fin 2) * 3 + 1 * d.val = d.val; omega

/-- The bias row's block is the bias row. -/
theorem poolBBlk_apply (c : Dev nD) (t : Fin cfg2.N) (d : Fin 3) :
    poolBBlk V c t (ix2 0 d) = poolB V c (ix2 0 d) := by
  obtain ⟨-, -, e0, e1, -⟩ := blockIndex2 t
  show V c main_v58 (((cfg2.win 1).blk t).view.emb (ix2 0 d)) = V c main_v58 (ix2 0 d)
  refine congrArg (V c main_v58) (funext fun a => Fin.ext ?_)
  match a with
  | ⟨0, _⟩ => show win2_1.index t (0 : Fin 2) * 1 + 1 * 0 = 0; omega
  | ⟨1, _⟩ => show win2_1.index t (1 : Fin 2) * 3 + 1 * d.val = d.val; omega

/-- Entry r of the ids' block at point t is the id of node 4000 t + r. -/
theorem poolQBlk_apply (c : Dev nD) (t : Fin cfg2.N) (r : Fin 4000) (hb : 4000 * t.val + r.val < 200000) :
    poolQBlk V c t (ix2 r 0) = poolQ V c (ix2 ⟨4000 * t.val + r.val, hb⟩ 0) := by
  obtain ⟨-, -, -, -, e0, e1, -⟩ := blockIndex2 t
  show V c main_v57 (((cfg2.win 2).blk t).view.emb (ix2 r 0)) = V c main_v57 (ix2 ⟨4000 * t.val + r.val, hb⟩ 0)
  refine congrArg (V c main_v57) (funext fun a => Fin.ext ?_)
  match a with
  | ⟨0, _⟩ => show win2_2.index t (0 : Fin 2) * 4000 + 1 * r.val = 4000 * t.val + r.val; omega
  | ⟨1, _⟩ => show win2_2.index t (1 : Fin 2) * 1 + 1 * 0 = 0; omega

/-! ## The carried pair, point by point -/

/-- The pair after a later point is one step from the pair after the point before. -/
theorem outsAt2_succ (c : Dev nD) (n : ℕ) (hn : n + 1 < cfg2.N) :
    outsAt2 V c (n + 1) hn = step2 (n + 1) (iblk2 V c 0 ⟨n + 1, hn⟩) (iblk2 V c 1 ⟨n + 1, hn⟩) (iblk2 V c 2 ⟨n + 1, hn⟩)
      (outsAt2 V c n (Nat.lt_of_succ_lt hn)).1 (outsAt2 V c n (Nat.lt_of_succ_lt hn)).2 := rfl

theorem outsAt2_zero (c : Dev nD) (hn : 0 < cfg2.N) :
    outsAt2 V c 0 hn = step2 0 (iblk2 V c 0 ⟨0, hn⟩) (iblk2 V c 1 ⟨0, hn⟩) (iblk2 V c 2 ⟨0, hn⟩) (k2_pay1 (F := Ideal)) (k2_pay2 (F := Ideal)) := rfl

/-- One point's additions: from the sums and counts over the first 4000 n nodes to those over the first 4000 (n + 1). -/
theorem sums_step2 (c : Dev nD) (n : ℕ) (hn : n < cfg2.N) :
    k2_pay4 (F := Ideal) (poolABlk V c ⟨n, hn⟩) (poolBBlk V c ⟨n, hn⟩) (poolQBlk V c ⟨n, hn⟩) (psum (poolA V c) (poolB V c) (poolQ V c) (4000 * n))
      = psum (poolA V c) (poolB V c) (poolQ V c) (4000 * (n + 1)) := by
  have h50 : n < 50 := points2 ▸ hn
  exact psum_step (poolA V c) (poolB V c) (poolQ V c) n h50 (poolABlk V c ⟨n, hn⟩) (poolBBlk V c ⟨n, hn⟩) (poolQBlk V c ⟨n, hn⟩)
    (fun r d => poolABlk_apply V c ⟨n, hn⟩ r d (by have := r.isLt; show 4000 * n + r.val < 200000; omega))
    (fun d => poolBBlk_apply V c ⟨n, hn⟩ d)
    (fun r => poolQBlk_apply V c ⟨n, hn⟩ r (by have := r.isLt; show 4000 * n + r.val < 200000; omega))

theorem counts_step2 (c : Dev nD) (n : ℕ) (hn : n < cfg2.N) :
    k2_pay5 (F := Ideal) (poolQBlk V c ⟨n, hn⟩) (pcnt (poolQ V c) (4000 * n)) = pcnt (poolQ V c) (4000 * (n + 1)) := by
  have h50 : n < 50 := points2 ▸ hn
  exact pcnt_step (poolQ V c) n h50 (poolQBlk V c ⟨n, hn⟩)
    (fun r => poolQBlk_apply V c ⟨n, hn⟩ r (by have := r.isLt; show 4000 * n + r.val < 200000; omega))

/-- Before the last point the carried pair is the one-hot sums and the node counts over the nodes met so far. -/
theorem outsAt2_eq (c : Dev nD) : ∀ (n : ℕ) (hn : n < cfg2.N), n < 49 →
    outsAt2 V c n hn = (psum (poolA V c) (poolB V c) (poolQ V c) (4000 * (n + 1)), pcnt (poolQ V c) (4000 * (n + 1)))
  | 0, hn, _ => by
    rw [outsAt2_zero]
    unfold step2
    rw [if_neg (by decide : ¬(0 = 49)),
      (psum_zero (poolA V c) (poolB V c) (poolQ V c)).trans (congrArg (psum (poolA V c) (poolB V c) (poolQ V c)) (Nat.mul_zero 4000).symm),
      (pcnt_zero (poolQ V c)).trans (congrArg (pcnt (poolQ V c)) (Nat.mul_zero 4000).symm)]
    exact congrArg₂ Prod.mk (sums_step2 V c 0 hn) (counts_step2 V c 0 hn)
  | n + 1, hn, h49 => by
    rw [outsAt2_succ, outsAt2_eq c n (Nat.lt_of_succ_lt hn) (by omega)]
    unfold step2
    rw [if_neg (by omega : ¬(n + 1 = 49))]
    dsimp only
    exact congrArg₂ Prod.mk (sums_step2 V c (n + 1) hn) (counts_step2 V c (n + 1) hn)

/-- At the last point the sums over all the nodes are divided by max(count, 1) and log-softmaxed: the reference's pool. -/
theorem outsAt2_last (c : Dev nD) (h : 49 < cfg2.N) :
    (outsAt2 V c 49 h).1 = Cert.RefSpec.pool (F := Ideal) (poolA V c) (poolB V c) (poolQ V c) := by
  show (outsAt2 V c (48 + 1) h).1 = _
  rw [outsAt2_succ V c 48 h, outsAt2_eq V c 48 (Nat.lt_of_succ_lt h) (by omega)]
  unfold step2
  rw [if_pos rfl]
  dsimp only
  have hall : 4000 * (49 + 1) = 200000 := rfl
  refine (congrArg₂ (k2_pay6 (F := Ideal)) (counts_step2 V c 49 h) (sums_step2 V c 49 h)).trans ?_
  rw [hall]
  exact pool_final (poolA V c) (poolB V c) (poolQ V c)

/-! ## The result array -/

/-- The one write-back, at the last point, writes what that point left: the result's block is the whole array. -/
theorem writeBack2_eq (c : Dev nD) (G : Vec Ideal S512x3 .f32) (hG : ∀ h : 49 < cfg2.N, (outsAt2 V c 49 h).1 = G)
    (t : Fin cfg2.N) (hf : (cfg2.win 3).flush t = true) :
    (dat2 (F := Ideal) V c).flushed 3 t = ((cfg2.win 3).blk t).view.read (Elt Ideal) G := by
  have h49 : t.val = 49 := by have := (flush2_3 t).mp hf; have : t.val < 50 := lt_of_lt_of_eq t.isLt points2; omega
  obtain ⟨-, -, -, -, -, -, e0, e1⟩ := blockIndex2 t
  show (cfg2.win 3).cut (grid2.coords t) ((dat2 (F := Ideal) V c).after 3 t) = _
  rw [after2_3]
  obtain ⟨n, hn⟩ := t
  dsimp only at h49
  subst h49
  rw [hG hn]
  funext j
  show G j = G (((cfg2.win 3).blk ⟨49, hn⟩).view.emb j)
  refine congrArg G (funext fun a => Fin.ext ?_)
  match a with
  | ⟨0, _⟩ => show (j 0).val = win2_3.index ⟨49, hn⟩ (0 : Fin 2) * 512 + 1 * (j 0).val; omega
  | ⟨1, _⟩ => show (j 1).val = win2_3.index ⟨49, hn⟩ (1 : Fin 2) * 3 + 1 * (j 1).val; omega

/-- An index of the result array is in point t's block iff each coordinate is in the block's range on its axis. -/
theorem mem_resultBlock2 (t : Fin cfg2.N) (i : S512x3.Idx) :
    i ∈ ((cfg2.win 3).blk t).view.set ↔ ∀ a : Fin 2, win2_3.index t a * S512x3.size a ≤ (i a).val ∧ (i a).val < win2_3.index t a * S512x3.size a + S512x3.size a := by
  show i ∈ ((View.whole main_v59).slice (win2_3.rect t)).set ↔ _
  rw [View.set_slice_whole, Rect.mem_set_unit]
  exact Iff.rfl

/-- Region 2 leaves the pooled log-softmax in its result array. -/
theorem final2 (c : Dev nD) :
    (dat2 (F := Ideal) V c).arrAt 3 cfg2.N = Cert.RefSpec.pool (F := Ideal) (V c main_v56) (V c main_v58) (V c main_v57) := by
  have hlast : (49 : ℕ) < cfg2.N := by rw [points2]; decide
  refine (dat2 (F := Ideal) V c).arrAt_eq_of_cover 3 (Cert.RefSpec.pool (F := Ideal) (poolA V c) (poolB V c) (poolQ V c))
    (writeBack2_eq V c _ (fun h => outsAt2_last V c h)) fun i => ⟨⟨49, hlast⟩, (flush2_3 ⟨49, hlast⟩).mpr rfl, ?_⟩
  obtain ⟨-, -, -, -, -, -, e0, e1⟩ := blockIndex2 ⟨49, hlast⟩
  rw [mem_resultBlock2]
  intro a
  have h0 : (i 0).val < 512 := (i 0).isLt
  have h1 : (i 1).val < 3 := (i 1).isLt
  match a with
  | ⟨0, _⟩ => show win2_3.index ⟨49, hlast⟩ (0 : Fin 2) * 512 ≤ (i 0).val ∧ (i 0).val < win2_3.index ⟨49, hlast⟩ (0 : Fin 2) * 512 + 512; omega
  | ⟨1, _⟩ => show win2_3.index ⟨49, hlast⟩ (1 : Fin 2) * 3 ≤ (i 1).val ∧ (i 1).val < win2_3.index ⟨49, hlast⟩ (1 : Fin 2) * 3 + 3; omega

end Cert.KernelIdeal.HandV

end
-- ==== Proof.KI.Bridge.lean ====
/-
  The graph glue between the node-wise stages is the same in the kernel program and in the reference: each buffer
  the kernel program holds at a boundary of @main equals the reference's stage of the same arguments. The glue is
  never opened: on both sides it is the same tree of gather / scale / scatter-add operations over the same leaves.
-/
import proofs.«404303_j14577119003090_1_alg».proof.Proof.KI.Val01
import proofs.«404303_j14577119003090_1_alg».proof.Proof.KI.Val2
import proofs.«404303_j14577119003090_1_alg».proof.Proof.Gen.KernelIdeal.Regions

set_option maxRecDepth 16384

noncomputable section

namespace Cert.KernelIdeal.HandV

open Idealize.ShloMosaic Idealize.ShloMosaic.TcCoe Idealize.SL.Sem
open Idealize.ShloMosaic.Pipeline (Dat Cfg Window)
open Cert.KernelIdeal Cert.KernelIdeal.Gen Cert.KernelIdeal.Hand

namespace Glue

/-! ## A row or a column: reshaping a vector and broadcasting it along the new unit axis give the same array -/

/-- 64 entries as one row. -/
theorem row64 (x : (⟨S64, .f32⟩ : BufTy).Contents (Elt Ideal)) (h : S64.ShapeCasts S1x64) :
    shapeCast S1x64 x h = Cert.ReferenceIdeal.Read.val_main_v43 (F := Ideal) x := by
  funext i
  exact (shapeCast_apply x h i (Cert.ReferenceIdeal.Read.idx_main_v43 i) (by
    rewrite [Shape.rowMajor_val_one, Shape.rowMajor_val_two]
    have h0 : (i 0).val < 1 := (i 0).isLt
    show (i 1).val = (i 0).val * 64 + (i 1).val
    omega)).trans (Cert.ReferenceIdeal.Read.val_main_v43_apply (F := Ideal) x i).symm

/-- 3 entries as one row. -/
theorem row3 (x : (⟨S3, .f32⟩ : BufTy).Contents (Elt Ideal)) (h : S3.ShapeCasts S1x3) :
    shapeCast S1x3 x h = Cert.ReferenceIdeal.Read.val_main_v60 (F := Ideal) x := by
  funext i
  exact (shapeCast_apply x h i (Cert.ReferenceIdeal.Read.idx_main_v60 i) (by
    rewrite [Shape.rowMajor_val_one, Shape.rowMajor_val_two]
    have h0 : (i 0).val < 1 := (i 0).isLt
    show (i 1).val = (i 0).val * 3 + (i 1).val
    omega)).trans (Cert.ReferenceIdeal.Read.val_main_v60_apply (F := Ideal) x i).symm

/-- 200000 graph ids as one column. -/
theorem col200000 (x : (⟨S200000, .i32⟩ : BufTy).Contents (Elt Ideal)) (h : S200000.ShapeCasts S200000x1) :
    shapeCast S200000x1 x h = Cert.ReferenceIdeal.Read.val_main_v65 (F := Ideal) x := by
  funext i
  exact (shapeCast_apply x h i (Cert.ReferenceIdeal.Read.idx_main_v65 i) (by
    rewrite [Shape.rowMajor_val_one, Shape.rowMajor_val_two]
    have h1 : (i 1).val < 1 := (i 1).isLt
    show (i 0).val = (i 0).val * 1 + (i 1).val
    omega)).trans (Cert.ReferenceIdeal.Read.val_main_v65_apply (F := Ideal) x i).symm

variable (m : (ℓ : Loc nD τ sig) → Buf (Elt Ideal) ℓ) (c : Dev nD)

/-! ## Buffers a stretch or a region does not write -/

theorem w1_keep (r : Ref sig .tc) (h : r ∉ hostOps0_W) :
    Hand.W1 m c (Proc.devRef .tc r) = m ((c.tc : Thread nD τ).loc r) :=
  StableHlo.after_of_writes_sub hostOps0 _ hostOps0_writes h
theorem w3_keep (r : Ref sig .tc) (h : r ∉ hostOps1_W) :
    Hand.W3 m c (Proc.devRef .tc r) = Hand.W2 m c (Proc.devRef .tc r) :=
  StableHlo.after_of_writes_sub hostOps1 _ hostOps1_writes h
theorem w5_keep (r : Ref sig .tc) (h : r ∉ hostOps2_W) :
    Hand.W5 m c (Proc.devRef .tc r) = Hand.W4 m c (Proc.devRef .tc r) :=
  StableHlo.after_of_writes_sub hostOps2 _ hostOps2_writes h

/-! ## The first stretch: the edge lists with their self loops, and the edge weights -/

/-- The source ids. -/
theorem w1_v3 : Hand.W1 m c (Proc.devRef .tc main_v3)
    = Cert.ReferenceIdeal.Read.val_main_v3 (F := Ideal) (m ((c.tc : Thread nD τ).loc main_arg1)) := by
  show StableHlo.after hostOps0 (Hand.W0 m c) (Proc.devRef .tc main_v3) = _
  after_results
  rfl

/-- The destination ids. -/
theorem w1_v6 : Hand.W1 m c (Proc.devRef .tc main_v6)
    = Cert.ReferenceIdeal.Read.val_main_v6 (F := Ideal) (m ((c.tc : Thread nD τ).loc main_arg1)) := by
  show StableHlo.after hostOps0 (Hand.W0 m c) (Proc.devRef .tc main_v6) = _
  after_results
  rfl

/-- The edge weights: the product of the two end points' inverse square-root degrees. -/
theorem w1_v29 : Hand.W1 m c (Proc.devRef .tc main_v29)
    = Cert.ReferenceIdeal.Read.val_main_v29 (F := Ideal) (m ((c.tc : Thread nD τ).loc main_arg1)) := by
  show StableHlo.after hostOps0 (Hand.W0 m c) (Proc.devRef .tc main_v29) = _
  after_results_simp
  rfl

/-! ## Region 0 and the second stretch -/

theorem w2_v30 : Hand.W2 m c (Proc.devRef .tc main_v30)
    = Cert.ReferenceIdeal.Read.val_main_v30 (F := Ideal) (m ((c.tc : Thread nD τ).loc main_arg0)) (m ((c.tc : Thread nD τ).loc main_arg3)) := by
  have e0 : Hand.V1 m c main_arg0 = m ((c.tc : Thread nD τ).loc main_arg0) := w1_keep m c main_arg0 (by decide)
  have e3 : Hand.V1 m c main_arg3 = m ((c.tc : Thread nD τ).loc main_arg3) := w1_keep m c main_arg3 (by decide)
  refine (Hand.W2_arr m c 2).trans ((final0 (Hand.V1 m) c).trans ?_)
  rw [e0, e3, Cert.RefSpec.val_v30_eq]

theorem w2_v3 : Hand.W2 m c (Proc.devRef .tc main_v3)
    = Cert.ReferenceIdeal.Read.val_main_v3 (F := Ideal) (m ((c.tc : Thread nD τ).loc main_arg1)) :=
  (Hand.W2_of_ne m c main_v3 (by decide)).trans (w1_v3 m c)
theorem w2_v6 : Hand.W2 m c (Proc.devRef .tc main_v6)
    = Cert.ReferenceIdeal.Read.val_main_v6 (F := Ideal) (m ((c.tc : Thread nD τ).loc main_arg1)) :=
  (Hand.W2_of_ne m c main_v6 (by decide)).trans (w1_v6 m c)
theorem w2_v29 : Hand.W2 m c (Proc.devRef .tc main_v29)
    = Cert.ReferenceIdeal.Read.val_main_v29 (F := Ideal) (m ((c.tc : Thread nD τ).loc main_arg1)) :=
  (Hand.W2_of_ne m c main_v29 (by decide)).trans (w1_v29 m c)
theorem w2_arg (r : Ref sig .tc) (h : r ∉ hostOps0_W) (h' : ∀ w, Pipeline.arrRef spec0 w ≠ r) :
    Hand.W2 m c (Proc.devRef .tc r) = m ((c.tc : Thread nD τ).loc r) :=
  (Hand.W2_of_ne m c r h').trans (w1_keep m c r h)

/-- The first aggregation: the weighted sum, over each node's incoming edges, of the first layer's rows. -/
theorem w3_v42 : Hand.W3 m c (Proc.devRef .tc main_v42)
    = Cert.ReferenceIdeal.Read.val_main_v42 (F := Ideal) (m ((c.tc : Thread nD τ).loc main_arg0)) (m ((c.tc : Thread nD τ).loc main_arg1)) (m ((c.tc : Thread nD τ).loc main_arg3)) := by
  show StableHlo.after hostOps1 (Hand.W2 m c) (Proc.devRef .tc main_v42) = _
  after_results
  rw [w2_v30 m c, w2_v3 m c, w2_v6 m c, w2_v29 m c]
  rfl

/-- The first bias as a row. -/
theorem w3_v43 : Hand.W3 m c (Proc.devRef .tc main_v43)
    = Cert.ReferenceIdeal.Read.val_main_v43 (F := Ideal) (m ((c.tc : Thread nD τ).loc main_arg4)) := by
  show StableHlo.after hostOps1 (Hand.W2 m c) (Proc.devRef .tc main_v43) = _
  after_results
  rw [w2_arg m c main_arg4 (by decide) (by decide)]
  exact row64 _ shapeCasts_S64_S1x64

/-! ## Region 1 and the third stretch -/

theorem w4_v44 : Hand.W4 m c (Proc.devRef .tc main_v44)
    = Cert.ReferenceIdeal.Read.val_main_v47 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  have e42 : Hand.V3 m c main_v42 = _ := w3_v42 m c
  have e43 : Hand.V3 m c main_v43 = _ := w3_v43 m c
  have e5 : Hand.V3 m c main_arg5 = m ((c.tc : Thread nD τ).loc main_arg5) :=
    (w3_keep m c main_arg5 (by decide)).trans (w2_arg m c main_arg5 (by decide) (by decide))
  refine (Hand.W4_arr m c 3).trans ((final1 (Hand.V3 m) c).trans ?_)
  rw [e42, e43, e5, Cert.RefSpec.val_v47_eq]

theorem w4_v3 : Hand.W4 m c (Proc.devRef .tc main_v3)
    = Cert.ReferenceIdeal.Read.val_main_v3 (F := Ideal) (m ((c.tc : Thread nD τ).loc main_arg1)) :=
  (Hand.W4_of_ne m c main_v3 (by decide)).trans ((w3_keep m c main_v3 (by decide)).trans (w2_v3 m c))
theorem w4_v6 : Hand.W4 m c (Proc.devRef .tc main_v6)
    = Cert.ReferenceIdeal.Read.val_main_v6 (F := Ideal) (m ((c.tc : Thread nD τ).loc main_arg1)) :=
  (Hand.W4_of_ne m c main_v6 (by decide)).trans ((w3_keep m c main_v6 (by decide)).trans (w2_v6 m c))
theorem w4_v29 : Hand.W4 m c (Proc.devRef .tc main_v29)
    = Cert.ReferenceIdeal.Read.val_main_v29 (F := Ideal) (m ((c.tc : Thread nD τ).loc main_arg1)) :=
  (Hand.W4_of_ne m c main_v29 (by decide)).trans ((w3_keep m c main_v29 (by decide)).trans (w2_v29 m c))
theorem w4_arg (r : Ref sig .tc) (h0 : r ∉ hostOps0_W) (h0' : ∀ w, Pipeline.arrRef spec0 w ≠ r)
    (h1 : r ∉ hostOps1_W) (h1' : ∀ w, Pipeline.arrRef spec1 w ≠ r) :
    Hand.W4 m c (Proc.devRef .tc r) = m ((c.tc : Thread nD τ).loc r) :=
  (Hand.W4_of_ne m c r h1').trans ((w3_keep m c r h1).trans (w2_arg m c r h0 h0'))

/-- The second aggregation: the weighted sum, over each node's incoming edges, of the second layer's rows. -/
theorem w5_v56 : Hand.W5 m c (Proc.devRef .tc main_v56)
    = Cert.ReferenceIdeal.Read.val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps2 (Hand.W4 m c) (Proc.devRef .tc main_v56) = _
  after_results
  rw [w4_v44 m c, w4_v3 m c, w4_v6 m c, w4_v29 m c]
  rfl

/-- The graph ids as a column. -/
theorem w5_v57 : Hand.W5 m c (Proc.devRef .tc main_v57)
    = Cert.ReferenceIdeal.Read.val_main_v65 (F := Ideal) (m ((c.tc : Thread nD τ).loc main_arg2)) := by
  show StableHlo.after hostOps2 (Hand.W4 m c) (Proc.devRef .tc main_v57) = _
  after_results
  rw [w4_arg m c main_arg2 (by decide) (by decide) (by decide) (by decide)]
  exact col200000 _ shapeCasts_S200000_S200000x1

/-- The second bias as a row. -/
theorem w5_v58 : Hand.W5 m c (Proc.devRef .tc main_v58)
    = Cert.ReferenceIdeal.Read.val_main_v60 (F := Ideal) (m ((c.tc : Thread nD τ).loc main_arg6)) := by
  show StableHlo.after hostOps2 (Hand.W4 m c) (Proc.devRef .tc main_v58) = _
  after_results
  rw [w4_arg m c main_arg6 (by decide) (by decide) (by decide) (by decide)]
  exact row3 _ shapeCasts_S3_S1x3

end Glue

/-! ## Region 2: the end of @main -/

variable (m : (ℓ : Loc nD τ sig) → Buf (Elt Ideal) ℓ) (c : Dev nD)

/-- What the last region leaves in its result array is the reference's result at the same arguments. -/
theorem bridge :
    (dat2 (F := Ideal) (Hand.V5 m) c).arrAt 3 cfg2.N
      = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have e56 : Hand.V5 m c main_v56 = _ := Glue.w5_v56 m c
  have e57 : Hand.V5 m c main_v57 = _ := Glue.w5_v57 m c
  have e58 : Hand.V5 m c main_v58 = _ := Glue.w5_v58 m c
  refine (final2 (Hand.V5 m) c).trans ?_
  rw [e56, e58, e57, Cert.RefSpec.val_v75_eq]

end Cert.KernelIdeal.HandV

end
-- ==== Proof.lean ====
/-
  A two-layer graph convolution with mean pooling and a log-softmax, as three tiled kernels among host gathers
  and scatter-adds, against its plain jnp reference.

  The kernel program computes x · W1 per node (region 0), aggregates over the edges on the host, computes
  relu(agg + b1) · W2 per node (region 1), aggregates again, and pools per graph (region 2): fifty blocks of
  4000 nodes are summed into a 512 x 3 block through a one-hot matrix product, the node counts beside them, and
  the last block's step divides by max(count, 1) and takes the log-softmax along the classes.

  Frames. Each program terminates, faults nowhere and leaves its arguments as launched: for the two kernel
  programs by the several-regions launch over the three regions' proof data (Proof/K/Run.lean, Proof/KI/Run.lean,
  one text read at both instances); for the reference by its run.

  Values, at the exact extended-real instance. A change of float format is the identity, so regions 0 and 1 leave
  the reference's two node-wise products in their result arrays (Proof/KI/Val01.lean). A one-hot product
  Σ_r [id r = g] · v r is the scatter-add of v by id, since 0 · v = 0 and 1 · v = v for every extended real v and
  addition is commutative and associative; so region 2 leaves the reference's pooled log-softmax
  (Proof/KI/Val2.lean). The host steps between the regions are the same operations in both programs, so the
  kernel program's result is the reference's composed value of the same arguments (Proof/KI/Bridge.lean).
  No law used here needs the inputs finite: the precondition is never opened.
-/
import proofs.«404303_j14577119003090_1_alg».proof.Defs
import proofs.«404303_j14577119003090_1_alg».proof.Proof.Gen.Kernel
import proofs.«404303_j14577119003090_1_alg».proof.Proof.Gen.KernelIdeal
import proofs.«404303_j14577119003090_1_alg».proof.Proof.Gen.ReferenceIdeal
import proofs.«404303_j14577119003090_1_alg».proof.Proof.Gen.Pre_finite_inputs
import proofs.«404303_j14577119003090_1_alg».proof.Proof.Gen.ReferenceIdeal.Run
import proofs.«404303_j14577119003090_1_alg».proof.Proof.Gen.ReferenceIdeal.Read
import proofs.«404303_j14577119003090_1_alg».proof.Proof.K.Run
import proofs.«404303_j14577119003090_1_alg».proof.Proof.KI.Run
import proofs.«404303_j14577119003090_1_alg».proof.Proof.KI.Bridge
import Idealize.ShloMosaic.Adequacy
import Idealize.ShloMosaic.Init

noncomputable section

namespace Cert.Proof

open Idealize.ShloMosaic Idealize.SL.Sem

/-- The word-level kernel program terminates and keeps its arguments. -/
theorem frame_k : Cert.frame_Kernel := fun m ρ _ => Cert.Kernel.Hand.frame (F := Bits) m ρ

/-- So does the kernel program read over the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, both programs end with the pooled log-softmax of the same
    composed value: the kernel program's result array after region 2, which is the reference's term. -/
theorem algebraic : Cert.algebraic_KernelIdeal_ReferenceIdeal := by
  intro m ρ m' ρ' _ hagree
  refine ⟨fun c => (Cert.KernelIdeal.Hand.dat2 (F := Ideal) (Cert.KernelIdeal.Hand.V5 m) c).arrAt 3 Cert.KernelIdeal.cfg2.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, (hagree c).1, (hagree c).2.1, (hagree c).2.2.1, (hagree c).2.2.2.1,
    (hagree c).2.2.2.2.1, (hagree c).2.2.2.2.2.1, (hagree c).2.2.2.2.2.2]
  exact (Cert.KernelIdeal.HandV.bridge m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
